-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.named_const.Statement Cert.KernelIdeal.κ "inv_1000" .f32 0x3A83126F#32 ((1 / 1000 : ℝ) : EReal)
  ∧ IdealRules.named_const.Statement Cert.KernelIdeal.κ "inv_1000" .f32 0x3A83126F#32 ((1 / 1000 : ℝ) : EReal)
  ∧ IdealRules.named_const.Statement Cert.KernelIdeal.κ "inv_86400" .f32 0x37422E45#32 ((1 / 86400 : ℝ) : EReal)
  ∧ IdealRules.named_const.Statement Cert.KernelIdeal.κ "inv_86400" .f32 0x37422E45#32 ((1 / 86400 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x100 : Shape := ⟨2, ![4, 100]⟩
abbrev S4096x2048 : Shape := ⟨2, ![4096, 2048]⟩
abbrev S4 : Shape := ⟨1, ![4]⟩
abbrev S2x50 : Shape := ⟨2, ![2, 50]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4x100 : S_.BroadcastsInDim S4x100 (![] : Fin 0 → Fin S4x100.rank)
  reducesTo_S4x100_S_d0_1 : S4x100.ReducesTo [0, 1] S_
  bcast_S_S2x50 : S_.BroadcastsInDim S2x50 (![] : Fin 0 → Fin S2x50.rank)
  reducesTo_S2x50_S_d0_1 : S2x50.ReducesTo [0, 1] S_

variable [Facts]

def fn_part2 {F : FTy → Type} [FloatOps F] (main_arg0 : IVec S4x100 32) (main_v32 : IVec S_ 1) (main_c_12 : IVec S_ 32) : IVec S_ 1 :=
  let main_v33 : IVec S4x100 32 := broadcastInDim S4x100 ![] bcast_S_S4x100 main_c_12
  let main_v34 : IVec S4x100 1 := cmpi .sle main_arg0 main_v33
  let main_c_13 : IVec S_ 1 := constantI S_ 1 1#1
  let main_v35 : IVec S_ 1 := (fun x v => Host.reduce IntOp.andi x v reducesTo_S4x100_S_d0_1 h_S_) main_v34 main_c_13
  let main_v36 : IVec S_ 1 := andi main_v32 main_v35
  main_v36

def fn_part1 {F : FTy → Type} [FloatOps F] (main_arg0 : IVec S4x100 32) (main_arg6 : FVec F S2x50 .f32) (main_arg7 : FVec F S2x50 .f32) (main_v13 : IVec S_ 1) (main_v16 : IVec S2x50 1) : IVec S_ 1 :=
  let main_c_5 : IVec S_ 1 := constantI S_ 1 1#1
  let main_v17 : IVec S_ 1 := (fun x v => Host.reduce IntOp.andi x v reducesTo_S2x50_S_d0_1 h_S_) main_v16 main_c_5
  let main_v18 : IVec S_ 1 := andi main_v13 main_v17
  let main_v19 : FVec F S2x50 .f32 := Host.absf main_arg6
  let main_cst_6 : FVec F S_ .f32 := constant S_ .f32 0x7F800000#32
  let main_v20 : FVec F S2x50 .f32 := broadcastInDim S2x50 ![] bcast_S_S2x50 main_cst_6
  let main_v21 : IVec S2x50 1 := cmpf .olt main_v19 main_v20
  let main_c_7 : IVec S_ 1 := constantI S_ 1 1#1
  let main_v22 : IVec S_ 1 := (fun x v => Host.reduce IntOp.andi x v reducesTo_S2x50_S_d0_1 h_S_) main_v21 main_c_7
  let main_v23 : IVec S_ 1 := andi main_v18 main_v22
  let main_v24 : FVec F S2x50 .f32 := Host.absf main_arg7
  let main_cst_8 : FVec F S_ .f32 := constant S_ .f32 0x7F800000#32
  let main_v25 : FVec F S2x50 .f32 := broadcastInDim S2x50 ![] bcast_S_S2x50 main_cst_8
  let main_v26 : IVec S2x50 1 := cmpf .olt main_v24 main_v25
  let main_c_9 : IVec S_ 1 := constantI S_ 1 1#1
  let main_v27 : IVec S_ 1 := (fun x v => Host.reduce IntOp.andi x v reducesTo_S2x50_S_d0_1 h_S_) main_v26 main_c_9
  let main_v28 : IVec S_ 1 := andi main_v23 main_v27
  let main_c_10 : IVec S_ 32 := constantI S_ 32 1#32
  let main_v29 : IVec S4x100 32 := broadcastInDim S4x100 ![] bcast_S_S4x100 main_c_10
  let main_v30 : IVec S4x100 1 := cmpi .sge main_arg0 main_v29
  let main_c_11 : IVec S_ 1 := constantI S_ 1 1#1
  let main_v31 : IVec S_ 1 := (fun x v => Host.reduce IntOp.andi x v reducesTo_S4x100_S_d0_1 h_S_) main_v30 main_c_11
  let main_v32 : IVec S_ 1 := andi main_v28 main_v31
  let main_c_12 : IVec S_ 32 := constantI S_ 32 4096#32
  fn_part2 (F := F) main_arg0 main_v32 main_c_12

def fn {F : FTy → Type} [FloatOps F] (main_arg0 : IVec S4x100 32) (main_arg1 : FVec F S4096x2048 .f32) (main_arg2 : FVec F S4x100 .f32) (main_arg3 : IVec S4 32) (main_arg4 : FVec F S2x50 .f32) (main_arg5 : FVec F S2x50 .f32) (main_arg6 : FVec F S2x50 .f32) (main_arg7 : FVec F S2x50 .f32) : IVec S_ 1 :=
  let main_v0 : FVec F S4096x2048 .f32 := Host.absf main_arg1
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4x100 .f32 := Host.absf main_arg2
  let main_cst_0 : FVec F S_ .f32 := constant S_ .f32 0x7F800000#32
  let main_v5 : FVec F S4x100 .f32 := broadcastInDim S4x100 ![] bcast_S_S4x100 main_cst_0
  let main_v6 : IVec S4x100 1 := cmpf .olt main_v4 main_v5
  let main_c_1 : IVec S_ 1 := constantI S_ 1 1#1
  let main_v7 : IVec S_ 1 := (fun x v => Host.reduce IntOp.andi x v reducesTo_S4x100_S_d0_1 h_S_) main_v6 main_c_1
  let main_v8 : IVec S_ 1 := andi main_v3 main_v7
  let main_v9 : FVec F S2x50 .f32 := Host.absf main_arg4
  let main_cst_2 : FVec F S_ .f32 := constant S_ .f32 0x7F800000#32
  let main_v10 : FVec F S2x50 .f32 := broadcastInDim S2x50 ![] bcast_S_S2x50 main_cst_2
  let main_v11 : IVec S2x50 1 := cmpf .olt main_v9 main_v10
  let main_c_3 : IVec S_ 1 := constantI S_ 1 1#1
  let main_v12 : IVec S_ 1 := (fun x v => Host.reduce IntOp.andi x v reducesTo_S2x50_S_d0_1 h_S_) main_v11 main_c_3
  let main_v13 : IVec S_ 1 := andi main_v8 main_v12
  let main_v14 : FVec F S2x50 .f32 := Host.absf main_arg5
  let main_cst_4 : FVec F S_ .f32 := constant S_ .f32 0x7F800000#32
  let main_v15 : FVec F S2x50 .f32 := broadcastInDim S2x50 ![] bcast_S_S2x50 main_cst_4
  let main_v16 : IVec S2x50 1 := cmpf .olt main_v14 main_v15
  fn_part1 (F := F) main_arg0 main_arg6 main_arg7 main_v13 main_v16
-- ==== Kernel.lean ====
abbrev S4x100 : Shape := ⟨2, ![4, 100]⟩
abbrev S4096x2048 : Shape := ⟨2, ![4096, 2048]⟩
abbrev S4 : Shape := ⟨1, ![4]⟩
abbrev S2x50 : Shape := ⟨2, ![2, 50]⟩
abbrev S_ : Shape := ⟨0, ![]⟩
abbrev S4x100x1 : Shape := ⟨3, ![4, 100, 1]⟩
abbrev S1 : Shape := ⟨1, ![1]⟩
abbrev S1x1x1 : Shape := ⟨3, ![1, 1, 1]⟩
abbrev S4x100x2048 : Shape := ⟨3, ![4, 100, 2048]⟩
abbrev S100 : Shape := ⟨1, ![100]⟩
abbrev S1x100 : Shape := ⟨2, ![1, 100]⟩
abbrev S4x1 : Shape := ⟨2, ![4, 1]⟩
abbrev S400x2048 : Shape := ⟨2, ![400, 2048]⟩
abbrev S400x1 : Shape := ⟨2, ![400, 1]⟩
abbrev S400x102400 : Shape := ⟨2, ![400, 102400]⟩
abbrev S400x128 : Shape := ⟨2, ![400, 128]⟩
abbrev S400x6400 : Shape := ⟨2, ![400, 6400]⟩
abbrev S1x50 : Shape := ⟨2, ![1, 50]⟩
abbrev S50 : Shape := ⟨1, ![50]⟩
abbrev S400x50 : Shape := ⟨2, ![400, 50]⟩
abbrev S400x1x128 : Shape := ⟨3, ![400, 1, 128]⟩
abbrev S400x50x1 : Shape := ⟨3, ![400, 50, 1]⟩
abbrev S400x50x128 : Shape := ⟨3, ![400, 50, 128]⟩
abbrev S400x128x50 : Shape := ⟨3, ![400, 128, 50]⟩
abbrev S4x100x2048x50 : Shape := ⟨4, ![4, 100, 2048, 50]⟩

abbrev nBuf : Space → Nat
  | .hbm => 59
  | .vmem => 10
  | .smem => 0
  | _ => 0

abbrev bufTy : (tb : Table) → Fin (tcTables nBuf tb) → BufTy
  | .hbm, ⟨0, _⟩ => ⟨S4x100, .i32⟩
  | .hbm, ⟨1, _⟩ => ⟨S4096x2048, .f32⟩
  | .hbm, ⟨2, _⟩ => ⟨S4x100, .f32⟩
  | .hbm, ⟨3, _⟩ => ⟨S4, .i32⟩
  | .hbm, ⟨4, _⟩ => ⟨S2x50, .f32⟩
  | .hbm, ⟨5, _⟩ => ⟨S2x50, .f32⟩
  | .hbm, ⟨6, _⟩ => ⟨S2x50, .f32⟩
  | .hbm, ⟨7, _⟩ => ⟨S2x50, .f32⟩
  | .hbm, ⟨8, _⟩ => ⟨S_, .i32⟩
  | .hbm, ⟨9, _⟩ => ⟨S4x100, .i32⟩
  | .hbm, ⟨10, _⟩ => ⟨S4x100, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S4x100, .i32⟩
  | .hbm, ⟨15, _⟩ => ⟨S4x100, .i32⟩
  | .hbm, ⟨16, _⟩ => ⟨S_, .i32⟩
  | .hbm, ⟨17, _⟩ => ⟨S4x100, .i32⟩
  | .hbm, ⟨18, _⟩ => ⟨S4x100, .i32⟩
  | .hbm, ⟨19, _⟩ => ⟨S_, .i32⟩
  | .hbm, ⟨20, _⟩ => ⟨S4x100, .i32⟩
  | .hbm, ⟨21, _⟩ => ⟨S4x100, .i1⟩
  | .hbm, ⟨22, _⟩ => ⟨S_, .i32⟩
  | .hbm, ⟨23, _⟩ => ⟨S4x100, .i32⟩
  | .hbm, ⟨24, _⟩ => ⟨S4x100, .i32⟩
  | .hbm, ⟨25, _⟩ => ⟨S4x100, .i32⟩
  | .hbm, ⟨26, _⟩ => ⟨S4x100x1, .i32⟩
  | .hbm, ⟨27, _⟩ => ⟨S1, .i32⟩
  | .hbm, ⟨28, _⟩ => ⟨S_, .i32⟩
  | .hbm, ⟨29, _⟩ => ⟨S4x100x1, .i32⟩
  | .hbm, ⟨30, _⟩ => ⟨S4x100x1, .i1⟩
  | .hbm, ⟨31, _⟩ => ⟨S1x1x1, .i32⟩
  | .hbm, ⟨32, _⟩ => ⟨S4x100x1, .i32⟩
  | .hbm, ⟨33, _⟩ => ⟨S4x100x1, .i1⟩
  | .hbm, ⟨34, _⟩ => ⟨S4x100x1, .i1⟩
  | .hbm, ⟨35, _⟩ => ⟨S_, .i1⟩
  | .hbm, ⟨36, _⟩ => ⟨S4x100, .i1⟩
  | .hbm, ⟨37, _⟩ => ⟨S4x100x2048, .f32⟩
  | .hbm, ⟨38, _⟩ => ⟨S4x100x2048, .i1⟩
  | .hbm, ⟨39, _⟩ => ⟨S_, .f32⟩
  | .hbm, ⟨40, _⟩ => ⟨S4x100x2048, .f32⟩
  | .hbm, ⟨41, _⟩ => ⟨S4x100x2048, .f32⟩
  | .hbm, ⟨42, _⟩ => ⟨S100, .i32⟩
  | .hbm, ⟨43, _⟩ => ⟨S1x100, .i32⟩
  | .hbm, ⟨44, _⟩ => ⟨S4x1, .i32⟩
  | .hbm, ⟨45, _⟩ => ⟨S4x100, .i32⟩
  | .hbm, ⟨46, _⟩ => ⟨S4x100, .i32⟩
  | .hbm, ⟨47, _⟩ => ⟨S4x100, .i1⟩
  | .hbm, ⟨48, _⟩ => ⟨S4x100x1, .i1⟩
  | .hbm, ⟨49, _⟩ => ⟨S_, .f32⟩
  | .hbm, ⟨50, _⟩ => ⟨S4x100x2048, .i1⟩
  | .hbm, ⟨51, _⟩ => ⟨S4x100x2048, .f32⟩
  | .hbm, ⟨52, _⟩ => ⟨S4x100x2048, .f32⟩
  | .hbm, ⟨53, _⟩ => ⟨S400x2048, .f32⟩
  | .hbm, ⟨54, _⟩ => ⟨S400x1, .f32⟩
  | .hbm, ⟨55, _⟩ => ⟨S4x100, .f32⟩
  | .hbm, ⟨56, _⟩ => ⟨S400x1, .f32⟩
  | .hbm, ⟨57, _⟩ => ⟨S400x102400, .f32⟩
  | .hbm, ⟨58, _⟩ => ⟨S4x100x2048x50, .f32⟩
  | .local _ .vmem, ⟨0, _⟩ => ⟨S400x128, .f32⟩
  | .local _ .vmem, ⟨1, _⟩ => ⟨S400x128, .f32⟩
  | .local _ .vmem, ⟨2, _⟩ => ⟨S400x1, .f32⟩
  | .local _ .vmem, ⟨3, _⟩ => ⟨S400x1, .f32⟩
  | .local _ .vmem, ⟨4, _⟩ => ⟨S2x50, .f32⟩
  | .local _ .vmem, ⟨5, _⟩ => ⟨S2x50, .f32⟩
  | .local _ .vmem, ⟨6, _⟩ => ⟨S2x50, .f32⟩
  | .local _ .vmem, ⟨7, _⟩ => ⟨S2x50, .f32⟩
  | .local _ .vmem, ⟨8, _⟩ => ⟨S400x6400, .f32⟩
  | .local _ .vmem, ⟨9, _⟩ => ⟨S400x6400, .f32⟩
  | _, _ => ⟨S4x100, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v2 : Ref sig .tc := ⟨.hbm, 18, rfl⟩
abbrev main_call1_c : Ref sig .tc := ⟨.hbm, 19, rfl⟩
abbrev main_call1_v0 : Ref sig .tc := ⟨.hbm, 20, rfl⟩
abbrev main_call1_v1 : Ref sig .tc := ⟨.hbm, 21, rfl⟩
abbrev main_call1_c_0 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_c_1 : Ref sig .tc := ⟨.hbm, 27, rfl⟩
abbrev main_call1_c_2 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_c_3 : Ref sig .tc := ⟨.hbm, 35, rfl⟩
abbrev main_call1_v12 : Ref sig .tc := ⟨.hbm, 36, rfl⟩
abbrev main_call1_v13 : Ref sig .tc := ⟨.hbm, 37, rfl⟩
abbrev main_call1_v14 : Ref sig .tc := ⟨.hbm, 38, rfl⟩
abbrev main_call1_cst : Ref sig .tc := ⟨.hbm, 39, rfl⟩
abbrev main_call1_v15 : Ref sig .tc := ⟨.hbm, 40, rfl⟩
abbrev main_v3 : Ref sig .tc := ⟨.hbm, 41, rfl⟩
abbrev main_v4 : Ref sig .tc := ⟨.hbm, 42, rfl⟩
abbrev main_v5 : Ref sig .tc := ⟨.hbm, 43, rfl⟩
abbrev main_v6 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_cst : Ref sig .tc := ⟨.hbm, 49, rfl⟩
abbrev main_call2_v0 : Ref sig .tc := ⟨.hbm, 50, rfl⟩
abbrev main_call2_v1 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S400x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S400x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x50 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x50 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x50 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x50 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S400x6400 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S4x100 : S_.BroadcastsInDim S4x100 (![] : Fin 0 → Fin S4x100.rank)
  bcast_S4x100_S4x100x1_0_1 : S4x100.BroadcastsInDim S4x100x1 (![0, 1] : Fin 2 → Fin S4x100x1.rank)
  bcast_S_S4x100x1 : S_.BroadcastsInDim S4x100x1 (![] : Fin 0 → Fin S4x100x1.rank)
  bcast_S1_S1x1x1_2 : S1.BroadcastsInDim S1x1x1 (![2] : Fin 1 → Fin S1x1x1.rank)
  bcast_S1x1x1_S4x100x1_0_1_2 : S1x1x1.BroadcastsInDim S4x100x1 (![0, 1, 2] : Fin 3 → Fin S4x100x1.rank)
  reducesTo_S4x100x1_S4x100_d2 : S4x100x1.ReducesTo [2] S4x100
  h_S_ : 0 < S_.numel
  bcast_S4x100_S4x100x2048_0_1 : S4x100.BroadcastsInDim S4x100x2048 (![0, 1] : Fin 2 → Fin S4x100x2048.rank)
  bcast_S_S4x100x2048 : S_.BroadcastsInDim S4x100x2048 (![] : Fin 0 → Fin S4x100x2048.rank)
  bcast_S100_S1x100_1 : S100.BroadcastsInDim S1x100 (![1] : Fin 1 → Fin S1x100.rank)
  bcast_S4_S4x1_0 : S4.BroadcastsInDim S4x1 (![0] : Fin 1 → Fin S4x1.rank)
  bcast_S1x100_S4x100_0_1 : S1x100.BroadcastsInDim S4x100 (![0, 1] : Fin 2 → Fin S4x100.rank)
  bcast_S4x1_S4x100_0_1 : S4x1.BroadcastsInDim S4x100 (![0, 1] : Fin 2 → Fin S4x100.rank)
  bcast_S4x100x1_S4x100x2048_0_1_2 : S4x100x1.BroadcastsInDim S4x100x2048 (![0, 1, 2] : Fin 3 → Fin S4x100x2048.rank)
  shapeCasts_S4x100x2048_S400x2048 : S4x100x2048.ShapeCasts S400x2048
  shapeCasts_S4x100_S400x1 : S4x100.ShapeCasts S400x1
  inb_S400x128_S400x128_0_0 : ∀ a, (![0, 0] : Fin 2 → Nat) a + S400x128.size a ≤ S400x128.size a
  h_S400x128 : 0 < S400x128.numel
  shapeCasts_S400x128_S400x128 : S400x128.ShapeCasts S400x128
  inb_S400x1_S400x1_0_0 : ∀ a, (![0, 0] : Fin 2 → Nat) a + S400x1.size a ≤ S400x1.size a
  h_S400x1 : 0 < S400x1.numel
  shapeCasts_S400x1_S400x1 : S400x1.ShapeCasts S400x1
  inb_S2x50_S1x50_0_0 : ∀ a, (![0, 0] : Fin 2 → Nat) a + S1x50.size a ≤ S2x50.size a
  h_S1x50 : 0 < S1x50.numel
  shapeCasts_S1x50_S50 : S1x50.ShapeCasts S50
  shapeCasts_S50_S1x50 : S50.ShapeCasts S1x50
  inb_S2x50_S1x50_1_0 : ∀ a, (![1, 0] : Fin 2 → Nat) a + S1x50.size a ≤ S2x50.size a
  broadcasts_S1x50_S400x50 : S1x50.Broadcasts S400x50
  broadcasts_S400x1_S400x50 : S400x1.Broadcasts S400x50
  shapeCasts_S400x128_S400x1x128 : S400x128.ShapeCasts S400x1x128
  shapeCasts_S400x50_S400x50x1 : S400x50.ShapeCasts S400x50x1
  broadcasts_S400x1x128_S400x50x128 : S400x1x128.Broadcasts S400x50x128
  broadcasts_S400x50x1_S400x50x128 : S400x50x1.Broadcasts S400x50x128
  transposes_S400x50x128_p0_2_1_S400x128x50 : S400x50x128.Transposes [0, 2, 1] S400x128x50
  shapeCasts_S400x128x50_S400x6400 : S400x128x50.ShapeCasts S400x6400
  inb_S400x6400_S400x6400_0_0 : ∀ a, (![0, 0] : Fin 2 → Nat) a + S400x6400.size a ≤ S400x6400.size a
  h_S400x6400 : 0 < S400x6400.numel
  shapeCasts_S400x102400_S4x100x2048x50 : S400x102400.ShapeCasts S4x100x2048x50
  gather_S4096x2048_S4x100x1_S4x100x2048_2_0_n_n_0_2_12048_wf : GatherDims.WF S4096x2048 S4x100x1 S4x100x2048 [2] [0] [] [0] [] 2 ![1, 2048]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x128.size a ≤ S400x2048.size a
  hwx0_0 : ∀ i : grid0.Coords, EltTy.bits .f32 = 32 ∨ (Rect.block (s := S400x2048) S400x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S400x1.size a ≤ S400x1.size a
  hwx0_1 : ∀ i : grid0.Coords, EltTy.bits .f32 = 32 ∨ (Rect.block (s := S400x1) S400x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S400x1.size a ≤ S400x1.size a
  hwx0_2 : ∀ i : grid0.Coords, EltTy.bits .f32 = 32 ∨ (Rect.block (s := S400x1) S400x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x50.size a ≤ S2x50.size a
  hwx0_3 : ∀ i : grid0.Coords, EltTy.bits .f32 = 32 ∨ (Rect.block (s := S2x50) S2x50.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x50.size a ≤ S2x50.size a
  hwx0_4 : ∀ i : grid0.Coords, EltTy.bits .f32 = 32 ∨ (Rect.block (s := S2x50) S2x50.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x50.size a ≤ S2x50.size a
  hwx0_5 : ∀ i : grid0.Coords, EltTy.bits .f32 = 32 ∨ (Rect.block (s := S2x50) S2x50.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2x50.size a ≤ S2x50.size a
  hwx0_6 : ∀ i : grid0.Coords, EltTy.bits .f32 = 32 ∨ (Rect.block (s := S2x50) S2x50.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S400x6400.size a ≤ S400x102400.size a
  hwx0_7 : ∀ i : grid0.Coords, EltTy.bits .f32 = 32 ∨ (Rect.block (s := S400x102400) S400x6400.size (cc0_transform_7 i) (hinb0_7 i)).WholeWords (EltTy.packing .f32)

variable [Facts₀]

def gather_S4096x2048_S4x100x1_S4x100x2048_2_0_n_n_0_2_12048 : GatherDims S4096x2048 S4x100x1 S4x100x2048 where
  offsetDims := [2]
  collapsedSliceDims := [0]
  operandBatchingDims := []
  startIndicesBatchingDims := []
  startIndexMap := [0]
  indexVectorDim := 2
  sliceSizes := ![1, 2048]
  wf := gather_S4096x2048_S4x100x1_S4x100x2048_2_0_n_n_0_2_12048_wf

abbrev win0_0 : Pipeline.Window sig grid0 :=
  Pipeline.Window.ofSpec (Memref.whole main_v12) S400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S400x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S400x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S2x50.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2x50.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S2x50.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S2x50.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v16) S400x6400.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x100 : Shape := ⟨2, ![4, 100]⟩
abbrev S4096x2048 : Shape := ⟨2, ![4096, 2048]⟩
abbrev S4 : Shape := ⟨1, ![4]⟩
abbrev S2x50 : Shape := ⟨2, ![2, 50]⟩
abbrev S4x100x1 : Shape := ⟨3, ![4, 100, 1]⟩
abbrev S4x100x2048 : Shape := ⟨3, ![4, 100, 2048]⟩
abbrev S100 : Shape := ⟨1, ![100]⟩
abbrev S1x100 : Shape := ⟨2, ![1, 100]⟩
abbrev S4x1 : Shape := ⟨2, ![4, 1]⟩
abbrev S_ : Shape := ⟨0, ![]⟩
abbrev S4x100x2048x1 : Shape := ⟨4, ![4, 100, 2048, 1]⟩
abbrev S1 : Shape := ⟨1, ![1]⟩
abbrev S1x1x1x1 : Shape := ⟨4, ![1, 1, 1, 1]⟩
abbrev S4x100x2048x50 : Shape := ⟨4, ![4, 100, 2048, 50]⟩

abbrev nBuf : Space → Nat
  | .hbm => 161
  | .vmem => 0
  | .smem => 0
  | _ => 0

abbrev hbmTy0_0 (i : Nat) : BufTy := match i % 128 with
  | 0 => ⟨S4x100, .i32⟩
  | 1 => ⟨S4096x2048, .f32⟩
  | 2 => ⟨S4x100, .f32⟩
  | 3 => ⟨S4, .i32⟩
  | 4 => ⟨S2x50, .f32⟩
  | 5 => ⟨S2x50, .f32⟩
  | 6 => ⟨S2x50, .f32⟩
  | 7 => ⟨S2x50, .f32⟩
  | 8 => ⟨S4x100x1, .f32⟩
  | 9 => ⟨S4x100x2048, .f32⟩
  | 10 => ⟨S100, .i32⟩
  | 11 => ⟨S1x100, .i32⟩
  | 12 => ⟨S4x1, .i32⟩
  | 13 => ⟨S4x100, .i32⟩
  | 14 => ⟨S4x100, .i32⟩
  | 15 => ⟨S4x100, .i1⟩
  | 16 => ⟨S4x100x1, .i1⟩
  | 17 => ⟨S4x100x2048, .i1⟩
  | 18 => ⟨S4x100x2048, .i32⟩
  | 19 => ⟨S_, .i32⟩
  | 20 => ⟨S4x100, .i32⟩
  | 21 => ⟨S4x100, .i32⟩
  | 22 => ⟨S_, .i32⟩
  | 23 => ⟨S4x100, .i32⟩
  | 24 => ⟨S4x100, .i1⟩
  | 25 => ⟨S_, .i32⟩
  | 26 => ⟨S4x100, .i32⟩
  | 27 => ⟨S4x100, .i32⟩
  | 28 => ⟨S4x100, .i32⟩
  | 29 => ⟨S4x100x1, .i32⟩
  | 30 => ⟨S4x100x2048, .f32⟩
  | 31 => ⟨S4x100x1, .i1⟩
  | 32 => ⟨S_, .f32⟩
  | 33 => ⟨S4x100x2048, .i1⟩
  | 34 => ⟨S4x100x2048, .f32⟩
  | 35 => ⟨S4x100x2048, .f32⟩
  | 36 => ⟨S_, .i32⟩
  | 37 => ⟨S4x100x2048, .i32⟩
  | 38 => ⟨S4x100x2048, .i1⟩
  | 39 => ⟨S_, .i32⟩
  | 40 => ⟨S4x100x2048, .i32⟩
  | 41 => ⟨S4x100x2048, .i32⟩
  | 42 => ⟨S4x100x2048, .i32⟩
  | 43 => ⟨S4x100x2048x1, .i32⟩
  | 44 => ⟨S1, .i32⟩
  | 45 => ⟨S_, .i32⟩
  | 46 => ⟨S4x100x2048x1, .i32⟩
  | 47 => ⟨S4x100x2048x1, .i1⟩
  | 48 => ⟨S1x1x1x1, .i32⟩
  | 49 => ⟨S4x100x2048x1, .i32⟩
  | 50 => ⟨S4x100x2048x1, .i1⟩
  | 51 => ⟨S4x100x2048x1, .i1⟩
  | 52 => ⟨S_, .i1⟩
  | 53 => ⟨S4x100x2048, .i1⟩
  | 54 => ⟨S4x100x2048x50, .f32⟩
  | 55 => ⟨S4x100x2048x50, .i1⟩
  | 56 => ⟨S_, .f32⟩
  | 57 => ⟨S4x100x2048x50, .f32⟩
  | 58 => ⟨S4x100x2048x50, .f32⟩
  | 59 => ⟨S_, .i32⟩
  | 60 => ⟨S4x100x2048, .i32⟩
  | 61 => ⟨S4x100x2048, .i1⟩
  | 62 => ⟨S_, .i32⟩
  | 63 => ⟨S4x100x2048, .i32⟩
  | 64 => ⟨S4x100x2048, .i32⟩
  | 65 => ⟨S4x100x2048, .i32⟩
  | 66 => ⟨S4x100x2048x1, .i32⟩
  | 67 => ⟨S1, .i32⟩
  | 68 => ⟨S_, .i32⟩
  | 69 => ⟨S4x100x2048x1, .i32⟩
  | 70 => ⟨S4x100x2048x1, .i1⟩
  | 71 => ⟨S1x1x1x1, .i32⟩
  | 72 => ⟨S4x100x2048x1, .i32⟩
  | 73 => ⟨S4x100x2048x1, .i1⟩
  | 74 => ⟨S4x100x2048x1, .i1⟩
  | 75 => ⟨S_, .i1⟩
  | 76 => ⟨S4x100x2048, .i1⟩
  | 77 => ⟨S4x100x2048x50, .f32⟩
  | 78 => ⟨S4x100x2048x50, .i1⟩
  | 79 => ⟨S_, .f32⟩
  | 80 => ⟨S4x100x2048x50, .f32⟩
  | 81 => ⟨S4x100x2048x50, .f32⟩
  | 82 => ⟨S_, .i32⟩
  | 83 => ⟨S4x100x2048, .i32⟩
  | 84 => ⟨S4x100x2048, .i1⟩
  | 85 => ⟨S_, .i32⟩
  | 86 => ⟨S4x100x2048, .i32⟩
  | 87 => ⟨S4x100x2048, .i32⟩
  | 88 => ⟨S4x100x2048, .i32⟩
  | 89 => ⟨S4x100x2048x1, .i32⟩
  | 90 => ⟨S1, .i32⟩
  | 91 => ⟨S_, .i32⟩
  | 92 => ⟨S4x100x2048x1, .i32⟩
  | 93 => ⟨S4x100x2048x1, .i1⟩
  | 94 => ⟨S1x1x1x1, .i32⟩
  | 95 => ⟨S4x100x2048x1, .i32⟩
  | 96 => ⟨S4x100x2048x1, .i1⟩
  | 97 => ⟨S4x100x2048x1, .i1⟩
  | 98 => ⟨S_, .i1⟩
  | 99 => ⟨S4x100x2048, .i1⟩
  | 100 => ⟨S4x100x2048x50, .f32⟩
  | 101 => ⟨S4x100x2048x50, .i1⟩
  | 102 => ⟨S_, .f32⟩
  | 103 => ⟨S4x100x2048x50, .f32⟩
  | 104 => ⟨S4x100x2048x50, .f32⟩
  | 105 => ⟨S_, .i32⟩
  | 106 => ⟨S4x100x2048, .i32⟩
  | 107 => ⟨S4x100x2048, .i1⟩
  | 108 => ⟨S_, .i32⟩
  | 109 => ⟨S4x100x2048, .i32⟩
  | 110 => ⟨S4x100x2048, .i32⟩
  | 111 => ⟨S4x100x2048, .i32⟩
  | 112 => ⟨S4x100x2048x1, .i32⟩
  | 113 => ⟨S1, .i32⟩
  | 114 => ⟨S_, .i32⟩
  | 115 => ⟨S4x100x2048x1, .i32⟩
  | 116 => ⟨S4x100x2048x1, .i1⟩
  | 117 => ⟨S1x1x1x1, .i32⟩
  | 118 => ⟨S4x100x2048x1, .i32⟩
  | 119 => ⟨S4x100x2048x1, .i1⟩
  | 120 => ⟨S4x100x2048x1, .i1⟩
  | 121 => ⟨S_, .i1⟩
  | 122 => ⟨S4x100x2048, .i1⟩
  | 123 => ⟨S4x100x2048x50, .f32⟩
  | 124 => ⟨S4x100x2048x50, .i1⟩
  | 125 => ⟨S_, .f32⟩
  | 126 => ⟨S4x100x2048x50, .f32⟩
  | 127 => ⟨S4x100x2048x50, .f32⟩
  | _ => ⟨S4x100, .i32⟩

abbrev hbmTy0_1 (i : Nat) : BufTy := match i % 128 with
  | 0 => ⟨S_, .f32⟩
  | 1 => ⟨S4x100x2048, .f32⟩
  | 2 => ⟨S4x100x2048, .f32⟩
  | 3 => ⟨S4x100x2048x1, .f32⟩
  | 4 => ⟨S_, .f32⟩
  | 5 => ⟨S4x100x2048, .f32⟩
  | 6 => ⟨S4x100x2048, .f32⟩
  | 7 => ⟨S4x100x2048x1, .f32⟩
  | 8 => ⟨S_, .f32⟩
  | 9 => ⟨S4x100x2048, .f32⟩
  | 10 => ⟨S4x100x2048, .f32⟩
  | 11 => ⟨S4x100x2048x1, .f32⟩
  | 12 => ⟨S_, .f32⟩
  | 13 => ⟨S4x100x2048, .f32⟩
  | 14 => ⟨S4x100x2048, .f32⟩
  | 15 => ⟨S4x100x2048x1, .f32⟩
  | 16 => ⟨S4x100x2048x50, .f32⟩
  | 17 => ⟨S4x100x2048x50, .f32⟩
  | 18 => ⟨S4x100x2048x50, .f32⟩
  | 19 => ⟨S4x100x2048x50, .f32⟩
  | 20 => ⟨S4x100x2048x50, .f32⟩
  | 21 => ⟨S_, .f32⟩
  | 22 => ⟨S4x100x2048x50, .f32⟩
  | 23 => ⟨S4x100x2048x50, .f32⟩
  | 24 => ⟨S4x100x2048x50, .f32⟩
  | 25 => ⟨S4x100x2048x50, .f32⟩
  | 26 => ⟨S4x100x2048x50, .f32⟩
  | 27 => ⟨S4x100x2048x50, .f32⟩
  | 28 => ⟨S4x100x2048x50, .f32⟩
  | 29 => ⟨S_, .f32⟩
  | 30 => ⟨S4x100x2048x50, .f32⟩
  | 31 => ⟨S4x100x2048x50, .f32⟩
  | 32 => ⟨S4x100x2048x50, .f32⟩
  | _ => ⟨S4x100, .i32⟩

abbrev hbmTy (i : Nat) : BufTy := match i / 128 with
  | 0 => hbmTy0_0 i
  | 1 => hbmTy0_1 i
  | _ => ⟨S4x100, .i32⟩

abbrev bufTy : (tb : Table) → Fin (tcTables nBuf tb) → BufTy
  | .hbm, ⟨i, _⟩ => hbmTy i
  | _, _ => ⟨S4x100, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_v11 : Ref sig .tc := ⟨.hbm, 20, rfl⟩
abbrev main_v12 : Ref sig .tc := ⟨.hbm, 21, rfl⟩
abbrev main_c_0 : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_call0_v0 : Ref sig .tc := ⟨.hbm, 33, rfl⟩
abbrev main_call0_v1 : Ref sig .tc := ⟨.hbm, 34, rfl⟩
abbrev main_v21 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c_1 : Ref sig .tc := ⟨.hbm, 44, rfl⟩
abbrev main_call1_c_2 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_3 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_call1_cst : Ref sig .tc := ⟨.hbm, 56, rfl⟩
abbrev main_call1_v15 : Ref sig .tc := ⟨.hbm, 57, rfl⟩
abbrev main_v22 : Ref sig .tc := ⟨.hbm, 58, rfl⟩
abbrev main_call2_c : Ref sig .tc := ⟨.hbm, 59, rfl⟩
abbrev main_call2_v0 : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_v5 : Ref sig .tc := ⟨.hbm, 66, rfl⟩
abbrev main_call2_c_1 : Ref sig .tc := ⟨.hbm, 67, rfl⟩
abbrev main_call2_c_2 : Ref sig .tc := ⟨.hbm, 68, rfl⟩
abbrev main_call2_v6 : Ref sig .tc := ⟨.hbm, 69, rfl⟩
abbrev main_call2_v7 : Ref sig .tc := ⟨.hbm, 70, rfl⟩
abbrev main_call2_v8 : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_call2_c_3 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_call2_cst : Ref sig .tc := ⟨.hbm, 79, rfl⟩
abbrev main_call2_v15 : Ref sig .tc := ⟨.hbm, 80, rfl⟩
abbrev main_v23 : Ref sig .tc := ⟨.hbm, 81, rfl⟩
abbrev main_call3_c : Ref sig .tc := ⟨.hbm, 82, rfl⟩
abbrev main_call3_v0 : Ref sig .tc := ⟨.hbm, 83, rfl⟩
abbrev main_call3_v1 : Ref sig .tc := ⟨.hbm, 84, rfl⟩
abbrev main_call3_c_0 : Ref sig .tc := ⟨.hbm, 85, rfl⟩
abbrev main_call3_v2 : Ref sig .tc := ⟨.hbm, 86, rfl⟩
abbrev main_call3_v3 : Ref sig .tc := ⟨.hbm, 87, rfl⟩
abbrev main_call3_v4 : Ref sig .tc := ⟨.hbm, 88, rfl⟩
abbrev main_call3_v5 : Ref sig .tc := ⟨.hbm, 89, rfl⟩
abbrev main_call3_c_1 : Ref sig .tc := ⟨.hbm, 90, rfl⟩
abbrev main_call3_c_2 : Ref sig .tc := ⟨.hbm, 91, rfl⟩
abbrev main_call3_v6 : Ref sig .tc := ⟨.hbm, 92, rfl⟩
abbrev main_call3_v7 : Ref sig .tc := ⟨.hbm, 93, rfl⟩
abbrev main_call3_v8 : Ref sig .tc := ⟨.hbm, 94, rfl⟩
abbrev main_call3_v9 : Ref sig .tc := ⟨.hbm, 95, rfl⟩
abbrev main_call3_v10 : Ref sig .tc := ⟨.hbm, 96, rfl⟩
abbrev main_call3_v11 : Ref sig .tc := ⟨.hbm, 97, rfl⟩
abbrev main_call3_c_3 : Ref sig .tc := ⟨.hbm, 98, rfl⟩
abbrev main_call3_v12 : Ref sig .tc := ⟨.hbm, 99, rfl⟩
abbrev main_call3_v13 : Ref sig .tc := ⟨.hbm, 100, rfl⟩
abbrev main_call3_v14 : Ref sig .tc := ⟨.hbm, 101, rfl⟩
abbrev main_call3_cst : Ref sig .tc := ⟨.hbm, 102, rfl⟩
abbrev main_call3_v15 : Ref sig .tc := ⟨.hbm, 103, rfl⟩
abbrev main_v24 : Ref sig .tc := ⟨.hbm, 104, rfl⟩
abbrev main_call4_c : Ref sig .tc := ⟨.hbm, 105, rfl⟩
abbrev main_call4_v0 : Ref sig .tc := ⟨.hbm, 106, rfl⟩
abbrev main_call4_v1 : Ref sig .tc := ⟨.hbm, 107, rfl⟩
abbrev main_call4_c_0 : Ref sig .tc := ⟨.hbm, 108, rfl⟩
abbrev main_call4_v2 : Ref sig .tc := ⟨.hbm, 109, rfl⟩
abbrev main_call4_v3 : Ref sig .tc := ⟨.hbm, 110, rfl⟩
abbrev main_call4_v4 : Ref sig .tc := ⟨.hbm, 111, rfl⟩
abbrev main_call4_v5 : Ref sig .tc := ⟨.hbm, 112, rfl⟩
abbrev main_call4_c_1 : Ref sig .tc := ⟨.hbm, 113, rfl⟩
abbrev main_call4_c_2 : Ref sig .tc := ⟨.hbm, 114, rfl⟩
abbrev main_call4_v6 : Ref sig .tc := ⟨.hbm, 115, rfl⟩
abbrev main_call4_v7 : Ref sig .tc := ⟨.hbm, 116, rfl⟩
abbrev main_call4_v8 : Ref sig .tc := ⟨.hbm, 117, rfl⟩
abbrev main_call4_v9 : Ref sig .tc := ⟨.hbm, 118, rfl⟩
abbrev main_call4_v10 : Ref sig .tc := ⟨.hbm, 119, rfl⟩
abbrev main_call4_v11 : Ref sig .tc := ⟨.hbm, 120, rfl⟩
abbrev main_call4_c_3 : Ref sig .tc := ⟨.hbm, 121, rfl⟩
abbrev main_call4_v12 : Ref sig .tc := ⟨.hbm, 122, rfl⟩
abbrev main_call4_v13 : Ref sig .tc := ⟨.hbm, 123, rfl⟩
abbrev main_call4_v14 : Ref sig .tc := ⟨.hbm, 124, rfl⟩
abbrev main_call4_cst : Ref sig .tc := ⟨.hbm, 125, rfl⟩
abbrev main_call4_v15 : Ref sig .tc := ⟨.hbm, 126, rfl⟩
abbrev main_v25 : Ref sig .tc := ⟨.hbm, 127, rfl⟩
abbrev main_cst_2 : Ref sig .tc := ⟨.hbm, 128, rfl⟩
abbrev main_v26 : Ref sig .tc := ⟨.hbm, 129, rfl⟩
abbrev main_v27 : Ref sig .tc := ⟨.hbm, 130, rfl⟩
abbrev main_v28 : Ref sig .tc := ⟨.hbm, 131, rfl⟩
abbrev main_cst_3 : Ref sig .tc := ⟨.hbm, 132, rfl⟩
abbrev main_v29 : Ref sig .tc := ⟨.hbm, 133, rfl⟩
abbrev main_v30 : Ref sig .tc := ⟨.hbm, 134, rfl⟩
abbrev main_v31 : Ref sig .tc := ⟨.hbm, 135, rfl⟩
abbrev main_cst_4 : Ref sig .tc := ⟨.hbm, 136, rfl⟩
abbrev main_v32 : Ref sig .tc := ⟨.hbm, 137, rfl⟩
abbrev main_v33 : Ref sig .tc := ⟨.hbm, 138, rfl⟩
abbrev main_v34 : Ref sig .tc := ⟨.hbm, 139, rfl⟩
abbrev main_cst_5 : Ref sig .tc := ⟨.hbm, 140, rfl⟩
abbrev main_v35 : Ref sig .tc := ⟨.hbm, 141, rfl⟩
abbrev main_v36 : Ref sig .tc := ⟨.hbm, 142, rfl⟩
abbrev main_v37 : Ref sig .tc := ⟨.hbm, 143, rfl⟩
abbrev main_v38 : Ref sig .tc := ⟨.hbm, 144, rfl⟩
abbrev main_v39 : Ref sig .tc := ⟨.hbm, 145, rfl⟩
abbrev main_v40 : Ref sig .tc := ⟨.hbm, 146, rfl⟩
abbrev main_v41 : Ref sig .tc := ⟨.hbm, 147, rfl⟩
abbrev main_v42 : Ref sig .tc := ⟨.hbm, 148, rfl⟩
abbrev main_cst_6 : Ref sig .tc := ⟨.hbm, 149, rfl⟩
abbrev main_v43 : Ref sig .tc := ⟨.hbm, 150, rfl⟩
abbrev main_v44 : Ref sig .tc := ⟨.hbm, 151, rfl⟩
abbrev main_v45 : Ref sig .tc := ⟨.hbm, 152, rfl⟩
abbrev main_v46 : Ref sig .tc := ⟨.hbm, 153, rfl⟩
abbrev main_v47 : Ref sig .tc := ⟨.hbm, 154, rfl⟩
abbrev main_v48 : Ref sig .tc := ⟨.hbm, 155, rfl⟩
abbrev main_v49 : Ref sig .tc := ⟨.hbm, 156, rfl⟩
abbrev main_cst_7 : Ref sig .tc := ⟨.hbm, 157, rfl⟩
abbrev main_v50 : Ref sig .tc := ⟨.hbm, 158, rfl⟩
abbrev main_v51 : Ref sig .tc := ⟨.hbm, 159, rfl⟩
abbrev main_v52 : Ref sig .tc := ⟨.hbm, 160, rfl⟩

abbrev nD : Nat := 1
abbrev τ : Topo := Topo.v7x

variable {F : FTy → Type} [FloatOps F]

class Facts₀ : Prop where
  bcast_S4x100_S4x100x1_0_1 : S4x100.BroadcastsInDim S4x100x1 (![0, 1] : Fin 2 → Fin S4x100x1.rank)
  bcast_S4x100x1_S4x100x2048_0_1_2 : S4x100x1.BroadcastsInDim S4x100x2048 (![0, 1, 2] : Fin 3 → Fin S4x100x2048.rank)
  bcast_S100_S1x100_1 : S100.BroadcastsInDim S1x100 (![1] : Fin 1 → Fin S1x100.rank)
  bcast_S4_S4x1_0 : S4.BroadcastsInDim S4x1 (![0] : Fin 1 → Fin S4x1.rank)
  bcast_S1x100_S4x100_0_1 : S1x100.BroadcastsInDim S4x100 (![0, 1] : Fin 2 → Fin S4x100.rank)
  bcast_S4x1_S4x100_0_1 : S4x1.BroadcastsInDim S4x100 (![0, 1] : Fin 2 → Fin S4x100.rank)
  natLt_1_32 : 1 < 32
  bcast_S_S4x100 : S_.BroadcastsInDim S4x100 (![] : Fin 0 → Fin S4x100.rank)
  bcast_S_S4x100x2048 : S_.BroadcastsInDim S4x100x2048 (![] : Fin 0 → Fin S4x100x2048.rank)
  bcast_S4x100x2048_S4x100x2048x1_0_1_2 : S4x100x2048.BroadcastsInDim S4x100x2048x1 (![0, 1, 2] : Fin 3 → Fin S4x100x2048x1.rank)
  bcast_S_S4x100x2048x1 : S_.BroadcastsInDim S4x100x2048x1 (![] : Fin 0 → Fin S4x100x2048x1.rank)
  bcast_S1_S1x1x1x1_3 : S1.BroadcastsInDim S1x1x1x1 (![3] : Fin 1 → Fin S1x1x1x1.rank)
  bcast_S1x1x1x1_S4x100x2048x1_0_1_2_3 : S1x1x1x1.BroadcastsInDim S4x100x2048x1 (![0, 1, 2, 3] : Fin 4 → Fin S4x100x2048x1.rank)
  reducesTo_S4x100x2048x1_S4x100x2048_d3 : S4x100x2048x1.ReducesTo [3] S4x100x2048
  h_S_ : 0 < S_.numel
  bcast_S4x100x2048_S4x100x2048x50_0_1_2 : S4x100x2048.BroadcastsInDim S4x100x2048x50 (![0, 1, 2] : Fin 3 → Fin S4x100x2048x50.rank)
  bcast_S_S4x100x2048x50 : S_.BroadcastsInDim S4x100x2048x50 (![] : Fin 0 → Fin S4x100x2048x50.rank)
  bcast_S4x100x2048x1_S4x100x2048x50_0_1_2_3 : S4x100x2048x1.BroadcastsInDim S4x100x2048x50 (![0, 1, 2, 3] : Fin 4 → Fin S4x100x2048x50.rank)
  gather_S4096x2048_S4x100x1_S4x100x2048_2_0_n_n_0_2_12048_wf : GatherDims.WF S4096x2048 S4x100x1 S4x100x2048 [2] [0] [] [0] [] 2 ![1, 2048]
  gather_S2x50_S4x100x2048x1_S4x100x2048x50_3_0_n_n_0_3_150_wf : GatherDims.WF S2x50 S4x100x2048x1 S4x100x2048x50 [3] [0] [] [0] [] 3 ![1, 50]

variable [Facts₀]

def gather_S4096x2048_S4x100x1_S4x100x2048_2_0_n_n_0_2_12048 : GatherDims S4096x2048 S4x100x1 S4x100x2048 where
  offsetDims := [2]
  collapsedSliceDims := [0]
  operandBatchingDims := []
  startIndicesBatchingDims := []
  startIndexMap := [0]
  indexVectorDim := 2
  sliceSizes := ![1, 2048]
  wf := gather_S4096x2048_S4x100x1_S4x100x2048_2_0_n_n_0_2_12048_wf
def gather_S2x50_S4x100x2048x1_S4x100x2048x50_3_0_n_n_0_3_150 : GatherDims S2x50 S4x100x2048x1 S4x100x2048x50 where
  offsetDims := [3]
  collapsedSliceDims := [0]
  operandBatchingDims := []
  startIndicesBatchingDims := []
  startIndexMap := [0]
  indexVectorDim := 3
  sliceSizes := ![1, 50]
  wf := gather_S2x50_S4x100x2048x1_S4x100x2048x50_3_0_n_n_0_3_150_wf

class Facts : Prop extends Facts₀ where

variable [Facts]
-- ==== Proof.PreDecode.lean ====
/-
  The precondition read back: when the printed predicate is all ones, every float input is a real number and every
  `traj_location` lies in `1 … 4096` (as a signed word).

  The predicate is a conjunction of eight bits. Each bit is an "all" over one array: a reduction by `and`, over every
  axis, of a pointwise test. Six tests say `|x| < +∞` of a float entry (the word `0x7F800000` is the f32 pattern of
  +∞); over the extended reals `|x| = max x (−x)`, which is `⊤` at both infinities, so the strict inequality leaves only
  the real numbers. Two tests compare a location word, read signed, with the constants 1 and 4096.
-/
import proofs.«417881_j60696477827087_4_alg».proof.Proof.Gen.Pre_finite_inputs
import Idealize.ShloMosaic.Lib.ReduceAll
import Idealize.ShloMosaic.Lib.ValueIdx
import Idealize.ShloMosaic.Lib.StableHlo.Predicate

noncomputable section

namespace Cert.Pre_finite_inputs.Decode

open Cert.Pre_finite_inputs Cert.Pre_finite_inputs.Gen Idealize.ShloMosaic Idealize.ShloMosaic.ValueIdx

/-- The rank-0 shape has exactly one index (a function out of the empty set of axes). -/
instance : Subsingleton S_.Idx := ⟨fun a b => funext fun d => d.elim0⟩

/-- A conjunction of two bit arrays is 1 at an index exactly when both are 1 there. -/
theorem andi_one {s : Shape} (x y : IVec s 1) (i : s.Idx) : andi x y i = 1#1 ↔ x i = 1#1 ∧ y i = 1#1 :=
  IntOp.andi_eq_one

/-- The f32 word with exponent all ones, sign and fraction zero, denotes +∞. -/
theorem inf_word : Ideal.ofBits .f32 0x7F800000#32 = (⊤ : EReal) := by
  simp [Ideal.ofBits, Ideal.ieee]

/-- An extended real whose absolute value `max x (−x)` is strictly below +∞ is a real number: at `x = ⊥` the maximum is
    `−⊥ = ⊤`, at `x = ⊤` it is `⊤`, and `⊤ < ⊤` is false. -/
theorem real_of_abs_lt_inf (x : EReal)
    (h : Ideal.cmp .olt (max x (-x)) (Ideal.ofBits .f32 0x7F800000#32) = 1#1) : ∃ r : ℝ, x = (r : EReal) := by
  rw [inf_word] at h
  induction x using EReal.rec with
  | bot => exfalso; revert h; simp [Ideal.cmp]
  | top => exfalso; revert h; simp [Ideal.cmp]
  | coe r => exact ⟨r, rfl⟩

/-- One float conjunct, at any shape: if "all of `|x| < +∞`" is 1 then every entry of `x` is real. The reduction's result
    has one index, so its being 1 gives the test at every entry; the broadcast of the scalar +∞ reads +∞ everywhere. -/
theorem finite_of_all {s : Shape} {axes : List (Fin s.rank)} (hb : S_.BroadcastsInDim s (![] : Fin 0 → Fin s.rank))
    (hred : s.ReducesTo axes S_) (hu : 0 < S_.numel) (x : FVec Ideal s .f32)
    (h : Host.reduce IntOp.andi (cmpf .olt (Host.absf x) (broadcastInDim s ![] hb (constant (F := Ideal) S_ .f32 0x7F800000#32)))
          (constantI S_ 1 1#1) hred hu ix0 = 1#1) :
    ∀ i, ∃ r : ℝ, x i = (r : EReal) := fun i =>
  real_of_abs_lt_inf (x i) (Host.reduce_andi_all _ _ hred hu ix0 h i)

/-- The two integer conjuncts: "all of `x ≥ 1`" and "all of `x ≤ 4096`", signed, give the range at every entry. -/
theorem range_of_all {s : Shape} {axes : List (Fin s.rank)} (hb : S_.BroadcastsInDim s (![] : Fin 0 → Fin s.rank))
    (hred : s.ReducesTo axes S_) (hu : 0 < S_.numel) (x : IVec s 32)
    (hge : Host.reduce IntOp.andi (cmpi .sge x (broadcastInDim s ![] hb (constantI S_ 32 1#32))) (constantI S_ 1 1#1) hred hu ix0 = 1#1)
    (hle : Host.reduce IntOp.andi (cmpi .sle x (broadcastInDim s ![] hb (constantI S_ 32 4096#32))) (constantI S_ 1 1#1) hred hu ix0 = 1#1) :
    ∀ i, 1 ≤ (x i).toInt ∧ (x i).toInt ≤ 4096 := fun i => by
  have h1 : IntOp.cmpi .sge (x i) 1#32 = 1#1 := Host.reduce_andi_all _ _ hred hu ix0 hge i
  have h2 : IntOp.cmpi .sle (x i) 4096#32 = 1#1 := Host.reduce_andi_all _ _ hred hu ix0 hle i
  have c1 : (1#32 : BitVec 32).toInt = 1 := by decide
  have c2 : (4096#32 : BitVec 32).toInt = 4096 := by decide
  exact ⟨c1 ▸ IntOp.cmpi_sge.1 h1, c2 ▸ IntOp.cmpi_sle.1 h2⟩

/-- From the precondition: finiteness of the six float arrays and the range of the locations. -/
theorem of_pre (a0 : IVec S4x100 32) (a1 : FVec Ideal S4096x2048 .f32) (a2 : FVec Ideal S4x100 .f32) (a3 : IVec S4 32)
    (a4 a5 a6 a7 : FVec Ideal S2x50 .f32)
    (h : Cert.Pre_finite_inputs.fn (F := Ideal) a0 a1 a2 a3 a4 a5 a6 a7 = (fun _ => 1#1)) :
    (∀ i, ∃ r : ℝ, a1 i = (r : EReal)) ∧ (∀ i, ∃ r : ℝ, a2 i = (r : EReal))
      ∧ (∀ i, ∃ r : ℝ, a4 i = (r : EReal)) ∧ (∀ i, ∃ r : ℝ, a5 i = (r : EReal))
      ∧ (∀ i, ∃ r : ℝ, a6 i = (r : EReal)) ∧ (∀ i, ∃ r : ℝ, a7 i = (r : EReal))
      ∧ (∀ i, 1 ≤ (a0 i).toInt ∧ (a0 i).toInt ≤ 4096) := by
  -- the predicate at its one index, with the chain of `let`s opened: a left-nested conjunction of eight reductions
  have e := congrFun h ix0
  dsimp only [Cert.Pre_finite_inputs.fn, Cert.Pre_finite_inputs.fn_part1, Cert.Pre_finite_inputs.fn_part2] at e
  -- peel the conjuncts from the outside in: the last one joined is the outermost
  obtain ⟨e, hle⟩ := (andi_one _ _ _).1 e
  obtain ⟨e, hge⟩ := (andi_one _ _ _).1 e
  obtain ⟨e, h7⟩ := (andi_one _ _ _).1 e
  obtain ⟨e, h6⟩ := (andi_one _ _ _).1 e
  obtain ⟨e, h5⟩ := (andi_one _ _ _).1 e
  obtain ⟨e, h4⟩ := (andi_one _ _ _).1 e
  obtain ⟨h1, h2⟩ := (andi_one _ _ _).1 e
  exact ⟨finite_of_all _ _ _ a1 h1, finite_of_all _ _ _ a2 h2, finite_of_all _ _ _ a4 h4, finite_of_all _ _ _ a5 h5,
    finite_of_all _ _ _ a6 h6, finite_of_all _ _ _ a7 h7, range_of_all _ _ _ a0 hge hle⟩

end Cert.Pre_finite_inputs.Decode

end
-- ==== Proof.KArgs.lean ====
/-
  The idealized kernel's eight argument arrays as the run finds them, each named at its literal type.
-/
import proofs.«417881_j60696477827087_4_alg».proof.Proof.Gen.KernelIdeal

noncomputable section

namespace Cert.KernelIdeal.KArgs

open Cert.KernelIdeal Cert.KernelIdeal.Gen Idealize.ShloMosaic Idealize.ShloMosaic.TcCoe Idealize.SL.Sem

variable (m : (ℓ : Loc nD τ sig) → Buf (Elt Ideal) ℓ)

abbrev loc (c : Dev nD) : IVec S4x100 32 := m ((c.tc : Thread nD τ).loc main_arg0)
abbrev mat2 (c : Dev nD) : FVec Ideal S4096x2048 .f32 := m ((c.tc : Thread nD τ).loc main_arg1)
abbrev vec (c : Dev nD) : FVec Ideal S4x100 .f32 := m ((c.tc : Thread nD τ).loc main_arg2)
abbrev len (c : Dev nD) : IVec S4 32 := m ((c.tc : Thread nD τ).loc main_arg3)
abbrev esu (c : Dev nD) : FVec Ideal S2x50 .f32 := m ((c.tc : Thread nD τ).loc main_arg4)
abbrev esl (c : Dev nD) : FVec Ideal S2x50 .f32 := m ((c.tc : Thread nD τ).loc main_arg5)
abbrev etu (c : Dev nD) : FVec Ideal S2x50 .f32 := m ((c.tc : Thread nD τ).loc main_arg6)
abbrev etl (c : Dev nD) : FVec Ideal S2x50 .f32 := m ((c.tc : Thread nD τ).loc main_arg7)

end Cert.KernelIdeal.KArgs

end
-- ==== Proof.Spec.lean ====
/-
  What both programs compute, as ONE function of the argument arrays over the extended reals.

  Position `(b, l)` is inside the valid prefix when `l < traj_length[b]` (signed words). There the spatial
  distance `d` to location `m` is `mat2[traj_location[b,l] - 1, m]`, outside it `d = 0`; each of the four
  embedding tables contributes its row 1 inside the prefix and its row 0 outside. The result at `(b, l, m, e)` is

      (e_sl · (1000 − d) + e_su · (d − 0)) / 1000  +  (e_tl · (86400 − t) + e_tu · (t − 0)) / 86400,

  `t = vector[b, l]`: a linear interpolation between a lower and an upper embedding, in space and in time.
  The reference evaluates exactly this expression (`core`). The kernel distributes the two quotients over the
  sums as products with the reciprocals `1/1000` and `1/86400`, and selects a table row arithmetically,
  `row0 · (1 − v) + row1 · v` with `v ∈ {0, 1}` (`kcore`). On finite numbers the two agree: `kcore_eq_core`.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-! ## The literal words the two programs spell -/

/-- `1000.0` denotes the real `1000`. -/
theorem ofBits_1000 : Ideal.ofBits .f32 0x447A0000#32 = ((1000 : ℝ) : EReal) := by
  simp [Ideal.ofBits, Ideal.ieee, -EReal.coe_mul]; norm_num

/-- `86400.0` denotes the real `86400`. -/
theorem ofBits_86400 : Ideal.ofBits .f32 0x47A8C000#32 = ((86400 : ℝ) : EReal) := by
  simp [Ideal.ofBits, Ideal.ieee, -EReal.coe_mul]; norm_num

/-- `1.0` denotes `1`. -/
theorem ofBits_one : Ideal.ofBits .f32 0x3F800000#32 = ((1 : ℝ) : EReal) := by
  simp [Ideal.ofBits, Ideal.ieee, -EReal.coe_mul]; norm_num

/-- `+0.0` denotes `0`. -/
theorem ofBits_zero : Ideal.ofBits .f32 0x00000000#32 = ((0 : ℝ) : EReal) := by
  simp [Ideal.ofBits, Ideal.ieee]

/-! ## The scalar arithmetic of the two programs -/

/-- The reference's arithmetic at one output element: `d` the masked spatial distance, `t` the time, and the four
    selected embedding entries. The literals are kept as the words the program spells. -/
def core (d t sl su tl tu : EReal) : EReal :=
  Ideal.div (sl * (Ideal.ofBits .f32 0x447A0000#32 - d) + su * (d - Ideal.ofBits .f32 0x00000000#32))
      (Ideal.ofBits .f32 0x447A0000#32)
    + Ideal.div (tl * (Ideal.ofBits .f32 0x47A8C000#32 - t) + tu * (t - Ideal.ofBits .f32 0x00000000#32))
      (Ideal.ofBits .f32 0x47A8C000#32)

/-- The kernel's arithmetic at one output element: `v` the validity flag as a number, each table given by its two
    rows' entries, the two reciprocals at their exact values. -/
def kcore (d t v sl0 sl1 su0 su1 tl0 tl1 tu0 tu1 : EReal) : EReal :=
  ((Ideal.ofBits .f32 0x447A0000#32 - d) * ((1 / 1000 : ℝ) : EReal))
        * (sl0 * (Ideal.ofBits .f32 0x3F800000#32 - v) + sl1 * v)
      + ((d - Ideal.ofBits .f32 0x00000000#32) * ((1 / 1000 : ℝ) : EReal))
        * (su0 * (Ideal.ofBits .f32 0x3F800000#32 - v) + su1 * v)
    + (((Ideal.ofBits .f32 0x47A8C000#32 - t) * ((1 / 86400 : ℝ) : EReal))
        * (tl0 * (Ideal.ofBits .f32 0x3F800000#32 - v) + tl1 * v)
      + ((t - Ideal.ofBits .f32 0x00000000#32) * ((1 / 86400 : ℝ) : EReal))
        * (tu0 * (Ideal.ofBits .f32 0x3F800000#32 - v) + tu1 * v))

/-- The validity flag as the number the kernel multiplies by. -/
def flag (p : Bool) : EReal := if p then ((1 : ℝ) : EReal) else ((0 : ℝ) : EReal)

/-- On real numbers, with the flag `0` or `1`, the kernel's distributed form is the reference's quotient form: the
    flag picks row 1 or row 0 of each table, and `x · (1/c) · y + … = (y · x + …) / c` for `c = 1000, 86400`. -/
theorem kcore_eq_core (d t sl0 sl1 su0 su1 tl0 tl1 tu0 tu1 : ℝ) (p : Bool) :
    kcore d t (flag p) sl0 sl1 su0 su1 tl0 tl1 tu0 tu1
      = core d t ((if p then sl1 else sl0 : ℝ) : EReal) ((if p then su1 else su0 : ℝ) : EReal)
          ((if p then tl1 else tl0 : ℝ) : EReal) ((if p then tu1 else tu0 : ℝ) : EReal) := by
  unfold kcore core flag
  rw [ofBits_1000, ofBits_86400, ofBits_one, ofBits_zero,
    Ideal.div_coe (by norm_num : (1000 : ℝ) ≠ 0), Ideal.div_coe (by norm_num : (86400 : ℝ) ≠ 0)]
  cases p <;> simp only [if_true, if_false, Bool.false_eq_true, ← EReal.coe_sub, ← EReal.coe_mul, ← EReal.coe_add] <;>
    rw [EReal.coe_eq_coe_iff] <;> ring

/-! ## Flattened coordinates -/

/-- Row `b · 100 + l` of the `[400, …]` arrays the kernel works on: position `(b, l)` flattened. -/
def flat (b : Fin 4) (l : Fin 100) : Fin 400 := ⟨b.val * 100 + l.val, by omega⟩

/-- Column `q · 50 + e` of a `[400, 6400]` output block: location `q` of the block's 128, embedding coordinate `e`. -/
def col (q : Fin 128) (e : Fin 50) : Fin 6400 := ⟨q.val * 50 + e.val, by omega⟩

/-! ## The result as a function of the argument arrays -/

/-- Position `(b, l)` is inside the valid prefix: `l < traj_length[b]`, both read as signed 32-bit words. -/
def valid (len : IVec ⟨1, ![4]⟩ 32) (b : Fin 4) (l : Fin 100) : Bool :=
  (BitVec.ofNat 32 l.val).slt (len (ix1 b))

/-- The row of `mat2` position `(b, l)` reads: `traj_location[b, l] − 1` (it is below 4096 when the location is in
    `1 … 4096`; capped so that the definition needs no hypothesis). -/
def row (loc : IVec ⟨2, ![4, 100]⟩ 32) (b : Fin 4) (l : Fin 100) : Fin 4096 :=
  ⟨min ((loc (ix2 b l)).toNat - 1) 4095, by omega⟩

/-- The masked spatial distance: `mat2`'s entry inside the valid prefix, `0` outside. -/
def delta (loc : IVec ⟨2, ![4, 100]⟩ 32) (mat2 : (⟨2, ![4096, 2048]⟩ : Shape).Idx → EReal) (len : IVec ⟨1, ![4]⟩ 32)
    (b : Fin 4) (l : Fin 100) (m : Fin 2048) : EReal :=
  if valid len b l then mat2 (ix2 (row loc b l) m) else Ideal.ofBits .f32 0x00000000#32

/-- A table's selected row: row 1 inside the valid prefix, row 0 outside. -/
def sel (emb : (⟨2, ![2, 50]⟩ : Shape).Idx → EReal) (len : IVec ⟨1, ![4]⟩ 32) (b : Fin 4) (l : Fin 100) (e : Fin 50) :
    EReal :=
  emb (ix2 (if valid len b l then (1 : Fin 2) else (0 : Fin 2)) e)

/-- THE RESULT: element `(b, l, m, e)` of the `[4, 100, 2048, 50]` output. -/
def G (loc : IVec ⟨2, ![4, 100]⟩ 32) (mat2 : (⟨2, ![4096, 2048]⟩ : Shape).Idx → EReal)
    (vec : (⟨2, ![4, 100]⟩ : Shape).Idx → EReal) (len : IVec ⟨1, ![4]⟩ 32)
    (esu esl etu etl : (⟨2, ![2, 50]⟩ : Shape).Idx → EReal) : (⟨4, ![4, 100, 2048, 50]⟩ : Shape).Idx → EReal :=
  fun i => core (delta loc mat2 len (i 0) (i 1) (i 2)) (vec (ix2 (i 0) (i 1)))
    (sel esl len (i 0) (i 1) (i 3)) (sel esu len (i 0) (i 1) (i 3))
    (sel etl len (i 0) (i 1) (i 3)) (sel etu len (i 0) (i 1) (i 3))

end Cert.Spec

end
-- ==== Proof.LibGatherRows.lean ====
/-
  A `stablehlo.gather` that picks whole ROWS of a matrix, read at an index.

  What `x[idx]` (and `jnp.take(x, idx, axis=0)`) of a matrix `x : [N, M]` at an integer array `idx` lowers to: offset axis the
  last one, the operand's axis 0 collapsed, start_index_map `[0]`, slice sizes `[1, M]`, the index vector on a trailing
  axis of size 1. Result element `(…, c)` is `x` at row `idx[…, 0]` — read as a signed integer and clamped into
  `[0, N − 1]`, as the gather clamps every start index — and column `c`. Stated for start indices of rank 3
  (`[A, B, 1]`) and of rank 4 (`[A, B, C, 1]`).
-/
import Idealize.ShloMosaic.PureOps.ShapeOps
import Idealize.ShloMosaic.Lib.ValueIdx

noncomputable section

namespace Cert.LibGatherRows

open Idealize.ShloMosaic Idealize.ShloMosaic.ValueIdx

variable {α : Type}

/-- The dimension numbers of a row gather with start indices `[A, B, 1]`: operand `[N, M]`, result `[A, B, M]`. -/
abbrev rows3 (N M A B : Nat)
    (wf : GatherDims.WF ⟨2, ![N, M]⟩ ⟨3, ![A, B, 1]⟩ ⟨3, ![A, B, M]⟩ [2] [0] [] [0] [] 2 ![1, M]) :
    GatherDims ⟨2, ![N, M]⟩ ⟨3, ![A, B, 1]⟩ ⟨3, ![A, B, M]⟩ where
  offsetDims := [2]
  collapsedSliceDims := [0]
  operandBatchingDims := []
  startIndicesBatchingDims := []
  startIndexMap := [0]
  indexVectorDim := 2
  sliceSizes := ![1, M]
  wf := wf

/-- THE ROW GATHER READ AT `(a, b, c)`: row `idx[a, b, 0]` (signed, clamped into `[0, N − 1]`), column `c`. -/
theorem gather_rows3_apply {N M A B w : Nat} (hN : 0 < N)
    (wf : GatherDims.WF ⟨2, ![N, M]⟩ ⟨3, ![A, B, 1]⟩ ⟨3, ![A, B, M]⟩ [2] [0] [] [0] [] 2 ![1, M])
    (x : (⟨2, ![N, M]⟩ : Shape).Idx → α) (idx : IVec ⟨3, ![A, B, 1]⟩ w) (a : Fin A) (b : Fin B) (c : Fin M) :
    Host.gather (rows3 N M A B wf) x idx (ix3 a b c)
      = x (ix2 ⟨min (idx (ix3 a b (0 : Fin 1))).toInt.toNat (N - 1), by omega⟩ c) := by
  -- The gather reads the operand at its operand index, so it is enough to compare the two operand indices
  -- coordinate by coordinate. There is no batching axis: the batching coordinate vanishes on both operand axes.
  -- Row axis (axis 0). It is collapsed, so it gets no offset coordinate; the start index map names it, so its start
  -- is the index found at the result's batch coordinates, read signed and clamped into [0, N - 1].
  have h0 : (rows3 N M A B wf).start (ix3 a b c) idx 0 + (rows3 N M A B wf).batchCoord (ix3 a b c) 0
      + (rows3 N M A B wf).offCoord (ix3 a b c) 0
      = min (idx (ix3 a b (0 : Fin 1))).toInt.toNat (N - 1) := by
    rw [GatherDims.batchCoord_eq_zero _ _ _ List.not_mem_nil,
      GatherDims.offCoord_eq_zero _ _ _
        (fun h => ((GatherDims.mem_sKept _ _).mp h).1 (List.mem_singleton.mpr rfl))]
    simp only [Nat.add_zero]
    unfold GatherDims.start
    rw [dif_pos (show (0 : Fin 2) ∈ (rows3 N M A B wf).startIndexMap from List.mem_singleton.mpr rfl)]
    -- the start-indices index read for component 0: the batch coordinates, then 0 on the index vector's axis
    have hsi : (rows3 N M A B wf).siIdx (ix3 a b c) ⟨List.idxOf (0 : Fin 2) (rows3 N M A B wf).startIndexMap,
        List.idxOf_lt_length_iff.2 (List.mem_singleton.mpr rfl)⟩ = ix3 a b (0 : Fin 1) := by
      funext q; refine Fin.ext ?_
      match q with
      | ⟨0, _⟩ => rfl
      | ⟨1, _⟩ => rfl
      | ⟨2, _⟩ => rfl
    rw [hsi]
    rfl
  -- Column axis (axis 1). The start index map does not name it, so its start is 0; it is the one kept operand axis,
  -- so its offset coordinate is the result's coordinate on the one offset axis, the last.
  have h1 : (rows3 N M A B wf).start (ix3 a b c) idx 1 + (rows3 N M A B wf).batchCoord (ix3 a b c) 1
      + (rows3 N M A B wf).offCoord (ix3 a b c) 1 = c.val := by
    rw [GatherDims.batchCoord_eq_zero _ _ _ List.not_mem_nil]
    unfold GatherDims.start
    rw [dif_neg (show (1 : Fin 2) ∉ (rows3 N M A B wf).startIndexMap from
      fun h => absurd (List.mem_singleton.mp h) (show ¬ (1 : Fin 2) = 0 from by decide))]
    unfold GatherDims.offCoord
    rw [dif_pos (show (1 : Fin 2) ∈ (rows3 N M A B wf).sKept from
      (GatherDims.mem_sKept _ _).mpr ⟨fun h => absurd (List.mem_singleton.mp h) (show ¬ (1 : Fin 2) = 0 from by decide),
        List.not_mem_nil⟩)]
    simp only [Nat.zero_add]
    rfl
  unfold Host.gather
  congr 1
  funext p
  refine Fin.ext ?_
  match p with
  | ⟨0, _⟩ => exact h0
  | ⟨1, _⟩ => exact h1

/-- The dimension numbers of a row gather with start indices `[A, B, C, 1]`: operand `[N, M]`, result `[A, B, C, M]`. -/
abbrev rows4 (N M A B C : Nat)
    (wf : GatherDims.WF ⟨2, ![N, M]⟩ ⟨4, ![A, B, C, 1]⟩ ⟨4, ![A, B, C, M]⟩ [3] [0] [] [0] [] 3 ![1, M]) :
    GatherDims ⟨2, ![N, M]⟩ ⟨4, ![A, B, C, 1]⟩ ⟨4, ![A, B, C, M]⟩ where
  offsetDims := [3]
  collapsedSliceDims := [0]
  operandBatchingDims := []
  startIndicesBatchingDims := []
  startIndexMap := [0]
  indexVectorDim := 3
  sliceSizes := ![1, M]
  wf := wf

/-- THE ROW GATHER READ AT `(a, b, c, e)`: row `idx[a, b, c, 0]` (signed, clamped into `[0, N − 1]`), column `e`. -/
theorem gather_rows4_apply {N M A B C w : Nat} (hN : 0 < N)
    (wf : GatherDims.WF ⟨2, ![N, M]⟩ ⟨4, ![A, B, C, 1]⟩ ⟨4, ![A, B, C, M]⟩ [3] [0] [] [0] [] 3 ![1, M])
    (x : (⟨2, ![N, M]⟩ : Shape).Idx → α) (idx : IVec ⟨4, ![A, B, C, 1]⟩ w) (a : Fin A) (b : Fin B) (c : Fin C) (e : Fin M) :
    Host.gather (rows4 N M A B C wf) x idx (ix4 a b c e)
      = x (ix2 ⟨min (idx (ix4 a b c (0 : Fin 1))).toInt.toNat (N - 1), by omega⟩ e) := by
  -- The gather reads the operand at its operand index, so it is enough to compare the two operand indices
  -- coordinate by coordinate. There is no batching axis: the batching coordinate vanishes on both operand axes.
  -- Row axis (axis 0). It is collapsed, so it gets no offset coordinate; the start index map names it, so its start
  -- is the index found at the result's batch coordinates, read signed and clamped into [0, N - 1].
  have h0 : (rows4 N M A B C wf).start (ix4 a b c e) idx 0 + (rows4 N M A B C wf).batchCoord (ix4 a b c e) 0
      + (rows4 N M A B C wf).offCoord (ix4 a b c e) 0
      = min (idx (ix4 a b c (0 : Fin 1))).toInt.toNat (N - 1) := by
    rw [GatherDims.batchCoord_eq_zero _ _ _ List.not_mem_nil,
      GatherDims.offCoord_eq_zero _ _ _
        (fun h => ((GatherDims.mem_sKept _ _).mp h).1 (List.mem_singleton.mpr rfl))]
    simp only [Nat.add_zero]
    unfold GatherDims.start
    rw [dif_pos (show (0 : Fin 2) ∈ (rows4 N M A B C wf).startIndexMap from List.mem_singleton.mpr rfl)]
    -- the start-indices index read for component 0: the batch coordinates, then 0 on the index vector's axis
    have hsi : (rows4 N M A B C wf).siIdx (ix4 a b c e) ⟨List.idxOf (0 : Fin 2) (rows4 N M A B C wf).startIndexMap,
        List.idxOf_lt_length_iff.2 (List.mem_singleton.mpr rfl)⟩ = ix4 a b c (0 : Fin 1) := by
      funext q; refine Fin.ext ?_
      match q with
      | ⟨0, _⟩ => rfl
      | ⟨1, _⟩ => rfl
      | ⟨2, _⟩ => rfl
      | ⟨3, _⟩ => rfl
    rw [hsi]
    rfl
  -- Column axis (axis 1). The start index map does not name it, so its start is 0; it is the one kept operand axis,
  -- so its offset coordinate is the result's coordinate on the one offset axis, the last.
  have h1 : (rows4 N M A B C wf).start (ix4 a b c e) idx 1 + (rows4 N M A B C wf).batchCoord (ix4 a b c e) 1
      + (rows4 N M A B C wf).offCoord (ix4 a b c e) 1 = e.val := by
    rw [GatherDims.batchCoord_eq_zero _ _ _ List.not_mem_nil]
    unfold GatherDims.start
    rw [dif_neg (show (1 : Fin 2) ∉ (rows4 N M A B C wf).startIndexMap from
      fun h => absurd (List.mem_singleton.mp h) (show ¬ (1 : Fin 2) = 0 from by decide))]
    unfold GatherDims.offCoord
    rw [dif_pos (show (1 : Fin 2) ∈ (rows4 N M A B C wf).sKept from
      (GatherDims.mem_sKept _ _).mpr ⟨fun h => absurd (List.mem_singleton.mp h) (show ¬ (1 : Fin 2) = 0 from by decide),
        List.not_mem_nil⟩)]
    simp only [Nat.zero_add]
    rfl
  unfold Host.gather
  congr 1
  funext p
  refine Fin.ext ?_
  match p with
  | ⟨0, _⟩ => exact h0
  | ⟨1, _⟩ => exact h1

end Cert.LibGatherRows

end
-- ==== Proof.KHost.lean ====
/-
  What the kernel's region finds in its first three operand arrays, read at an index: the host operations before the
  region build the masked distances `[400, 2048]`, the times `[400, 1]` and the validity flags `[400, 1]` from the
  argument arrays, rows flattened as `b · 100 + l`.

  The road. Each of the three arrays is first written as ONE term over the argument arrays — the composition of the
  host operations that produce it (`masked`, the reshape of the times, the converted `validMask`), each reshaped from
  `[4, 100, …]` to `[400, …]`. That term is then read at an index over plain variables: a reshape keeps the
  row-major position, so row `b · 100 + l` of the flat array is position `(b, l)` of the operand; a broadcast reads
  its operand at the coordinates it keeps; the validity mask compares the position counter `l` with `len[b]` as signed
  words; and with the location in `1 … 4096` the index `loc − 1` lies in `0 … 4095`, so the clip, the take's wrap of
  negative indices and its in-bounds test all leave it alone, and the gather reads row `loc − 1` of the table.
-/
import proofs.«417881_j60696477827087_4_alg».proof.Proof.Gen.KernelIdeal.Frame
import proofs.«417881_j60696477827087_4_alg».proof.Proof.KArgs
import proofs.«417881_j60696477827087_4_alg».proof.Proof.Spec
import proofs.«417881_j60696477827087_4_alg».proof.Proof.LibGatherRows
import Idealize.ShloMosaic.Lib.ValueIdx
import Idealize.ShloMosaic.Lib.Pipeline.Value
import Idealize.ShloMosaic.Lib.StableHlo.Run
import Idealize.ShloMosaic.PureOps.Reduce

noncomputable section

namespace Cert.KernelIdeal.KHost

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-! ## The three arrays as terms over the argument arrays -/

/-- The validity mask: position `(b, l)` carries the bit of `l < len[b]`, the position counter an iota along the second
    axis and the lengths laid along the first. -/
def validMask (len : IVec S4 32) : IVec S4x100 1 :=
  cmpi .slt
    (broadcastInDim S4x100 ![0, 1] bcast_S1x100_S4x100_0_1 (broadcastInDim S1x100 ![1] bcast_S100_S1x100_1 (iotaInDim S100 32 0)))
    (broadcastInDim S4x100 ![0, 1] bcast_S4x1_S4x100_0_1 (broadcastInDim S4x1 ![0] bcast_S4_S4x1_0 len))

/-- The row index before the take: `loc − 1` clipped into `[0, 4095]`. -/
def idxClip (loc : IVec S4x100 32) : IVec S4x100 32 :=
  minsi (broadcastInDim S4x100 ![] bcast_S_S4x100 (id (constantI S_ 32 4095#32)))
    (maxsi (broadcastInDim S4x100 ![] bcast_S_S4x100 (id (constantI S_ 32 0#32)))
      (subi loc (broadcastInDim S4x100 ![] bcast_S_S4x100 (constantI S_ 32 1#32))))

/-- The take's own index: a negative index wraps around by the table's 4096 rows. -/
def takeIdx (x : IVec S4x100 32) : IVec S4x100 32 :=
  select (cmpi .slt x (broadcastInDim S4x100 ![] bcast_S_S4x100 (constantI S_ 32 0#32)))
    (addi x (broadcastInDim S4x100 ![] bcast_S_S4x100 (constantI S_ 32 4096#32)))
    x

/-- The same index with the trailing unit axis the gather wants. -/
def takeIdx3 (x : IVec S4x100 32) : IVec S4x100x1 32 :=
  broadcastInDim S4x100x1 ![0, 1] bcast_S4x100_S4x100x1_0_1 (takeIdx x)

/-- The take's in-bounds test: `0 ≤ index ≤ 4095`, and-reduced over the unit axis. -/
def takeOk (x : IVec S4x100 32) : IVec S4x100 1 :=
  Host.reduce IntOp.andi
    (andi (cmpi .sge (takeIdx3 x) (broadcastInDim S4x100x1 ![] bcast_S_S4x100x1 (constantI S_ 32 0#32)))
      (cmpi .sle (takeIdx3 x)
        (broadcastInDim S4x100x1 ![0, 1, 2] bcast_S1x1x1_S4x100x1_0_1_2
          (broadcastInDim S1x1x1 ![2] bcast_S1_S1x1x1_2 (constantI S1 32 4095#32)))))
    (constantI S_ 1 1#1) reducesTo_S4x100x1_S4x100_d2 h_S_

/-- The take: the gathered rows where the index is in bounds, the NaN word's value elsewhere. -/
def takeRows (mat2 : FVec Ideal S4096x2048 .f32) (x : IVec S4x100 32) : FVec Ideal S4x100x2048 .f32 :=
  select (broadcastInDim S4x100x2048 ![0, 1] bcast_S4x100_S4x100x2048_0_1 (takeOk x))
    (Host.gather gather_S4096x2048_S4x100x1_S4x100x2048_2_0_n_n_0_2_12048 mat2 (takeIdx3 x))
    (broadcastInDim S4x100x2048 ![] bcast_S_S4x100x2048 (constant (F := Ideal) S_ .f32 0x7FC00000#32))

/-- The masked distances before flattening: the taken rows inside the valid prefix, zero outside. -/
def masked (loc : IVec S4x100 32) (mat2 : FVec Ideal S4096x2048 .f32) (len : IVec S4 32) : FVec Ideal S4x100x2048 .f32 :=
  select
    (broadcastInDim S4x100x2048 ![0, 1, 2] bcast_S4x100x1_S4x100x2048_0_1_2
      (broadcastInDim S4x100x1 ![0, 1] bcast_S4x100_S4x100x1_0_1 (validMask len)))
    (takeRows mat2 (idxClip loc))
    (broadcastInDim S4x100x2048 ![] bcast_S_S4x100x2048 (constant (F := Ideal) S_ .f32 0x00000000#32))

/-! ## Words: a location in `1 … 4096` and its predecessor -/

/-- A signed word between 1 and 4096 reads the same unsigned; its predecessor does not wrap. -/
theorem word_pred (w : BitVec 32) (h1 : 1 ≤ w.toInt) (h2 : w.toInt ≤ 4096) :
    (w.toNat : ℤ) = w.toInt ∧ (w - 1#32).toInt = w.toInt - 1 ∧ (w - 1#32).toNat = w.toNat - 1 := by
  have hw := w.isLt
  have e1 := BitVec.toInt_eq_toNat_cond w
  have hn : (w.toNat : ℤ) = w.toInt := by
    rw [e1]; split <;> omega
  have hs : (w - 1#32).toNat = w.toNat - 1 := by
    rw [BitVec.toNat_sub]
    show (2 ^ 32 - 1 + w.toNat) % 2 ^ 32 = w.toNat - 1
    omega
  refine ⟨hn, ?_, hs⟩
  rw [BitVec.toInt_eq_toNat_cond, hs]
  split <;> omega

/-! ## The validity mask at a position -/

theorem validMask_apply (len : IVec S4 32) (b : Fin 4) (l : Fin 100) :
    validMask len (ix2 b l) = BitVec.ofBool (Cert.Spec.valid len b l) := by
  unfold validMask Cert.Spec.valid
  show IntOp.cmpi .slt _ _ = _
  rw [broadcastInDim_apply _ bcast_S1x100_S4x100_0_1 _ (ix2 b l) (ix2 (0 : Fin 1) l)
      (fun a => match a with | ⟨0, _⟩ => rfl | ⟨1, _⟩ => rfl),
    broadcastInDim_apply _ bcast_S100_S1x100_1 _ (ix2 (0 : Fin 1) l) (ix1 l)
      (fun a => match a with | ⟨0, _⟩ => rfl),
    broadcastInDim_apply _ bcast_S4x1_S4x100_0_1 _ (ix2 b l) (ix2 b (0 : Fin 1))
      (fun a => match a with | ⟨0, _⟩ => rfl | ⟨1, _⟩ => rfl),
    broadcastInDim_apply _ bcast_S4_S4x1_0 _ (ix2 b (0 : Fin 1)) (ix1 b)
      (fun a => match a with | ⟨0, _⟩ => rfl)]
  rfl

/-! ## The index words at a position, for a location in `1 … 4096` -/

/-- A scalar constant broadcast to the positions reads the constant. -/
theorem bcastConst_apply (k : BitVec 32) (j : S4x100.Idx) :
    broadcastInDim S4x100 ![] bcast_S_S4x100 (constantI S_ 32 k) j = k := by
  rw [broadcastInDim_apply _ bcast_S_S4x100 _ j ix0 (fun a => a.elim0)]
  rfl

/-- With the location in `1 … 4096` the clip leaves `loc − 1` as it is. -/
theorem idxClip_apply (loc : IVec S4x100 32) (b : Fin 4) (l : Fin 100)
    (h1 : 1 ≤ (loc (ix2 b l)).toInt) (h2 : (loc (ix2 b l)).toInt ≤ 4096) :
    idxClip loc (ix2 b l) = loc (ix2 b l) - 1#32 := by
  obtain ⟨hn, hi, hs⟩ := word_pred _ h1 h2
  unfold idxClip
  show IntOp.minsi (broadcastInDim S4x100 ![] bcast_S_S4x100 (constantI S_ 32 4095#32) (ix2 b l))
      (IntOp.maxsi (broadcastInDim S4x100 ![] bcast_S_S4x100 (constantI S_ 32 0#32) (ix2 b l))
        (IntOp.subi (loc (ix2 b l)) (broadcastInDim S4x100 ![] bcast_S_S4x100 (constantI S_ 32 1#32) (ix2 b l)))) = _
  rw [bcastConst_apply, bcastConst_apply, bcastConst_apply]
  show IntOp.minsi 4095#32 (IntOp.maxsi 0#32 (loc (ix2 b l) - 1#32)) = _
  have h0 : (0#32 : BitVec 32).toInt = 0 := by decide
  have h4 : (4095#32 : BitVec 32).toInt = 4095 := by decide
  have hmax : IntOp.maxsi 0#32 (loc (ix2 b l) - 1#32) = loc (ix2 b l) - 1#32 := by
    unfold IntOp.maxsi
    rw [if_neg]
    simp only [BitVec.slt, hi, h0, decide_eq_true_eq]; omega
  rw [hmax]
  unfold IntOp.minsi
  rw [if_neg]
  simp only [BitVec.slt, hi, h4, decide_eq_true_eq]; omega

/-- An index word in `0 … 4095` is not wrapped by the take. -/
theorem takeIdx_apply (x : IVec S4x100 32) (j : S4x100.Idx) (h0 : 0 ≤ (x j).toInt) :
    takeIdx x j = x j := by
  unfold takeIdx
  show Scalar.select (IntOp.cmpi .slt (x j) (broadcastInDim S4x100 ![] bcast_S_S4x100 (constantI S_ 32 0#32) j)) _ _ = _
  rw [bcastConst_apply]
  have hz : (0#32 : BitVec 32).toInt = 0 := by decide
  have hc : IntOp.cmpi .slt (x j) 0#32 = 0#1 := by
    show BitVec.ofBool ((x j).slt 0#32) = 0#1
    have : (x j).slt 0#32 = false := by
      simp only [BitVec.slt, hz, decide_eq_false_iff_not]; omega
    rw [this]; rfl
  rw [hc, select_zero]

/-- The index with its trailing unit axis reads the index. -/
theorem takeIdx3_apply (x : IVec S4x100 32) (b : Fin 4) (l : Fin 100) (h0 : 0 ≤ (x (ix2 b l)).toInt) :
    takeIdx3 x (ix3 b l (0 : Fin 1)) = x (ix2 b l) := by
  unfold takeIdx3
  rw [broadcastInDim_apply _ bcast_S4x100_S4x100x1_0_1 _ (ix3 b l (0 : Fin 1)) (ix2 b l)
      (fun a => match a with | ⟨0, _⟩ => rfl | ⟨1, _⟩ => rfl)]
  exact takeIdx_apply x _ h0

/-- A fold over an index range of one element is the operation applied once. -/
theorem fold_univ_one {α : Type} (op : α → α → α) [Std.Commutative op] [Std.Associative op] (n : Nat) (hn : n = 1)
    (init : α) (f : Fin n → α) :
    (Finset.univ : Finset (Fin n)).fold op init f = op (f ⟨0, by omega⟩) init := by
  subst hn
  rw [Finset.univ_unique, Finset.fold_singleton]
  rfl

/-- The unit axis's one index over position `(b, l)`. -/
theorem lift_unit (h : S4x100x1.Reduces [2] S4x100) (b : Fin 4) (l : Fin 100) (k : Fin (S4x100x1.size 2)) :
    h.lift (ix2 b l) k = ix3 b l (0 : Fin 1) := by
  funext c
  refine Fin.ext ?_
  rw [h.lift_val]
  have hk : k.val = 0 := by have := k.isLt; change k.val < 1 at this; omega
  match c with
  | ⟨0, _⟩ => rfl
  | ⟨1, _⟩ => rfl
  | ⟨2, _⟩ => exact hk

/-- With the index word in `0 … 4095` the take's in-bounds test holds. -/
theorem takeOk_apply (x : IVec S4x100 32) (b : Fin 4) (l : Fin 100)
    (h0 : 0 ≤ (x (ix2 b l)).toInt) (h1 : (x (ix2 b l)).toInt ≤ 4095) :
    takeOk x (ix2 b l) = 1#1 := by
  have hR : S4x100x1.Reduces [2] S4x100 := by decide
  unfold takeOk
  rw [Host.reduce_eq_fold_single IntOp.andi _ _ reducesTo_S4x100x1_S4x100_d2 hR h_S_ (ix2 b l),
    fold_univ_one IntOp.andi (S4x100x1.size 2) rfl]
  show IntOp.andi (IntOp.andi
      (IntOp.cmpi .sge (takeIdx3 x (hR.lift (ix2 b l) _))
        (broadcastInDim S4x100x1 ![] bcast_S_S4x100x1 (constantI S_ 32 0#32) (hR.lift (ix2 b l) _)))
      (IntOp.cmpi .sle (takeIdx3 x (hR.lift (ix2 b l) _))
        (broadcastInDim S4x100x1 ![0, 1, 2] bcast_S1x1x1_S4x100x1_0_1_2
          (broadcastInDim S1x1x1 ![2] bcast_S1_S1x1x1_2 (constantI S1 32 4095#32)) (hR.lift (ix2 b l) _)))) 1#1 = _
  rw [lift_unit, takeIdx3_apply x b l h0,
    broadcastInDim_apply _ bcast_S_S4x100x1 _ (ix3 b l (0 : Fin 1)) ix0 (fun a => a.elim0),
    broadcastInDim_apply _ bcast_S1x1x1_S4x100x1_0_1_2 _ (ix3 b l (0 : Fin 1)) (ix3 (0 : Fin 1) (0 : Fin 1) (0 : Fin 1))
      (fun a => match a with | ⟨0, _⟩ => rfl | ⟨1, _⟩ => rfl | ⟨2, _⟩ => rfl),
    broadcastInDim_apply _ bcast_S1_S1x1x1_2 _ (ix3 (0 : Fin 1) (0 : Fin 1) (0 : Fin 1)) (ix1 (0 : Fin 1))
      (fun a => match a with | ⟨0, _⟩ => rfl)]
  show IntOp.andi (IntOp.andi (IntOp.cmpi .sge (x (ix2 b l)) 0#32) (IntOp.cmpi .sle (x (ix2 b l)) 4095#32)) 1#1 = 1#1
  have hz : (0#32 : BitVec 32).toInt = 0 := by decide
  have h4 : (4095#32 : BitVec 32).toInt = 4095 := by decide
  have hge : IntOp.cmpi .sge (x (ix2 b l)) 0#32 = 1#1 := by
    show BitVec.ofBool ((0#32 : BitVec 32).sle (x (ix2 b l))) = 1#1
    have : (0#32 : BitVec 32).sle (x (ix2 b l)) = true := by
      simp only [BitVec.sle, hz, decide_eq_true_eq]; omega
    rw [this]; rfl
  have hle : IntOp.cmpi .sle (x (ix2 b l)) 4095#32 = 1#1 := by
    show BitVec.ofBool ((x (ix2 b l)).sle 4095#32) = 1#1
    have : (x (ix2 b l)).sle 4095#32 = true := by
      simp only [BitVec.sle, h4, decide_eq_true_eq]; omega
    rw [this]; rfl
  rw [hge, hle]; rfl

/-- The take at `(b, l, q)`, index word in `0 … 4095`: the table's row of that index, column `q`. -/
theorem takeRows_apply (mat2 : FVec Ideal S4096x2048 .f32) (x : IVec S4x100 32) (b : Fin 4) (l : Fin 100) (q : Fin 2048)
    (h0 : 0 ≤ (x (ix2 b l)).toInt) (h1 : (x (ix2 b l)).toInt ≤ 4095) :
    takeRows mat2 x (ix3 b l q) = mat2 (ix2 ⟨min (x (ix2 b l)).toInt.toNat (4096 - 1), by omega⟩ q) := by
  unfold takeRows
  show Scalar.select (broadcastInDim S4x100x2048 ![0, 1] bcast_S4x100_S4x100x2048_0_1 (takeOk x) (ix3 b l q))
    (Host.gather gather_S4096x2048_S4x100x1_S4x100x2048_2_0_n_n_0_2_12048 mat2 (takeIdx3 x) (ix3 b l q)) _ = _
  rw [broadcastInDim_apply _ bcast_S4x100_S4x100x2048_0_1 _ (ix3 b l q) (ix2 b l)
      (fun a => match a with | ⟨0, _⟩ => rfl | ⟨1, _⟩ => rfl),
    takeOk_apply x b l h0 h1, select_one]
  unfold gather_S4096x2048_S4x100x1_S4x100x2048_2_0_n_n_0_2_12048
  refine (Cert.LibGatherRows.gather_rows3_apply (N := 4096) (M := 2048) (A := 4) (B := 100) (by omega)
    gather_S4096x2048_S4x100x1_S4x100x2048_2_0_n_n_0_2_12048_wf mat2 (takeIdx3 x) b l q).trans ?_
  exact congrArg (fun w : BitVec 32 => mat2 (ix2 (⟨min w.toInt.toNat (4096 - 1), by omega⟩ : Fin 4096) q))
    (takeIdx3_apply x b l h0)

/-- The masked distances at `(b, l, q)`, location in `1 … 4096`: the table's entry at row `loc − 1` inside the valid
    prefix, zero outside. -/
theorem masked_apply (loc : IVec S4x100 32) (mat2 : FVec Ideal S4096x2048 .f32) (len : IVec S4 32)
    (b : Fin 4) (l : Fin 100) (q : Fin 2048)
    (h1 : 1 ≤ (loc (ix2 b l)).toInt) (h2 : (loc (ix2 b l)).toInt ≤ 4096) :
    masked loc mat2 len (ix3 b l q) = Cert.Spec.delta loc mat2 len b l q := by
  obtain ⟨hn, hi, hs⟩ := word_pred _ h1 h2
  have hx := idxClip_apply loc b l h1 h2
  have hx0 : 0 ≤ (idxClip loc (ix2 b l)).toInt := by rw [hx, hi]; omega
  have hx1 : (idxClip loc (ix2 b l)).toInt ≤ 4095 := by rw [hx, hi]; omega
  -- the clamped row the gather reads is the specification's row
  have hrow : (⟨min (idxClip loc (ix2 b l)).toInt.toNat (4096 - 1), by omega⟩ : Fin 4096) = Cert.Spec.row loc b l := by
    refine Fin.ext ?_
    show min (idxClip loc (ix2 b l)).toInt.toNat (4096 - 1) = min ((loc (ix2 b l)).toNat - 1) 4095
    rw [hx, hi]; omega
  unfold masked Cert.Spec.delta
  show Scalar.select
    (broadcastInDim S4x100x2048 ![0, 1, 2] bcast_S4x100x1_S4x100x2048_0_1_2
      (broadcastInDim S4x100x1 ![0, 1] bcast_S4x100_S4x100x1_0_1 (validMask len)) (ix3 b l q))
    (takeRows mat2 (idxClip loc) (ix3 b l q))
    (broadcastInDim S4x100x2048 ![] bcast_S_S4x100x2048 (constant (F := Ideal) S_ .f32 0x00000000#32) (ix3 b l q)) = _
  rw [broadcastInDim_apply _ bcast_S4x100x1_S4x100x2048_0_1_2 _ (ix3 b l q) (ix3 b l (0 : Fin 1))
      (fun a => match a with | ⟨0, _⟩ => rfl | ⟨1, _⟩ => rfl | ⟨2, _⟩ => rfl),
    broadcastInDim_apply _ bcast_S4x100_S4x100x1_0_1 _ (ix3 b l (0 : Fin 1)) (ix2 b l)
      (fun a => match a with | ⟨0, _⟩ => rfl | ⟨1, _⟩ => rfl),
    validMask_apply, takeRows_apply mat2 _ b l q hx0 hx1,
    broadcastInDim_apply _ bcast_S_S4x100x2048 _ (ix3 b l q) ix0 (fun a => a.elim0)]
  cases hv : Cert.Spec.valid len b l
  · show Scalar.select 0#1 _ _ = _
    rw [select_zero, if_neg (by decide)]
    rfl
  · show Scalar.select 1#1 _ _ = _
    rw [select_one, if_pos rfl]
    exact congrArg (fun r : Fin 4096 => mat2 (ix2 r q)) hrow

/-! ## The arrays the region finds are those terms

Each equation walks the host operations backwards from the array's own buffer: an operation's result buffer holds its
function of its operands' buffers, every other buffer is untouched; the argument buffers are as launched. -/

/-- The distances array is the masked distances, flattened. -/
theorem V_main_v12 (c : Dev nD) :
    (V m c main_v12 : S400x2048.Idx → EReal)
      = shapeCast S400x2048 (masked (KArgs.loc m c) (KArgs.mat2 m c) (KArgs.len m c))
          shapeCasts_S4x100x2048_S400x2048 := by
  dsimp only [Gen.V, Gen.V0]
  simp only [Gen.hostOps0, Gen.hostOps0_1, Gen.hostOps0_2, Gen.hostOps0_3, Gen.hostOps0_4, Gen.hostOps0_5, List.flatten_cons, List.flatten_nil, List.append_nil, List.cons_append, List.nil_append]
  after_results_simp
  simp only [StableHlo.TRef.ofBuf, StableHlo.TRef.toBuf, cast_eq]
  rfl

/-- The times array is the times argument, flattened. -/
theorem V_main_v13 (c : Dev nD) :
    (V m c main_v13 : S400x1.Idx → EReal) = shapeCast S400x1 (KArgs.vec m c) shapeCasts_S4x100_S400x1 := by
  dsimp only [Gen.V, Gen.V0]
  simp only [Gen.hostOps0, Gen.hostOps0_1, Gen.hostOps0_2, Gen.hostOps0_3, Gen.hostOps0_4, Gen.hostOps0_5, List.flatten_cons, List.flatten_nil, List.append_nil, List.cons_append, List.nil_append]
  after_results
  rfl

/-- The flags array is the validity mask as numbers, flattened. -/
theorem V_main_v15 (c : Dev nD) :
    (V m c main_v15 : S400x1.Idx → EReal)
      = shapeCast S400x1 (uitofp (F := Ideal) .f32 (validMask (KArgs.len m c))) shapeCasts_S4x100_S400x1 := by
  dsimp only [Gen.V, Gen.V0]
  simp only [Gen.hostOps0, Gen.hostOps0_1, Gen.hostOps0_2, Gen.hostOps0_3, Gen.hostOps0_4, Gen.hostOps0_5, List.flatten_cons, List.flatten_nil, List.append_nil, List.cons_append, List.nil_append]
  after_results
  rfl

/-! ## The three arrays read at row `b · 100 + l` -/

/-- Row `b · 100 + l` of a `[400, 1]` array and position `(b, l)` of a `[4, 100]` array sit at the same row-major place. -/
theorem flat_pos1 (b : Fin 4) (l : Fin 100) :
    (S4x100.rowMajor (ix2 b l)).val = (S400x1.rowMajor (ix2 (Cert.Spec.flat b l) (0 : Fin 1))).val := by
  rw [Shape.rowMajor_val_two, Shape.rowMajor_val_two]
  show b.val * 100 + l.val = (b.val * 100 + l.val) * 1 + 0
  omega

/-- Row `b · 100 + l`, column `q` of the `[400, 2048]` array and `(b, l, q)` of the `[4, 100, 2048]` array likewise. -/
theorem flat_pos2 (b : Fin 4) (l : Fin 100) (q : Fin 2048) :
    (S4x100x2048.rowMajor (ix3 b l q)).val = (S400x2048.rowMajor (ix2 (Cert.Spec.flat b l) q)).val := by
  rw [Shape.rowMajor_val_three, Shape.rowMajor_val_two]
  show (b.val * 100 + l.val) * 2048 + q.val = (b.val * 100 + l.val) * 2048 + q.val
  rfl

/-- The distances array at row `b · 100 + l`, column `q`: `mat2[traj_location[b,l] − 1, q` inside the valid prefix, `0`
    outside — with every location in `1 … 4096` the clip and the take's own bounds test change nothing. -/
theorem V_ds (c : Dev nD) (hrange : ∀ i, 1 ≤ (KArgs.loc m c i).toInt ∧ (KArgs.loc m c i).toInt ≤ 4096)
    (b : Fin 4) (l : Fin 100) (q : Fin 2048) :
    (V m c main_v12 : S400x2048.Idx → EReal) (ix2 (Cert.Spec.flat b l) q)
      = Cert.Spec.delta (KArgs.loc m c) (KArgs.mat2 m c) (KArgs.len m c) b l q := by
  rw [V_main_v12 m c]
  refine (shapeCast_apply _ shapeCasts_S4x100x2048_S400x2048 (ix2 (Cert.Spec.flat b l) q) (ix3 b l q)
    (flat_pos2 b l q)).trans ?_
  exact masked_apply (KArgs.loc m c) (KArgs.mat2 m c) (KArgs.len m c) b l q (hrange (ix2 b l)).1 (hrange (ix2 b l)).2

/-- The times array at row `b · 100 + l`: `vector[b, l]`. -/
theorem V_vec (c : Dev nD) (b : Fin 4) (l : Fin 100) :
    (V m c main_v13 : S400x1.Idx → EReal) (ix2 (Cert.Spec.flat b l) (0 : Fin 1)) = KArgs.vec m c (ix2 b l) := by
  rw [V_main_v13 m c]
  exact shapeCast_apply _ shapeCasts_S4x100_S400x1 (ix2 (Cert.Spec.flat b l) (0 : Fin 1)) (ix2 b l) (flat_pos1 b l)

/-- The flags array at row `b · 100 + l`: `1` inside the valid prefix, `0` outside. -/
theorem V_valid (c : Dev nD) (b : Fin 4) (l : Fin 100) :
    (V m c main_v15 : S400x1.Idx → EReal) (ix2 (Cert.Spec.flat b l) (0 : Fin 1))
      = Cert.Spec.flag (Cert.Spec.valid (KArgs.len m c) b l) := by
  rw [V_main_v15 m c]
  refine (shapeCast_apply _ shapeCasts_S4x100_S400x1 (ix2 (Cert.Spec.flat b l) (0 : Fin 1)) (ix2 b l)
    (flat_pos1 b l)).trans ?_
  -- the unsigned conversion of a bit is its value as a real number
  show (((validMask (KArgs.len m c) (ix2 b l)).toNat : ℝ) : EReal) = _
  rw [validMask_apply]
  unfold Cert.Spec.flag
  cases Cert.Spec.valid (KArgs.len m c) b l
  · show (((0 : ℕ) : ℝ) : EReal) = _
    rw [if_neg (by decide), Nat.cast_zero]
  · show (((1 : ℕ) : ℝ) : EReal) = _
    rw [if_pos rfl, Nat.cast_one]

end Cert.KernelIdeal.KHost

end
-- ==== Proof.KBody.lean ====
/-
  The kernel body's output block read at an index. The body computes, for row `n`, location `q` of the block's 128 and
  embedding coordinate `e`, the distributed interpolation `Spec.kcore` of the distance `x0[n, q]`, the time `x1[n]`, the
  flag `x2[n]` and the two rows of each table, in `[400, 50, 128]` order; the transpose to `[400, 128, 50]` and the
  flattening to `[400, 6400]` put that value at column `q · 50 + e`.
-/
import proofs.«417881_j60696477827087_4_alg».proof.Proof.Gen.KernelIdeal.Frame
import proofs.«417881_j60696477827087_4_alg».proof.Proof.Spec
import Idealize.ShloMosaic.Lib.ValueIdx
import Idealize.ShloMosaic.Lib.ValueLayout
import Idealize.ShloMosaic.Lib.Pipeline.Value

noncomputable section

namespace Cert.KernelIdeal.KBody

open Cert.KernelIdeal Cert.KernelIdeal.Gen Idealize.ShloMosaic Idealize.ShloMosaic.ValueIdx

/-! ## Layout operations at an index given by coordinates -/

section Layout
variable {α : Type}

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A stack `[m, 1, b]` broadcast to `[m, a, b]` reads, at `(k, i, j)`, the operand at `(k, 0, j)`. -/
theorem broadcastTo_m1b_mab_apply {m a b : ℕ} (v : (⟨3, ![m, 1, b]⟩ : Shape).Idx → α)
    (h : (⟨3, ![m, 1, b]⟩ : Shape).Broadcasts ⟨3, ![m, a, b]⟩) (k : Fin m) (i : Fin a) (j : Fin b) :
    broadcastTo ⟨3, ![m, a, b]⟩ v h (ix3 k i j) = v (ix3 k (0 : Fin 1) j) := by
  refine broadcastTo_apply v h (ix3 k i j) (ix3 k (0 : Fin 1) j) fun ax => ?_
  match ax with
  | ⟨0, _⟩ =>
    show k.val = if m = 1 then 0 else k.val
    split
    · have := k.isLt; omega
    · rfl
  | ⟨1, _⟩ => rfl
  | ⟨2, _⟩ =>
    show j.val = if b = 1 then 0 else j.val
    split
    · have := j.isLt; omega
    · rfl

/-- A stack `[m, a, 1]` broadcast to `[m, a, b]` reads, at `(k, i, j)`, the operand at `(k, i, 0)`. -/
theorem broadcastTo_ma1_mab_apply {m a b : ℕ} (v : (⟨3, ![m, a, 1]⟩ : Shape).Idx → α)
    (h : (⟨3, ![m, a, 1]⟩ : Shape).Broadcasts ⟨3, ![m, a, b]⟩) (k : Fin m) (i : Fin a) (j : Fin b) :
    broadcastTo ⟨3, ![m, a, b]⟩ v h (ix3 k i j) = v (ix3 k i (0 : Fin 1)) := by
  refine broadcastTo_apply v h (ix3 k i j) (ix3 k i (0 : Fin 1)) fun ax => ?_
  match ax with
  | ⟨0, _⟩ =>
    show k.val = if m = 1 then 0 else k.val
    split
    · have := k.isLt; omega
    · rfl
  | ⟨1, _⟩ =>
    show i.val = if a = 1 then 0 else i.val
    split
    · have := i.isLt; omega
    · rfl
  | ⟨2, _⟩ => rfl

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[m, a, b]` array flattened to `[m, a · b]` reads, at `(k, i · b + j)`, the operand at `(k, i, j)`. -/
theorem shapeCast_mab_mc_apply {m a b c : ℕ} (x : (⟨3, ![m, a, b]⟩ : Shape).Idx → α)
    (h : (⟨3, ![m, a, b]⟩ : Shape).ShapeCasts ⟨2, ![m, c]⟩) (hc : c = a * b) (k : Fin m) (i : Fin a) (j : Fin b)
    (l : Fin c) (hl : l.val = i.val * b + j.val) :
    shapeCast ⟨2, ![m, c]⟩ x h (ix2 k l) = x (ix3 k i j) :=
  shapeCast_apply x h _ _ (by
    rw [Shape.rowMajor_val_three, Shape.rowMajor_val_two]
    show (k.val * a + i.val) * b + j.val = k.val * c + l.val
    rw [hl, hc, Nat.add_mul, Nat.mul_assoc, Nat.add_assoc])

end Layout

/-! ## The loads -/

/-- The whole-buffer rectangles start at the origin. -/
theorem hz : (![0, 0] : Fin 2 → Nat) = fun _ => 0 := funext fun a => by fin_cases a <;> rfl

/-- The first table load reads row 0 of the `[2, 50]` table as a `[1, 50]` vector. -/
theorem ld_row0 (x : Vec Ideal S2x50 .f32) (u : Fin 1) (e : Fin 50) :
    View.ld (Val := Elt Ideal) x r0_2 (ix2 u e) = x (ix2 (0 : Fin 2) e) := by
  show x (r0_2.idx (ix2 u e)) = x (ix2 (0 : Fin 2) e)
  refine congrArg x (funext fun a => Fin.ext ?_)
  match a with
  | ⟨0, _⟩ =>
    show 0 + 1 * u.val = 0
    omega
  | ⟨1, _⟩ =>
    show 0 + 1 * e.val = e.val
    omega

/-- The second table load reads row 1. -/
theorem ld_row1 (x : Vec Ideal S2x50 .f32) (u : Fin 1) (e : Fin 50) :
    View.ld (Val := Elt Ideal) x r0_3 (ix2 u e) = x (ix2 (1 : Fin 2) e) := by
  show x (r0_3.idx (ix2 u e)) = x (ix2 (1 : Fin 2) e)
  refine congrArg x (funext fun a => Fin.ext ?_)
  match a with
  | ⟨0, _⟩ =>
    show 1 + 1 * u.val = 1
    omega
  | ⟨1, _⟩ =>
    show 0 + 1 * e.val = e.val
    omega

/-! ## The two named reciprocals -/

/-- The word the body multiplies distances by denotes the exact rational `1/1000` in the table of named constants. -/
theorem inv_1000 : Named.named (F := Ideal) Cert.KernelIdeal.κ "inv_1000" (φ := .f32) 0x3A83126F#32 = ((1 / 1000 : ℝ) : EReal) :=
  IdealRules.named_const.ideal_named_scalar _ _ _ _ rfl

/-- The word the body multiplies times by denotes the exact rational `1/86400`. -/
theorem inv_86400 : Named.named (F := Ideal) Cert.KernelIdeal.κ "inv_86400" (φ := .f32) 0x37422E45#32 = ((1 / 86400 : ℝ) : EReal) :=
  IdealRules.named_const.ideal_named_scalar _ _ _ _ rfl

/-! ## The payloads at an index

Each intermediate value of the body is read at one index given by coordinates. The casts to the same shape, and the
casts `[1, 50] → [50] → [1, 50]` of a table row, are identities. The pointwise operations are the extended reals'
operations on the entries. A broadcast reads `0` on the axis it stretches, and a cast that inserts a unit axis forgets
that axis. -/

/-- The distances cast to their own shape are the distances. -/
theorem pay2_eq (v0 : Vec Ideal S400x128 .f32) : k0_pay2 (F := Ideal) v0 = v0 := by
  unfold k0_pay2; exact shapeCast_self _ _

/-- The times cast to their own shape are the times. -/
theorem pay3_eq (v2 : Vec Ideal S400x1 .f32) : k0_pay3 (F := Ideal) v2 = v2 := by
  unfold k0_pay3; exact shapeCast_self _ _

/-- The flags cast to their own shape are the flags. -/
theorem pay4_eq (v4 : Vec Ideal S400x1 .f32) : k0_pay4 (F := Ideal) v4 = v4 := by
  unfold k0_pay4; exact shapeCast_self _ _

/-- The lower spatial weight at `(n, q)`: `(1000 − d) · 1/1000`, `d` the distance there. -/
theorem pay5_apply (v0 : Vec Ideal S400x128 .f32) (n : Fin 400) (q : Fin 128) :
    (k0_pay5 (F := Ideal) v0 : S400x128.Idx → EReal) (ix2 n q)
      = (Ideal.ofBits .f32 0x447A0000#32 - v0 (ix2 n q)) * ((1 / 1000 : ℝ) : EReal) := by
  unfold k0_pay5
  simp only [pay2_eq, mulf_apply, subf_apply, broadcast_apply, inv_1000]
  rfl

/-- The upper spatial weight at `(n, q)`: `(d − 0) · 1/1000`. -/
theorem pay6_apply (v0 : Vec Ideal S400x128 .f32) (n : Fin 400) (q : Fin 128) :
    (k0_pay6 (F := Ideal) v0 : S400x128.Idx → EReal) (ix2 n q)
      = (v0 (ix2 n q) - Ideal.ofBits .f32 0x00000000#32) * ((1 / 1000 : ℝ) : EReal) := by
  unfold k0_pay6
  simp only [pay2_eq, mulf_apply, subf_apply, broadcast_apply, inv_1000]
  rfl

/-- The lower temporal weight of row `n`: `(86400 − t) · 1/86400`, `t` the time of the row. -/
theorem pay7_apply (v2 : Vec Ideal S400x1 .f32) (n : Fin 400) (u : Fin 1) :
    (k0_pay7 (F := Ideal) v2 : S400x1.Idx → EReal) (ix2 n u)
      = (Ideal.ofBits .f32 0x47A8C000#32 - v2 (ix2 n u)) * ((1 / 86400 : ℝ) : EReal) := by
  unfold k0_pay7
  simp only [pay3_eq, mulf_apply, subf_apply, broadcast_apply, inv_86400]
  rfl

/-- The upper temporal weight of row `n`: `(t − 0) · 1/86400`. -/
theorem pay8_apply (v2 : Vec Ideal S400x1 .f32) (n : Fin 400) (u : Fin 1) :
    (k0_pay8 (F := Ideal) v2 : S400x1.Idx → EReal) (ix2 n u)
      = (v2 (ix2 n u) - Ideal.ofBits .f32 0x00000000#32) * ((1 / 86400 : ℝ) : EReal) := by
  unfold k0_pay8
  simp only [pay3_eq, mulf_apply, subf_apply, broadcast_apply, inv_86400]
  rfl

/-- The complement of the flag of row `n`: `1 − v`. -/
theorem pay9_apply (v4 : Vec Ideal S400x1 .f32) (n : Fin 400) (u : Fin 1) :
    (k0_pay9 (F := Ideal) v4 : S400x1.Idx → EReal) (ix2 n u)
      = Ideal.ofBits .f32 0x3F800000#32 - v4 (ix2 n u) := by
  unfold k0_pay9
  simp only [pay4_eq, subf_apply, broadcast_apply]
  rfl

/-- A table row flattened to `[50]` and back to `[1, 50]` is the row (four times, one per spatial table row). -/
theorem pay10_eq (v : Vec Ideal S1x50 .f32) : k0_pay10 (F := Ideal) v = v := by
  unfold k0_pay10; exact shapeCast_shapeCast _ _ _

theorem pay11_eq (v : Vec Ideal S1x50 .f32) : k0_pay11 (F := Ideal) v = v := by
  unfold k0_pay11; exact shapeCast_shapeCast _ _ _

theorem pay12_eq (v : Vec Ideal S1x50 .f32) : k0_pay12 (F := Ideal) v = v := by
  unfold k0_pay12; exact shapeCast_shapeCast _ _ _

theorem pay13_eq (v : Vec Ideal S1x50 .f32) : k0_pay13 (F := Ideal) v = v := by
  unfold k0_pay13; exact shapeCast_shapeCast _ _ _

/-- The upper spatial weight with a unit axis inserted in the middle: `(n, u, q)` reads `(n, q)`. -/
theorem pay14_apply (v13 : FVec Ideal S400x128 .f32) (n : Fin 400) (u : Fin 1) (q : Fin 128) :
    (k0_pay14 (F := Ideal) v13 : S400x1x128.Idx → EReal) (ix3 n u q) = v13 (ix2 n q) := by
  unfold k0_pay14
  exact shapeCast_ab_a1b_apply _ _ n u q

/-- The upper spatial table mixed by the flag, as a column over the locations: at `(n, e, u)` it is
    `row0[e] · (1 − v[n]) + row1[e] · v[n]` of the two rows and the flag's complement and the flag handed in. -/
theorem pay15_apply (v5 v23 : FVec Ideal S400x1 .f32) (v32 v35 : FVec Ideal S1x50 .f32)
    (n : Fin 400) (e : Fin 50) (u : Fin 1) :
    (k0_pay15 (F := Ideal) v5 v23 v32 v35 : S400x50x1.Idx → EReal) (ix3 n e u)
      = v32 (ix2 (0 : Fin 1) e) * v23 (ix2 n (0 : Fin 1)) + v35 (ix2 (0 : Fin 1) e) * v5 (ix2 n (0 : Fin 1)) := by
  unfold k0_pay15
  refine (shapeCast_ab_ab1_apply _ _ n e u).trans ?_
  simp only [addf_apply, mulf_apply, broadcastTo_1b_ab_apply, broadcastTo_a1_ab_apply]

/-- The temporal term, as a column over the locations: at `(n, e, u)` the lower weight times the lower table mixed by
    the flag plus the upper weight times the upper table mixed by the flag. It does not depend on the location. -/
theorem pay16_apply (v5 v17 v21 v23 : FVec Ideal S400x1 .f32) (v36 v39 v42 v45 : Vec Ideal S1x50 .f32)
    (n : Fin 400) (e : Fin 50) (u : Fin 1) :
    (k0_pay16 (F := Ideal) v5 v17 v21 v23 v36 v39 v42 v45 : S400x50x1.Idx → EReal) (ix3 n e u)
      = v17 (ix2 n (0 : Fin 1))
            * (v36 (ix2 (0 : Fin 1) e) * v23 (ix2 n (0 : Fin 1)) + v39 (ix2 (0 : Fin 1) e) * v5 (ix2 n (0 : Fin 1)))
          + v21 (ix2 n (0 : Fin 1))
            * (v42 (ix2 (0 : Fin 1) e) * v23 (ix2 n (0 : Fin 1)) + v45 (ix2 (0 : Fin 1) e) * v5 (ix2 n (0 : Fin 1))) := by
  unfold k0_pay16
  refine (shapeCast_ab_ab1_apply _ _ n e u).trans ?_
  simp only [addf_apply, mulf_apply, broadcastTo_1b_ab_apply, broadcastTo_a1_ab_apply, shapeCast_shapeCast]

/-- The lower spatial weight spread over the embedding axis: `(n, e, q)` reads `(n, q)`. -/
theorem pay17_apply (v9 : FVec Ideal S400x128 .f32) (n : Fin 400) (e : Fin 50) (q : Fin 128) :
    (k0_pay17 (F := Ideal) v9 : S400x50x128.Idx → EReal) (ix3 n e q) = v9 (ix2 n q) := by
  unfold k0_pay17
  refine (broadcastTo_m1b_mab_apply _ _ n e q).trans ?_
  exact shapeCast_ab_a1b_apply _ _ n (0 : Fin 1) q

/-- The lower spatial table mixed by the flag, spread over the locations: `(n, e, q)` reads
    `row0[e] · (1 − v[n]) + row1[e] · v[n]`. -/
theorem pay18_apply (v5 v23 : FVec Ideal S400x1 .f32) (v26 v29 : FVec Ideal S1x50 .f32)
    (n : Fin 400) (e : Fin 50) (q : Fin 128) :
    (k0_pay18 (F := Ideal) v5 v23 v26 v29 : S400x50x128.Idx → EReal) (ix3 n e q)
      = v26 (ix2 (0 : Fin 1) e) * v23 (ix2 n (0 : Fin 1)) + v29 (ix2 (0 : Fin 1) e) * v5 (ix2 n (0 : Fin 1)) := by
  unfold k0_pay18
  refine (broadcastTo_ma1_mab_apply _ _ n e q).trans ?_
  refine (shapeCast_ab_ab1_apply _ _ n e (0 : Fin 1)).trans ?_
  simp only [addf_apply, mulf_apply, broadcastTo_1b_ab_apply, broadcastTo_a1_ab_apply]

/-- The stored value. Column `q · 50 + e` of row `n` of the flattened array is entry `(n, q, e)` of the `[400, 128, 50]`
    array (row-major position `(n · 128 + q) · 50 + e` on both sides), which the transpose of the last two axes reads at
    `(n, e, q)` of the sum: lower weight times lower table, plus upper weight times upper table, plus the temporal term. -/
theorem pay1_apply (v82 : FVec Ideal S400x1x128 .f32) (v84 v85 : FVec Ideal S400x50x1 .f32)
    (v86 v87 : FVec Ideal S400x50x128 .f32) (n : Fin 400) (q : Fin 128) (e : Fin 50) :
    (k0_pay1 (F := Ideal) v82 v84 v85 v86 v87 : S400x6400.Idx → EReal) (ix2 n (Cert.Spec.col q e))
      = v86 (ix3 n e q) * v87 (ix3 n e q) + v82 (ix3 n (0 : Fin 1) q) * v84 (ix3 n e (0 : Fin 1))
          + v85 (ix3 n e (0 : Fin 1)) := by
  unfold k0_pay1
  refine (shapeCast_mab_mc_apply _ _ (by norm_num) n q e (Cert.Spec.col q e) rfl).trans ?_
  refine (transpose_ix3_021_apply _ _ n q e).trans ?_
  simp only [addf_apply, mulf_apply, broadcastTo_m1b_mab_apply, broadcastTo_ma1_mab_apply]

/-! ## The output block

The one store covers the whole buffer, so the block is the stored value; the distances, times and flags are loaded
whole, each table as its row 0 and its row 1. Pushing the index through the stored value and its operands leaves, term
for term, the expression `Spec.kcore` spells. -/

/-- The output block at `(n, q · 50 + e)` is the kernel's scalar arithmetic of the operands' entries. -/
theorem out_apply (x0 : Vec Ideal S400x128 .f32) (x1 x2 : Vec Ideal S400x1 .f32) (x3 x4 x5 x6 : Vec Ideal S2x50 .f32)
    (n : Fin 400) (q : Fin 128) (e : Fin 50) :
    (out0_7 (F := Ideal) x0 x1 x2 x3 x4 x5 x6 : S400x6400.Idx → EReal) (ix2 n (Cert.Spec.col q e))
      = Cert.Spec.kcore (x0 (ix2 n q)) (x1 (ix2 n (0 : Fin 1))) (x2 (ix2 n (0 : Fin 1)))
          (x3 (ix2 (0 : Fin 2) e)) (x3 (ix2 (1 : Fin 2) e)) (x4 (ix2 (0 : Fin 2) e)) (x4 (ix2 (1 : Fin 2) e))
          (x5 (ix2 (0 : Fin 2) e)) (x5 (ix2 (1 : Fin 2) e)) (x6 (ix2 (0 : Fin 2) e)) (x6 (ix2 (1 : Fin 2) e)) := by
  unfold out0_7
  rw [View.canon_unit_zero hz]
  simp only [View.ld_unit_zero (S := S400x128) hz, View.ld_unit_zero (S := S400x1) hz]
  rw [pay1_apply, pay17_apply, pay18_apply, pay14_apply, pay15_apply, pay16_apply]
  simp only [pay4_eq, pay10_eq, pay11_eq, pay12_eq, pay13_eq, pay5_apply, pay6_apply, pay7_apply, pay8_apply, pay9_apply]
  rw [ld_row0 x3 (0 : Fin 1) e, ld_row1 x3 (0 : Fin 1) e, ld_row0 x4 (0 : Fin 1) e, ld_row1 x4 (0 : Fin 1) e,
    ld_row0 x5 (0 : Fin 1) e, ld_row1 x5 (0 : Fin 1) e, ld_row0 x6 (0 : Fin 1) e, ld_row1 x6 (0 : Fin 1) e]
  rfl

end Cert.KernelIdeal.KBody

end
-- ==== Proof.KArray.lean ====
/-
  From blocks to the array, and the reshape after the region.

  The kernel's one region has 16 grid points. Point `t` reads columns `128·t … 128·t + 127` of the `[400, 2048]` distances
  (and the whole of the small operands) and writes back the `[400, 6400]` block of columns `6400·t …` of a `[400, 102400]`
  array; the blocks tile that array. Entry `(n, j)` of the array is therefore the body's arithmetic at row `n`, location
  `j / 50`, embedding coordinate `j % 50`; with finite inputs and locations in range that is the specification `Spec.G` at
  `(n / 100, n % 100, j / 50, j % 50)`. The host then reshapes `[400, 102400]` to `[4, 100, 2048, 50]`, which is row-major
  re-indexing: `(b, l, m, e) ↦ (100·b + l, 50·m + e)`.
-/
import proofs.«417881_j60696477827087_4_alg».proof.Proof.Gen.KernelIdeal.Frame
import proofs.«417881_j60696477827087_4_alg».proof.Proof.KArgs
import proofs.«417881_j60696477827087_4_alg».proof.Proof.KHost
import proofs.«417881_j60696477827087_4_alg».proof.Proof.KBody
import proofs.«417881_j60696477827087_4_alg».proof.Proof.Spec
import Idealize.ShloMosaic.Lib.Pipeline.Value
import Idealize.ShloMosaic.Lib.ValueIdx
import Idealize.ShloMosaic.Lib.StableHlo.Run

noncomputable section

namespace Cert.KernelIdeal.KArray

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The specification at core `c`'s argument arrays. -/
abbrev Gc (c : Dev nD) : (⟨4, ![4, 100, 2048, 50]⟩ : Shape).Idx → EReal :=
  Cert.Spec.G (KArgs.loc m c) (KArgs.mat2 m c) (KArgs.vec m c) (KArgs.len m c) (KArgs.esu m c) (KArgs.esl m c)
    (KArgs.etu m c) (KArgs.etl m c)

/-- What the precondition gives at core `c`: every float input a real number, every location in `1 … 4096`. -/
structure Ok (c : Dev nD) : Prop where
  mat2 : ∀ i, ∃ r : ℝ, KArgs.mat2 m c i = (r : EReal)
  vec : ∀ i, ∃ r : ℝ, KArgs.vec m c i = (r : EReal)
  esu : ∀ i, ∃ r : ℝ, KArgs.esu m c i = (r : EReal)
  esl : ∀ i, ∃ r : ℝ, KArgs.esl m c i = (r : EReal)
  etu : ∀ i, ∃ r : ℝ, KArgs.etu m c i = (r : EReal)
  etl : ∀ i, ∃ r : ℝ, KArgs.etl m c i = (r : EReal)
  range : ∀ i, 1 ≤ (KArgs.loc m c i).toInt ∧ (KArgs.loc m c i).toInt ≤ 4096

/-- The `[400, 102400]` array the region leaves: the specification with its rows and columns unflattened. -/
def outArr (c : Dev nD) : S400x102400.Idx → EReal := fun i =>
  Gc m c (ix4 ⟨(i 0).val / 100, by have h : (i 0).val < 400 := (i 0).isLt; omega⟩ ⟨(i 0).val % 100, by omega⟩
    ⟨(i 1).val / 50, by have h : (i 1).val < 102400 := (i 1).isLt; omega⟩ ⟨(i 1).val % 50, by omega⟩)

/-! ## The windows' blocks at a point -/

theorem N_eq : cfg0.N = 16 := by decide

/-- The printed index maps over the 16 points: the distances' block and the output's block move along the columns with
    the point, every other operand is its whole array at every point. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = t.val :=
  (by decide +kernel : ∀ t : Fin grid0.N, _)

/-- The operands' blocks at point `t`, each at its literal type. -/
abbrev blk0 (c : Dev nD) (t : Fin cfg0.N) : Vec Ideal S400x128 .f32 := iblk m c 0 t
abbrev blk1 (c : Dev nD) (t : Fin cfg0.N) : Vec Ideal S400x1 .f32 := iblk m c 1 t
abbrev blk2 (c : Dev nD) (t : Fin cfg0.N) : Vec Ideal S400x1 .f32 := iblk m c 2 t
abbrev blk3 (c : Dev nD) (t : Fin cfg0.N) : Vec Ideal S2x50 .f32 := iblk m c 3 t
abbrev blk4 (c : Dev nD) (t : Fin cfg0.N) : Vec Ideal S2x50 .f32 := iblk m c 4 t
abbrev blk5 (c : Dev nD) (t : Fin cfg0.N) : Vec Ideal S2x50 .f32 := iblk m c 5 t
abbrev blk6 (c : Dev nD) (t : Fin cfg0.N) : Vec Ideal S2x50 .f32 := iblk m c 6 t

/-- Point `t`'s block of the distances is columns `128·t …` of the array. -/
theorem blk0_apply (c : Dev nD) (t : Fin cfg0.N) (n : Fin 400) (q : Fin 128) (hq : t.val * 128 + q.val < 2048) :
    blk0 m c t (ix2 n q) = (V m c main_v12 : S400x2048.Idx → EReal) (ix2 n ⟨t.val * 128 + q.val, hq⟩) := by
  obtain ⟨e0, e1, -⟩ := idx_facts t
  show (V m c main_v12 : S400x2048.Idx → EReal) (((cfg0.win 0).blk t).view.emb (ix2 n q)) = _
  refine congrArg _ (funext fun a => Fin.ext ?_)
  match a with
  | ⟨0, _⟩ => show win0_0.index t (0 : Fin 2) * 400 + 1 * n.val = n.val; omega
  | ⟨1, _⟩ => show win0_0.index t (1 : Fin 2) * 128 + 1 * q.val = t.val * 128 + q.val; omega

/-- The times' block is the whole `[400, 1]` array. -/
theorem blk1_apply (c : Dev nD) (t : Fin cfg0.N) (n : Fin 400) :
    blk1 m c t (ix2 n (0 : Fin 1)) = (V m c main_v13 : S400x1.Idx → EReal) (ix2 n (0 : Fin 1)) := by
  obtain ⟨-, -, e0, e1, -⟩ := idx_facts t
  show (V m c main_v13 : S400x1.Idx → EReal) (((cfg0.win 1).blk t).view.emb (ix2 n (0 : Fin 1))) = _
  refine congrArg _ (funext fun a => Fin.ext ?_)
  match a with
  | ⟨0, _⟩ => show win0_1.index t (0 : Fin 2) * 400 + 1 * n.val = n.val; omega
  | ⟨1, _⟩ => show win0_1.index t (1 : Fin 2) * 1 + 1 * 0 = 0; omega

/-- The flags' block is the whole `[400, 1]` array. -/
theorem blk2_apply (c : Dev nD) (t : Fin cfg0.N) (n : Fin 400) :
    blk2 m c t (ix2 n (0 : Fin 1)) = (V m c main_v15 : S400x1.Idx → EReal) (ix2 n (0 : Fin 1)) := by
  obtain ⟨-, -, -, -, e0, e1, -⟩ := idx_facts t
  show (V m c main_v15 : S400x1.Idx → EReal) (((cfg0.win 2).blk t).view.emb (ix2 n (0 : Fin 1))) = _
  refine congrArg _ (funext fun a => Fin.ext ?_)
  match a with
  | ⟨0, _⟩ => show win0_2.index t (0 : Fin 2) * 400 + 1 * n.val = n.val; omega
  | ⟨1, _⟩ => show win0_2.index t (1 : Fin 2) * 1 + 1 * 0 = 0; omega

/-- Each table's block is the whole `[2, 50]` argument array. -/
theorem blk3_apply (c : Dev nD) (t : Fin cfg0.N) (k : Fin 2) (e : Fin 50) : blk3 m c t (ix2 k e) = KArgs.esl m c (ix2 k e) := by
  obtain ⟨-, -, -, -, -, -, e0, e1, -⟩ := idx_facts t
  rw [show KArgs.esl m c = V m c main_arg5 from (V_main_arg5 m c).symm]
  show (V m c main_arg5 : S2x50.Idx → EReal) (((cfg0.win 3).blk t).view.emb (ix2 k e)) = _
  refine congrArg _ (funext fun a => Fin.ext ?_)
  match a with
  | ⟨0, _⟩ => show win0_3.index t (0 : Fin 2) * 2 + 1 * k.val = k.val; omega
  | ⟨1, _⟩ => show win0_3.index t (1 : Fin 2) * 50 + 1 * e.val = e.val; omega

theorem blk4_apply (c : Dev nD) (t : Fin cfg0.N) (k : Fin 2) (e : Fin 50) : blk4 m c t (ix2 k e) = KArgs.esu m c (ix2 k e) := by
  obtain ⟨-, -, -, -, -, -, -, -, e0, e1, -⟩ := idx_facts t
  rw [show KArgs.esu m c = V m c main_arg4 from (V_main_arg4 m c).symm]
  show (V m c main_arg4 : S2x50.Idx → EReal) (((cfg0.win 4).blk t).view.emb (ix2 k e)) = _
  refine congrArg _ (funext fun a => Fin.ext ?_)
  match a with
  | ⟨0, _⟩ => show win0_4.index t (0 : Fin 2) * 2 + 1 * k.val = k.val; omega
  | ⟨1, _⟩ => show win0_4.index t (1 : Fin 2) * 50 + 1 * e.val = e.val; omega

theorem blk5_apply (c : Dev nD) (t : Fin cfg0.N) (k : Fin 2) (e : Fin 50) : blk5 m c t (ix2 k e) = KArgs.etl m c (ix2 k e) := by
  obtain ⟨-, -, -, -, -, -, -, -, -, -, e0, e1, -⟩ := idx_facts t
  rw [show KArgs.etl m c = V m c main_arg7 from (V_main_arg7 m c).symm]
  show (V m c main_arg7 : S2x50.Idx → EReal) (((cfg0.win 5).blk t).view.emb (ix2 k e)) = _
  refine congrArg _ (funext fun a => Fin.ext ?_)
  match a with
  | ⟨0, _⟩ => show win0_5.index t (0 : Fin 2) * 2 + 1 * k.val = k.val; omega
  | ⟨1, _⟩ => show win0_5.index t (1 : Fin 2) * 50 + 1 * e.val = e.val; omega

theorem blk6_apply (c : Dev nD) (t : Fin cfg0.N) (k : Fin 2) (e : Fin 50) : blk6 m c t (ix2 k e) = KArgs.etu m c (ix2 k e) := by
  obtain ⟨-, -, -, -, -, -, -, -, -, -, -, -, e0, e1, -⟩ := idx_facts t
  rw [show KArgs.etu m c = V m c main_arg6 from (V_main_arg6 m c).symm]
  show (V m c main_arg6 : S2x50.Idx → EReal) (((cfg0.win 6).blk t).view.emb (ix2 k e)) = _
  refine congrArg _ (funext fun a => Fin.ext ?_)
  match a with
  | ⟨0, _⟩ => show win0_6.index t (0 : Fin 2) * 2 + 1 * k.val = k.val; omega
  | ⟨1, _⟩ => show win0_6.index t (1 : Fin 2) * 50 + 1 * e.val = e.val; omega

/-! ## What a point writes, entry by entry -/

/-- The masked distance is a real number: a finite entry of `mat2`, or the word `+0.0`. -/
theorem delta_real (c : Dev nD) (hok : Ok m c) (b : Fin 4) (l : Fin 100) (q : Fin 2048) :
    ∃ d : ℝ, Cert.Spec.delta (KArgs.loc m c) (KArgs.mat2 m c) (KArgs.len m c) b l q = (d : EReal) := by
  unfold Cert.Spec.delta
  split
  · exact hok.mat2 _
  · exact ⟨0, Cert.Spec.ofBits_zero⟩

/-- AT POINT `t`, row `100·b + l`, location `q` of the block, coordinate `e`: the body's arithmetic of the blocks is the
    specification at `(b, l, 128·t + q, e)`. The body's value is `Spec.kcore` of the blocks' entries; the blocks' entries
    are the masked distance, the time, the validity flag and the tables' two rows; on real numbers with a 0/1 flag
    `kcore` is `core` of the selected rows. -/
theorem point_eq (c : Dev nD) (hok : Ok m c) (t : Fin cfg0.N) (b : Fin 4) (l : Fin 100) (q : Fin 128) (e : Fin 50)
    (hq : t.val * 128 + q.val < 2048) :
    (out0_7 (blk0 m c t) (blk1 m c t) (blk2 m c t) (blk3 m c t) (blk4 m c t) (blk5 m c t) (blk6 m c t) : S400x6400.Idx → EReal)
        (ix2 (Cert.Spec.flat b l) (Cert.Spec.col q e))
      = Gc m c (ix4 b l ⟨t.val * 128 + q.val, hq⟩ e) := by
  refine (KBody.out_apply (blk0 m c t) (blk1 m c t) (blk2 m c t) (blk3 m c t) (blk4 m c t) (blk5 m c t) (blk6 m c t)
    (Cert.Spec.flat b l) q e).trans ?_
  rw [blk0_apply m c t (Cert.Spec.flat b l) q hq, blk1_apply, blk2_apply, blk3_apply, blk3_apply, blk4_apply, blk4_apply,
    blk5_apply, blk5_apply, blk6_apply, blk6_apply,
    KHost.V_ds m c hok.range b l ⟨t.val * 128 + q.val, hq⟩, KHost.V_vec m c b l, KHost.V_valid m c b l]
  obtain ⟨d, hd⟩ := delta_real m c hok b l ⟨t.val * 128 + q.val, hq⟩
  obtain ⟨tt, ht⟩ := hok.vec (ix2 b l)
  obtain ⟨sl0, hsl0⟩ := hok.esl (ix2 (0 : Fin 2) e)
  obtain ⟨sl1, hsl1⟩ := hok.esl (ix2 (1 : Fin 2) e)
  obtain ⟨su0, hsu0⟩ := hok.esu (ix2 (0 : Fin 2) e)
  obtain ⟨su1, hsu1⟩ := hok.esu (ix2 (1 : Fin 2) e)
  obtain ⟨tl0, htl0⟩ := hok.etl (ix2 (0 : Fin 2) e)
  obtain ⟨tl1, htl1⟩ := hok.etl (ix2 (1 : Fin 2) e)
  obtain ⟨tu0, htu0⟩ := hok.etu (ix2 (0 : Fin 2) e)
  obtain ⟨tu1, htu1⟩ := hok.etu (ix2 (1 : Fin 2) e)
  show _ = Cert.Spec.core (Cert.Spec.delta (KArgs.loc m c) (KArgs.mat2 m c) (KArgs.len m c) b l ⟨t.val * 128 + q.val, hq⟩)
    (KArgs.vec m c (ix2 b l)) (Cert.Spec.sel (KArgs.esl m c) (KArgs.len m c) b l e)
    (Cert.Spec.sel (KArgs.esu m c) (KArgs.len m c) b l e) (Cert.Spec.sel (KArgs.etl m c) (KArgs.len m c) b l e)
    (Cert.Spec.sel (KArgs.etu m c) (KArgs.len m c) b l e)
  rw [hd, ht, hsl0, hsl1, hsu0, hsu1, htl0, htl1, htu0, htu1, Cert.Spec.kcore_eq_core]
  unfold Cert.Spec.sel
  cases Cert.Spec.valid (KArgs.len m c) b l
  · simp only [Bool.false_eq_true, if_false, hsl0, hsu0, htl0, htu0]
  · simp only [if_true, hsl1, hsu1, htl1, htu1]

/-- The output array at point `t`'s block entry `(100·b + l, 50·q + e)` is its entry `(100·b + l, 6400·t + 50·q + e)`. -/
theorem outArr_emb (c : Dev nD) (t : Fin cfg0.N) (b : Fin 4) (l : Fin 100) (q : Fin 128) (e : Fin 50)
    (hq : t.val * 128 + q.val < 2048) :
    outArr m c (((cfg0.win 7).blk t).view.emb (ix2 (Cert.Spec.flat b l) (Cert.Spec.col q e)))
      = Gc m c (ix4 b l ⟨t.val * 128 + q.val, hq⟩ e) := by
  obtain ⟨-, -, -, -, -, -, -, -, -, -, -, -, -, -, e0, e1⟩ := idx_facts t
  unfold outArr
  refine congrArg _ (funext fun a => Fin.ext ?_)
  have hb := b.isLt; have hl := l.isLt; have hqq := q.isLt; have he := e.isLt
  match a with
  | ⟨0, _⟩ => show (win0_7.index t (0 : Fin 2) * 400 + 1 * (b.val * 100 + l.val)) / 100 = b.val; omega
  | ⟨1, _⟩ => show (win0_7.index t (0 : Fin 2) * 400 + 1 * (b.val * 100 + l.val)) % 100 = l.val; omega
  | ⟨2, _⟩ => show (win0_7.index t (1 : Fin 2) * 6400 + 1 * (q.val * 50 + e.val)) / 50 = t.val * 128 + q.val; omega
  | ⟨3, _⟩ => show (win0_7.index t (1 : Fin 2) * 6400 + 1 * (q.val * 50 + e.val)) % 50 = e.val; omega

/-- WHAT POINT `t` WRITES BACK is block `t` of `outArr`. -/
theorem flushed_eq (c : Dev nD) (hok : Ok m c) (t : Fin cfg0.N) :
    (dats m 0 c).flushed 7 t = ((cfg0.win 7).blk t).view.read (Elt Ideal) (outArr m c) := by
  show (cfg0.win 7).cut (grid0.coords t) ((dats m 0 c).after 7 t) = _
  rw [after0_7]
  funext y
  show (out0_7 (blk0 m c t) (blk1 m c t) (blk2 m c t) (blk3 m c t) (blk4 m c t) (blk5 m c t) (blk6 m c t) : S400x6400.Idx → EReal) y
    = outArr m c (((cfg0.win 7).blk t).view.emb y)
  have ht : t.val < 16 := lt_of_lt_of_eq t.isLt N_eq
  have h0 : ((y : S400x6400.Idx) 0).val < 400 := ((y : S400x6400.Idx) 0).isLt
  have h1 : ((y : S400x6400.Idx) 1).val < 6400 := ((y : S400x6400.Idx) 1).isLt
  have hy : (y : S400x6400.Idx) = ix2 (Cert.Spec.flat ⟨((y : S400x6400.Idx) 0).val / 100, by omega⟩ ⟨((y : S400x6400.Idx) 0).val % 100, by omega⟩)
      (Cert.Spec.col ⟨((y : S400x6400.Idx) 1).val / 50, by omega⟩ ⟨((y : S400x6400.Idx) 1).val % 50, by omega⟩) := by
    funext a
    match a with
    | ⟨0, _⟩ => exact Fin.ext (by show ((y : S400x6400.Idx) 0).val = ((y : S400x6400.Idx) 0).val / 100 * 100 + ((y : S400x6400.Idx) 0).val % 100; omega)
    | ⟨1, _⟩ => exact Fin.ext (by show ((y : S400x6400.Idx) 1).val = ((y : S400x6400.Idx) 1).val / 50 * 50 + ((y : S400x6400.Idx) 1).val % 50; omega)
  have hq : t.val * 128 + ((y : S400x6400.Idx) 1).val / 50 < 2048 := by omega
  rw [hy]
  exact (point_eq m c hok t _ _ _ _ hq).trans (outArr_emb m c t _ _ _ _ hq).symm

/-- An entry of the array is in point `t`'s block iff each coordinate is in the block's range on its axis. -/
theorem mem_blk (t : Fin cfg0.N) (i : S400x102400.Idx) :
    i ∈ ((cfg0.win 7).blk t).view.set ↔ ∀ a : Fin 2, win0_7.index t a * S400x6400.size a ≤ (i a).val ∧ (i a).val < win0_7.index t a * S400x6400.size a + S400x6400.size a := by
  show i ∈ ((View.whole main_v16).slice (win0_7.rect t)).set ↔ _
  rw [View.set_slice_whole, Rect.mem_set_unit]
  exact Iff.rfl

/-- Every entry of the `[400, 102400]` array is in the block of the point `j / 6400`. -/
theorem cover (i : S400x102400.Idx) : ∃ t : Fin cfg0.N, (cfg0.win 7).flush t = true ∧ i ∈ ((cfg0.win 7).blk t).view.set := by
  have h0 : (i 0).val < 400 := (i 0).isLt
  have h1 : (i 1).val < 102400 := (i 1).isLt
  have htN : (i 1).val / 6400 < cfg0.N := by rw [N_eq]; omega
  obtain ⟨t, ht⟩ : ∃ t : Fin cfg0.N, t.val = (i 1).val / 6400 := ⟨⟨_, htN⟩, rfl⟩
  obtain ⟨-, -, -, -, -, -, -, -, -, -, -, -, -, -, e0, e1⟩ := idx_facts t
  refine ⟨t, flush0_7 t, ?_⟩
  rw [mem_blk]
  intro a
  match a with
  | ⟨0, _⟩ => show win0_7.index t (0 : Fin 2) * 400 ≤ (i 0).val ∧ (i 0).val < win0_7.index t (0 : Fin 2) * 400 + 400; omega
  | ⟨1, _⟩ => show win0_7.index t (1 : Fin 2) * 6400 ≤ (i 1).val ∧ (i 1).val < win0_7.index t (1 : Fin 2) * 6400 + 6400; omega

/-- THE ARRAY the region leaves is `outArr`. -/
theorem final (c : Dev nD) (hok : Ok m c) : (dats m 0 c).arrAt 7 cfg0.N = outArr m c :=
  (dats m 0 c).arrAt_eq_of_cover 7 (outArr m c) (fun t _ => flushed_eq m c hok t) cover

/-! ## The reshape after the region -/

/-- The one host operation after the region reshapes `[400, 102400]` to `[4, 100, 2048, 50]`: entry `(b, l, q, e)` is the
    array's entry `(100·b + l, 50·q + e)` (the same row-major position), which is the specification at `(b, l, q, e)`. -/
theorem tail_eq (c : Dev nD) (hok : Ok m c) :
    (Pipeline.afterTail₀ cfgs (dats m) 0 (V0 m) [hostOps1] c main_v17 : S4x100x2048x50.Idx → EReal) = Gc m c := by
  unfold Pipeline.afterTail₀
  show StableHlo.after hostOps1 _ (Proc.devRef .tc main_v17) = _
  after_results
  funext i
  obtain ⟨b, l, q, e, rfl⟩ : ∃ (b : Fin 4) (l : Fin 100) (q : Fin 2048) (e : Fin 50), i = ix4 b l q e :=
    ⟨i 0, i 1, i 2, i 3, eq_ix4 i⟩
  have hA : (Pipeline.withArrays spec0 c (V0 m c) (fun w => (dats m 0 c).arrAt w cfg0.N) (Proc.devRef .tc main_v16)
      : S400x102400.Idx → EReal) = outArr m c :=
    (Pipeline.withArrays_arr spec0 launch0.win.arr_inj c _ _ 7).trans (final m c hok)
  show shapeCast S4x100x2048x50 (Pipeline.withArrays spec0 c (V0 m c) (fun w => (dats m 0 c).arrAt w cfg0.N)
      (Proc.devRef .tc main_v16) : S400x102400.Idx → EReal) shapeCasts_S400x102400_S4x100x2048x50 (ix4 b l q e) = _
  rw [hA]
  have hb := b.isLt; have hl := l.isLt; have hqq := q.isLt; have he := e.isLt
  refine (shapeCast_apply (outArr m c) shapeCasts_S400x102400_S4x100x2048x50 (ix4 b l q e)
    (ix2 (Cert.Spec.flat b l) (⟨q.val * 50 + e.val, by omega⟩ : Fin 102400)) ?_).trans ?_
  · rw [Shape.rowMajor_val_two, Shape.rowMajor_val_four]
    show (b.val * 100 + l.val) * 102400 + (q.val * 50 + e.val) = ((b.val * 100 + l.val) * 2048 + q.val) * 50 + e.val
    omega
  · unfold outArr
    refine congrArg _ (funext fun a => Fin.ext ?_)
    match a with
    | ⟨0, _⟩ => show (b.val * 100 + l.val) / 100 = b.val; omega
    | ⟨1, _⟩ => show (b.val * 100 + l.val) % 100 = l.val; omega
    | ⟨2, _⟩ => show (q.val * 50 + e.val) / 50 = q.val; omega
    | ⟨3, _⟩ => show (q.val * 50 + e.val) % 50 = e.val; omega

/-! ## The run, read -/

/-- Under the precondition's facts, every weakly fair execution of the idealized kernel terminates with its result at the
    specification of its argument arrays, and the arguments unchanged. -/
theorem run (hok : ∀ c, Ok m c) :
    θ_run defs (onTc (τ := τ) (main (F := Ideal))) ⟨m, fun _ => 0, ρ⟩ fun r => ∀ c : Dev nD,
      r.2.mem ((c.tc : Thread nD τ).loc main_v17) = Gc m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨((h c).2 main_v17 (Pipeline.mem_restRefs_of main_v17 (by decide) (by decide))).trans (tail_eq m c (hok c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 4).trans ((((dats m) 0 c).arrAt_in 4 rfl _).trans ((A_eq m c 4).trans (V_main_arg4 m c))),
      ((h c).1 3).trans ((((dats m) 0 c).arrAt_in 3 rfl _).trans ((A_eq m c 3).trans (V_main_arg5 m c))),
      ((h c).1 6).trans ((((dats m) 0 c).arrAt_in 6 rfl _).trans ((A_eq m c 6).trans (V_main_arg6 m c))),
      ((h c).1 5).trans ((((dats m) 0 c).arrAt_in 5 rfl _).trans ((A_eq m c 5).trans (V_main_arg7 m c)))⟩)
    (run_main m ρ)

end Cert.KernelIdeal.KArray

end
-- ==== Proof.RefTerm.lean ====
/-
  The reference's result as ONE pure term of its eight argument arrays: its host operations composed in program order.

  Reading of the program.  The row index array `a0` (values 1 … 4096, one per (batch, position)) is shifted to start
  at zero, wrapped into range when negative, and used to gather one 2048-wide row of the table `a1` per (batch,
  position).  A position is "live" when its position number is below the batch's length `a3`; dead positions have
  their gathered row replaced by zero (`whereFn`) and their lookup index (the live mask widened to 32 bits: 1 when
  live, 0 when dead) selects row 1 or row 0 of each small table `a4 … a7` (`takeFn`).  The result blends, per
  element, two table rows with weights `x` and `1000 - x` (over 1000), and two more with weights `t` and
  `86400 - t` (over 86400), where `x` is the masked gathered value and `t` the time array `a2`.
-/
import proofs.«417881_j60696477827087_4_alg».proof.Proof.Gen.ReferenceIdeal

noncomputable section

namespace Cert.ReferenceIdeal.RefTerm

open Cert.ReferenceIdeal Cert.ReferenceIdeal.Gen Idealize.ShloMosaic

variable {F : FTy → Type} [FloatOps F]

/-- The outlined "where": the mask `c` (one bit per (batch, position)) is spread along the 2048 axis, the scalar `z`
    is spread over the whole array, and each element is `x` where the mask is set and `z` elsewhere. -/
noncomputable def whereFn (c : IVec S4x100x1 1) (x : FVec F S4x100x2048 .f32) (z : FVec F S_ .f32) : FVec F S4x100x2048 .f32 :=
  select (broadcastInDim S4x100x2048 ![0, 1, 2] bcast_S4x100x1_S4x100x2048_0_1_2 c) x
    (broadcastInDim S4x100x2048 ![] bcast_S_S4x100x2048 z)

/-- Inside "take": an index below zero is moved up by the row count 2; the result carries a trailing unit axis (the
    index vector of the gather). -/
noncomputable def takeIdx (idx : IVec S4x100x2048 32) : IVec S4x100x2048x1 32 :=
  broadcastInDim S4x100x2048x1 ![0, 1, 2] bcast_S4x100x2048_S4x100x2048x1_0_1_2
    (select (cmpi .slt idx (broadcastInDim S4x100x2048 ![] bcast_S_S4x100x2048 (constantI S_ 32 0#32)))
      (addi idx (broadcastInDim S4x100x2048 ![] bcast_S_S4x100x2048 (constantI S_ 32 2#32))) idx)

/-- Inside "take": whether the wrapped index lies in `0 … 1` (at least 0 and at most the last row 1), the conjunction
    folded over the unit axis from the initial value true. -/
noncomputable def takeOk (i : IVec S4x100x2048x1 32) : IVec S4x100x2048 1 :=
  Host.reduce IntOp.andi
    (andi (cmpi .sge i (broadcastInDim S4x100x2048x1 ![] bcast_S_S4x100x2048x1 (constantI S_ 32 0#32)))
      (cmpi .sle i (broadcastInDim S4x100x2048x1 ![0, 1, 2, 3] bcast_S1x1x1x1_S4x100x2048x1_0_1_2_3
        (broadcastInDim S1x1x1x1 ![3] bcast_S1_S1x1x1x1_3 (constantI S1 32 1#32)))))
    (constantI S_ 1 1#1) reducesTo_S4x100x2048x1_S4x100x2048_d3 h_S_

/-- The outlined "take" along axis 0 of a two-row table `emb`: a negative index is wrapped by adding the row count 2,
    the row at the wrapped index is gathered (50 values per index), and an index outside `0 … 1` yields the
    not-a-number fill instead of a row. -/
noncomputable def takeFn (emb : FVec F S2x50 .f32) (idx : IVec S4x100x2048 32) : FVec F S4x100x2048x50 .f32 :=
  select (broadcastInDim S4x100x2048x50 ![0, 1, 2] bcast_S4x100x2048_S4x100x2048x50_0_1_2 (takeOk (takeIdx idx)))
    (Host.gather gather_S2x50_S4x100x2048x1_S4x100x2048x50_3_0_n_n_0_3_150 emb (takeIdx idx))
    (broadcastInDim S4x100x2048x50 ![] bcast_S_S4x100x2048x50 (constant S_ .f32 0x7FC00000#32))

/-- The time array `a2` spread along the 2048 axis. -/
noncomputable def timeArr (a2 : FVec F S4x100 .f32) : FVec F S4x100x2048 .f32 :=
  broadcastInDim S4x100x2048 ![0, 1, 2] bcast_S4x100x1_S4x100x2048_0_1_2
    (broadcastInDim S4x100x1 ![0, 1] bcast_S4x100_S4x100x1_0_1 a2)

/-- The live mask: a position is live when its position number (an iota along the 100 axis) is below its batch's
    length `a3`. -/
noncomputable def live (a3 : IVec S4 32) : IVec S4x100 1 :=
  cmpi .slt
    (broadcastInDim S4x100 ![0, 1] bcast_S1x100_S4x100_0_1 (broadcastInDim S1x100 ![1] bcast_S100_S1x100_1 (iotaInDim S100 32 0)))
    (broadcastInDim S4x100 ![0, 1] bcast_S4x1_S4x100_0_1 (broadcastInDim S4x1 ![0] bcast_S4_S4x1_0 a3))

/-- The live mask spread along the 2048 axis and widened to 32 bits: 1 where live, 0 where dead. It is the index of
    all four small-table lookups. -/
noncomputable def liveIdx (a3 : IVec S4 32) : IVec S4x100x2048 32 :=
  extui 32 (broadcastInDim S4x100x2048 ![0, 1, 2] bcast_S4x100x1_S4x100x2048_0_1_2
    (broadcastInDim S4x100x1 ![0, 1] bcast_S4x100_S4x100x1_0_1 (live a3))) natLt_1_32

/-- The row number made zero-based. -/
noncomputable def row0 (a0 : IVec S4x100 32) : IVec S4x100 32 :=
  subi a0 (broadcastInDim S4x100 ![] bcast_S_S4x100 (constantI S_ 32 1#32))

/-- The zero-based row number, moved up by the table's 4096 rows when negative, with a trailing unit axis (the index
    vector of the gather). -/
noncomputable def rowIdx (a0 : IVec S4x100 32) : IVec S4x100x1 32 :=
  broadcastInDim S4x100x1 ![0, 1] bcast_S4x100_S4x100x1_0_1
    (select (cmpi .slt (row0 a0) (broadcastInDim S4x100 ![] bcast_S_S4x100 (constantI S_ 32 0#32)))
      (addi (row0 a0) (broadcastInDim S4x100 ![] bcast_S_S4x100 (constantI S_ 32 4096#32))) (row0 a0))

/-- One 2048-wide row of the table `a1` per (batch, position), replaced by zero where the position is dead. -/
noncomputable def xArr (a0 : IVec S4x100 32) (a1 : FVec F S4096x2048 .f32) (a3 : IVec S4 32) : FVec F S4x100x2048 .f32 :=
  whereFn (broadcastInDim S4x100x1 ![0, 1] bcast_S4x100_S4x100x1_0_1 (live a3))
    (Host.gather gather_S4096x2048_S4x100x1_S4x100x2048_2_0_n_n_0_2_12048 a1 (rowIdx a0))
    (constant S_ .f32 0x00000000#32)

/-- A weight array given a trailing unit axis and spread along the 50 axis. -/
noncomputable def spread50 (x : FVec F S4x100x2048 .f32) : FVec F S4x100x2048x50 .f32 :=
  broadcastInDim S4x100x2048x50 ![0, 1, 2, 3] bcast_S4x100x2048x1_S4x100x2048x50_0_1_2_3
    (broadcastInDim S4x100x2048x1 ![0, 1, 2] bcast_S4x100x2048_S4x100x2048x1_0_1_2 x)

/-- The distance of `x` from the lower end 0 of its range. -/
noncomputable def fromZero (x : FVec F S4x100x2048 .f32) : FVec F S4x100x2048 .f32 :=
  subf x (broadcastInDim S4x100x2048 ![] bcast_S_S4x100x2048 (constant S_ .f32 0x00000000#32))

/-- The distance of `x` from the upper end of its range, the float with bits `k`. -/
noncomputable def upTo (k : BitVec 32) (x : FVec F S4x100x2048 .f32) : FVec F S4x100x2048 .f32 :=
  subf (broadcastInDim S4x100x2048 ![] bcast_S_S4x100x2048 (constant S_ .f32 k)) x

/-- The linear blend of two looked-up rows by where `x` sits in `0 … k`: `lo` weighted by the distance to the upper
    end plus `hi` weighted by the distance from zero, over the range's length. -/
noncomputable def blend (k : BitVec 32) (lo hi : FVec F S4x100x2048x50 .f32) (x : FVec F S4x100x2048 .f32) :
    FVec F S4x100x2048x50 .f32 :=
  Host.divf (addf (mulf lo (spread50 (upTo k x))) (mulf hi (spread50 (fromZero x))))
    (broadcastInDim S4x100x2048x50 ![] bcast_S_S4x100x2048x50 (constant S_ .f32 k))

/-- The result array `[4, 100, 2048, 50]` as the program's operations applied, in order, to the argument arrays. -/
noncomputable def out (a0 : IVec S4x100 32) (a1 : FVec F S4096x2048 .f32) (a2 : FVec F S4x100 .f32) (a3 : IVec S4 32)
    (a4 a5 a6 a7 : FVec F S2x50 .f32) : FVec F S4x100x2048x50 .f32 :=
  addf (blend 0x447A0000#32 (takeFn a5 (liveIdx a3)) (takeFn a4 (liveIdx a3)) (xArr a0 a1 a3))
    (blend 0x47A8C000#32 (takeFn a7 (liveIdx a3)) (takeFn a6 (liveIdx a3)) (timeArr a2))

end Cert.ReferenceIdeal.RefTerm

end
-- ==== Proof.RefRun.lean ====
/-
  The reference's run: @main is a straight line of host operations (the outlined functions' bodies listed at their call
  sites), so every weakly fair execution terminates with the result buffer at the composed term `RefTerm.out` of the
  argument arrays, and the arguments unchanged.

  The line is written in stretches: the operations before the calls, the "where" call's three, each "take" call's
  twenty-three (one list, stated over the call's buffer record, used four times), and the arithmetic after the calls.
  What a buffer holds at the end is read stretch by stretch: the fold over a concatenation is the fold over the second
  part started from the fold over the first.
-/
import proofs.«417881_j60696477827087_4_alg».proof.Proof.Gen.ReferenceIdeal
import proofs.«417881_j60696477827087_4_alg».proof.Proof.RefTerm
import Idealize.ShloMosaic.Lib.StableHlo.Run

-- one theorem at a time: the four "take" read-backs each hold gigabytes while their closing comparison runs
set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The line, in stretches -/

/-- @main's twenty-five operations before its first call: the time array spread, the live mask and its 32-bit form,
    the wrapped row index, the gathered rows, the mask with a unit axis, and the scalar zero. -/
def opsPre : List (HloOp τ sig (Elt F)) :=
  [ unary main_arg2 main_v0 (broadcastInDim S4x100x1 ![0, 1] bcast_S4x100_S4x100x1_0_1 : (⟨S4x100, .f32⟩ : BufTy).Contents (Elt F) → (⟨S4x100x1, .f32⟩ : BufTy).Contents (Elt F)),
    unary main_v0 main_v1 (broadcastInDim S4x100x2048 ![0, 1, 2] bcast_S4x100x1_S4x100x2048_0_1_2 : (⟨S4x100x1, .f32⟩ : BufTy).Contents (Elt F) → (⟨S4x100x2048, .f32⟩ : BufTy).Contents (Elt F)),
    nullary main_v2 (iotaInDim S100 32 0),
    unary main_v2 main_v3 (broadcastInDim S1x100 ![1] bcast_S100_S1x100_1 : (⟨S100, .i32⟩ : BufTy).Contents (Elt F) → (⟨S1x100, .i32⟩ : BufTy).Contents (Elt F)),
    unary main_arg3 main_v4 (broadcastInDim S4x1 ![0] bcast_S4_S4x1_0 : (⟨S4, .i32⟩ : BufTy).Contents (Elt F) → (⟨S4x1, .i32⟩ : BufTy).Contents (Elt F)),
    unary main_v3 main_v5 (broadcastInDim S4x100 ![0, 1] bcast_S1x100_S4x100_0_1 : (⟨S1x100, .i32⟩ : BufTy).Contents (Elt F) → (⟨S4x100, .i32⟩ : BufTy).Contents (Elt F)),
    unary main_v4 main_v6 (broadcastInDim S4x100 ![0, 1] bcast_S4x1_S4x100_0_1 : (⟨S4x1, .i32⟩ : BufTy).Contents (Elt F) → (⟨S4x100, .i32⟩ : BufTy).Contents (Elt F)),
    binary main_v5 main_v6 main_v7 (cmpi .slt : (⟨S4x100, .i32⟩ : BufTy).Contents (Elt F) → (⟨S4x100, .i32⟩ : BufTy).Contents (Elt F) → (⟨S4x100, .i1⟩ : BufTy).Contents (Elt F)),
    unary main_v7 main_v8 (broadcastInDim S4x100x1 ![0, 1] bcast_S4x100_S4x100x1_0_1 : (⟨S4x100, .i1⟩ : BufTy).Contents (Elt F) → (⟨S4x100x1, .i1⟩ : BufTy).Contents (Elt F)),
    unary main_v8 main_v9 (broadcastInDim S4x100x2048 ![0, 1, 2] bcast_S4x100x1_S4x100x2048_0_1_2 : (⟨S4x100x1, .i1⟩ : BufTy).Contents (Elt F) → (⟨S4x100x2048, .i1⟩ : BufTy).Contents (Elt F)),
    unary main_v9 main_v10 ((extui 32 · natLt_1_32) : (⟨S4x100x2048, .i1⟩ : BufTy).Contents (Elt F) → (⟨S4x100x2048, .i32⟩ : BufTy).Contents (Elt F)),
    nullary main_c (constantI S_ 32 1#32),
    unary main_c main_v11 (broadcastInDim S4x100 ![] bcast_S_S4x100 : (⟨S_, .i32⟩ : BufTy).Contents (Elt F) → (⟨S4x100, .i32⟩ : BufTy).Contents (Elt F)),
    binary main_arg0 main_v11 main_v12 (subi : (⟨S4x100, .i32⟩ : BufTy).Contents (Elt F) → (⟨S4x100, .i32⟩ : BufTy).Contents (Elt F) → (⟨S4x100, .i32⟩ : BufTy).Contents (Elt F)),
    nullary main_c_0 (constantI S_ 32 0#32),
    unary main_c_0 main_v13 (broadcastInDim S4x100 ![] bcast_S_S4x100 : (⟨S_, .i32⟩ : BufTy).Contents (Elt F) → (⟨S4x100, .i32⟩ : BufTy).Contents (Elt F)),
    binary main_v12 main_v13 main_v14 (cmpi .slt : (⟨S4x100, .i32⟩ : BufTy).Contents (Elt F) → (⟨S4x100, .i32⟩ : BufTy).Contents (Elt F) → (⟨S4x100, .i1⟩ : BufTy).Contents (Elt F)),
    nullary main_c_1 (constantI S_ 32 4096#32),
    unary main_c_1 main_v15 (broadcastInDim S4x100 ![] bcast_S_S4x100 : (⟨S_, .i32⟩ : BufTy).Contents (Elt F) → (⟨S4x100, .i32⟩ : BufTy).Contents (Elt F)),
    binary main_v12 main_v15 main_v16 (addi : (⟨S4x100, .i32⟩ : BufTy).Contents (Elt F) → (⟨S4x100, .i32⟩ : BufTy).Contents (Elt F) → (⟨S4x100, .i32⟩ : BufTy).Contents (Elt F)),
    ternary main_v14 main_v16 main_v12 main_v17 (select : (⟨S4x100, .i1⟩ : BufTy).Contents (Elt F) → (⟨S4x100, .i32⟩ : BufTy).Contents (Elt F) → (⟨S4x100, .i32⟩ : BufTy).Contents (Elt F) → (⟨S4x100, .i32⟩ : BufTy).Contents (Elt F)),
    unary main_v17 main_v18 (broadcastInDim S4x100x1 ![0, 1] bcast_S4x100_S4x100x1_0_1 : (⟨S4x100, .i32⟩ : BufTy).Contents (Elt F) → (⟨S4x100x1, .i32⟩ : BufTy).Contents (Elt F)),
    binary main_arg1 main_v18 main_v19 ((fun x i => Host.gather gather_S4096x2048_S4x100x1_S4x100x2048_2_0_n_n_0_2_12048 x i) : (⟨S4096x2048, .f32⟩ : BufTy).Contents (Elt F) → (⟨S4x100x1, .i32⟩ : BufTy).Contents (Elt F) → (⟨S4x100x2048, .f32⟩ : BufTy).Contents (Elt F)),
    unary main_v7 main_v20 (broadcastInDim S4x100x1 ![0, 1] bcast_S4x100_S4x100x1_0_1 : (⟨S4x100, .i1⟩ : BufTy).Contents (Elt F) → (⟨S4x100x1, .i1⟩ : BufTy).Contents (Elt F)),
    nullary main_cst (constant S_ .f32 0x00000000#32) ]

/-- The outlined "where" at a call: the mask spread, the scalar spread, the select, into the call's buffers `φ`. -/
def opsWhere (arg0 : TRef sig ⟨S4x100x1, .i1⟩) (arg1 : TRef sig ⟨S4x100x2048, .f32⟩) (arg2 : TRef sig ⟨S_, .f32⟩)
    (φ : fn_where.Bufs) : List (HloOp τ sig (Elt F)) :=
  [ TRef.unary arg0 φ.v0 (broadcastInDim S4x100x2048 ![0, 1, 2] bcast_S4x100x1_S4x100x2048_0_1_2),
    TRef.unary arg2 φ.v1 (broadcastInDim S4x100x2048 ![] bcast_S_S4x100x2048),
    TRef.ternary φ.v0 arg1 φ.v1 φ.v2 select ]

/-- The outlined "take" at a call, into the call's buffers `φ`: the wrap of a negative index (whose select is the
    nested integer "where", writing `φ.call0.v0`), the range test folded over the unit axis, the gather, the fill. -/
def opsTake (arg0 : TRef sig ⟨S2x50, .f32⟩) (arg1 : TRef sig ⟨S4x100x2048, .i32⟩) (φ : fn_take.Bufs) :
    List (HloOp τ sig (Elt F)) :=
  [ TRef.nullary φ.c (constantI S_ 32 0#32),
    TRef.unary φ.c φ.v0 (broadcastInDim S4x100x2048 ![] bcast_S_S4x100x2048),
    TRef.binary arg1 φ.v0 φ.v1 (cmpi .slt),
    TRef.nullary φ.c_0 (constantI S_ 32 2#32),
    TRef.unary φ.c_0 φ.v2 (broadcastInDim S4x100x2048 ![] bcast_S_S4x100x2048),
    TRef.binary arg1 φ.v2 φ.v3 addi,
    TRef.ternary φ.v1 φ.v3 arg1 φ.call0.v0 select,
    TRef.unary φ.call0.v0 φ.v5 (broadcastInDim S4x100x2048x1 ![0, 1, 2] bcast_S4x100x2048_S4x100x2048x1_0_1_2),
    TRef.nullary φ.c_1 (constantI S1 32 1#32),
    TRef.nullary φ.c_2 (constantI S_ 32 0#32),
    TRef.unary φ.c_2 φ.v6 (broadcastInDim S4x100x2048x1 ![] bcast_S_S4x100x2048x1),
    TRef.binary φ.v5 φ.v6 φ.v7 (cmpi .sge),
    TRef.unary φ.c_1 φ.v8 (broadcastInDim S1x1x1x1 ![3] bcast_S1_S1x1x1x1_3),
    TRef.unary φ.v8 φ.v9 (broadcastInDim S4x100x2048x1 ![0, 1, 2, 3] bcast_S1x1x1x1_S4x100x2048x1_0_1_2_3),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S4x100x2048x1_S4x100x2048_d3 h_S_),
    TRef.binary arg0 φ.v5 φ.v13 (fun x i => Host.gather gather_S2x50_S4x100x2048x1_S4x100x2048x50_3_0_n_n_0_3_150 x i),
    TRef.unary φ.v12 φ.v14 (broadcastInDim S4x100x2048x50 ![0, 1, 2] bcast_S4x100x2048_S4x100x2048x50_0_1_2),
    TRef.nullary φ.cst (constant S_ .f32 0x7FC00000#32),
    TRef.unary φ.cst φ.v15 (broadcastInDim S4x100x2048x50 ![] bcast_S_S4x100x2048x50),
    TRef.ternary φ.v14 φ.v13 φ.v15 φ.v16 select ]

/-- @main's thirty-three operations after the calls: the four weight arrays, the two blends, their sum. -/
def opsPost : List (HloOp τ sig (Elt F)) :=
  [ nullary main_cst_2 (constant S_ .f32 0x00000000#32),
    unary main_cst_2 main_v26 (broadcastInDim S4x100x2048 ![] bcast_S_S4x100x2048 : (⟨S_, .f32⟩ : BufTy).Contents (Elt F) → (⟨S4x100x2048, .f32⟩ : BufTy).Contents (Elt F)),
    binary main_v21 main_v26 main_v27 (subf : (⟨S4x100x2048, .f32⟩ : BufTy).Contents (Elt F) → (⟨S4x100x2048, .f32⟩ : BufTy).Contents (Elt F) → (⟨S4x100x2048, .f32⟩ : BufTy).Contents (Elt F)),
    unary main_v27 main_v28 (broadcastInDim S4x100x2048x1 ![0, 1, 2] bcast_S4x100x2048_S4x100x2048x1_0_1_2 : (⟨S4x100x2048, .f32⟩ : BufTy).Contents (Elt F) → (⟨S4x100x2048x1, .f32⟩ : BufTy).Contents (Elt F)),
    nullary main_cst_3 (constant S_ .f32 0x447A0000#32),
    unary main_cst_3 main_v29 (broadcastInDim S4x100x2048 ![] bcast_S_S4x100x2048 : (⟨S_, .f32⟩ : BufTy).Contents (Elt F) → (⟨S4x100x2048, .f32⟩ : BufTy).Contents (Elt F)),
    binary main_v29 main_v21 main_v30 (subf : (⟨S4x100x2048, .f32⟩ : BufTy).Contents (Elt F) → (⟨S4x100x2048, .f32⟩ : BufTy).Contents (Elt F) → (⟨S4x100x2048, .f32⟩ : BufTy).Contents (Elt F)),
    unary main_v30 main_v31 (broadcastInDim S4x100x2048x1 ![0, 1, 2] bcast_S4x100x2048_S4x100x2048x1_0_1_2 : (⟨S4x100x2048, .f32⟩ : BufTy).Contents (Elt F) → (⟨S4x100x2048x1, .f32⟩ : BufTy).Contents (Elt F)),
    nullary main_cst_4 (constant S_ .f32 0x00000000#32),
    unary main_cst_4 main_v32 (broadcastInDim S4x100x2048 ![] bcast_S_S4x100x2048 : (⟨S_, .f32⟩ : BufTy).Contents (Elt F) → (⟨S4x100x2048, .f32⟩ : BufTy).Contents (Elt F)),
    binary main_v1 main_v32 main_v33 (subf : (⟨S4x100x2048, .f32⟩ : BufTy).Contents (Elt F) → (⟨S4x100x2048, .f32⟩ : BufTy).Contents (Elt F) → (⟨S4x100x2048, .f32⟩ : BufTy).Contents (Elt F)),
    unary main_v33 main_v34 (broadcastInDim S4x100x2048x1 ![0, 1, 2] bcast_S4x100x2048_S4x100x2048x1_0_1_2 : (⟨S4x100x2048, .f32⟩ : BufTy).Contents (Elt F) → (⟨S4x100x2048x1, .f32⟩ : BufTy).Contents (Elt F)),
    nullary main_cst_5 (constant S_ .f32 0x47A8C000#32),
    unary main_cst_5 main_v35 (broadcastInDim S4x100x2048 ![] bcast_S_S4x100x2048 : (⟨S_, .f32⟩ : BufTy).Contents (Elt F) → (⟨S4x100x2048, .f32⟩ : BufTy).Contents (Elt F)),
    binary main_v35 main_v1 main_v36 (subf : (⟨S4x100x2048, .f32⟩ : BufTy).Contents (Elt F) → (⟨S4x100x2048, .f32⟩ : BufTy).Contents (Elt F) → (⟨S4x100x2048, .f32⟩ : BufTy).Contents (Elt F)),
    unary main_v36 main_v37 (broadcastInDim S4x100x2048x1 ![0, 1, 2] bcast_S4x100x2048_S4x100x2048x1_0_1_2 : (⟨S4x100x2048, .f32⟩ : BufTy).Contents (Elt F) → (⟨S4x100x2048x1, .f32⟩ : BufTy).Contents (Elt F)),
    unary main_v31 main_v38 (broadcastInDim S4x100x2048x50 ![0, 1, 2, 3] bcast_S4x100x2048x1_S4x100x2048x50_0_1_2_3 : (⟨S4x100x2048x1, .f32⟩ : BufTy).Contents (Elt F) → (⟨S4x100x2048x50, .f32⟩ : BufTy).Contents (Elt F)),
    binary main_v22 main_v38 main_v39 (mulf : (⟨S4x100x2048x50, .f32⟩ : BufTy).Contents (Elt F) → (⟨S4x100x2048x50, .f32⟩ : BufTy).Contents (Elt F) → (⟨S4x100x2048x50, .f32⟩ : BufTy).Contents (Elt F)),
    unary main_v28 main_v40 (broadcastInDim S4x100x2048x50 ![0, 1, 2, 3] bcast_S4x100x2048x1_S4x100x2048x50_0_1_2_3 : (⟨S4x100x2048x1, .f32⟩ : BufTy).Contents (Elt F) → (⟨S4x100x2048x50, .f32⟩ : BufTy).Contents (Elt F)),
    binary main_v23 main_v40 main_v41 (mulf : (⟨S4x100x2048x50, .f32⟩ : BufTy).Contents (Elt F) → (⟨S4x100x2048x50, .f32⟩ : BufTy).Contents (Elt F) → (⟨S4x100x2048x50, .f32⟩ : BufTy).Contents (Elt F)),
    binary main_v39 main_v41 main_v42 (addf : (⟨S4x100x2048x50, .f32⟩ : BufTy).Contents (Elt F) → (⟨S4x100x2048x50, .f32⟩ : BufTy).Contents (Elt F) → (⟨S4x100x2048x50, .f32⟩ : BufTy).Contents (Elt F)),
    nullary main_cst_6 (constant S_ .f32 0x447A0000#32),
    unary main_cst_6 main_v43 (broadcastInDim S4x100x2048x50 ![] bcast_S_S4x100x2048x50 : (⟨S_, .f32⟩ : BufTy).Contents (Elt F) → (⟨S4x100x2048x50, .f32⟩ : BufTy).Contents (Elt F)),
    binary main_v42 main_v43 main_v44 (Host.divf : (⟨S4x100x2048x50, .f32⟩ : BufTy).Contents (Elt F) → (⟨S4x100x2048x50, .f32⟩ : BufTy).Contents (Elt F) → (⟨S4x100x2048x50, .f32⟩ : BufTy).Contents (Elt F)),
    unary main_v37 main_v45 (broadcastInDim S4x100x2048x50 ![0, 1, 2, 3] bcast_S4x100x2048x1_S4x100x2048x50_0_1_2_3 : (⟨S4x100x2048x1, .f32⟩ : BufTy).Contents (Elt F) → (⟨S4x100x2048x50, .f32⟩ : BufTy).Contents (Elt F)),
    binary main_v24 main_v45 main_v46 (mulf : (⟨S4x100x2048x50, .f32⟩ : BufTy).Contents (Elt F) → (⟨S4x100x2048x50, .f32⟩ : BufTy).Contents (Elt F) → (⟨S4x100x2048x50, .f32⟩ : BufTy).Contents (Elt F)),
    unary main_v34 main_v47 (broadcastInDim S4x100x2048x50 ![0, 1, 2, 3] bcast_S4x100x2048x1_S4x100x2048x50_0_1_2_3 : (⟨S4x100x2048x1, .f32⟩ : BufTy).Contents (Elt F) → (⟨S4x100x2048x50, .f32⟩ : BufTy).Contents (Elt F)),
    binary main_v25 main_v47 main_v48 (mulf : (⟨S4x100x2048x50, .f32⟩ : BufTy).Contents (Elt F) → (⟨S4x100x2048x50, .f32⟩ : BufTy).Contents (Elt F) → (⟨S4x100x2048x50, .f32⟩ : BufTy).Contents (Elt F)),
    binary main_v46 main_v48 main_v49 (addf : (⟨S4x100x2048x50, .f32⟩ : BufTy).Contents (Elt F) → (⟨S4x100x2048x50, .f32⟩ : BufTy).Contents (Elt F) → (⟨S4x100x2048x50, .f32⟩ : BufTy).Contents (Elt F)),
    nullary main_cst_7 (constant S_ .f32 0x47A8C000#32),
    unary main_cst_7 main_v50 (broadcastInDim S4x100x2048x50 ![] bcast_S_S4x100x2048x50 : (⟨S_, .f32⟩ : BufTy).Contents (Elt F) → (⟨S4x100x2048x50, .f32⟩ : BufTy).Contents (Elt F)),
    binary main_v49 main_v50 main_v51 (Host.divf : (⟨S4x100x2048x50, .f32⟩ : BufTy).Contents (Elt F) → (⟨S4x100x2048x50, .f32⟩ : BufTy).Contents (Elt F) → (⟨S4x100x2048x50, .f32⟩ : BufTy).Contents (Elt F)),
    binary main_v44 main_v51 main_v52 (addf : (⟨S4x100x2048x50, .f32⟩ : BufTy).Contents (Elt F) → (⟨S4x100x2048x50, .f32⟩ : BufTy).Contents (Elt F) → (⟨S4x100x2048x50, .f32⟩ : BufTy).Contents (Elt F)) ]

/-- @main's operations in order, the calls unfolded: the four takes are of the tables arg5, arg4, arg7, arg6, all at
    the widened live mask `%10`. -/
def ops : List (HloOp τ sig (Elt F)) :=
  opsPre ++ (opsWhere (.of main_v20) (.of main_v19) (.of main_cst) main_call0
    ++ (opsTake (.of main_arg5) (.of main_v10) main_call1 ++ (opsTake (.of main_arg4) (.of main_v10) main_call2
    ++ (opsTake (.of main_arg7) (.of main_v10) main_call3 ++ (opsTake (.of main_arg6) (.of main_v10) main_call4
    ++ opsPost)))))

/-! ## @main is that line -/

set_option maxRecDepth 16384 in
set_option maxHeartbeats 4000000 in
/-- @main is that straight line: the two windows and the outlined functions unfolded at their calls, both sides are one
    chain of host steps once sequencing is reassociated. -/
theorem main_eq (c : Dev nD) : main (F := F) c = seq ops := by
  simp only [main, main_part0, main_part1, fn_where.body, fn_where_0.body, fn_take.body, ops, opsPre, opsWhere, opsTake,
    opsPost, List.cons_append, List.nil_append, seq, bind_assoc, pure_bind]

/-! ## Every operation touches TensorCore buffers only, and determines its results -/

theorem opsPre_sub : (opsPre : List (HloOp τ sig (Elt F))).Forall fun op => op.bufs ⊆ tcRefs τ sig :=
  ⟨unary_bufs_sub .., unary_bufs_sub .., nullary_bufs_sub .., unary_bufs_sub .., unary_bufs_sub .., unary_bufs_sub ..,
    unary_bufs_sub .., binary_bufs_sub .., unary_bufs_sub .., unary_bufs_sub .., unary_bufs_sub .., nullary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    nullary_bufs_sub ..⟩

theorem opsWhere_sub (arg0 : TRef sig ⟨S4x100x1, .i1⟩) (arg1 : TRef sig ⟨S4x100x2048, .f32⟩) (arg2 : TRef sig ⟨S_, .f32⟩)
    (φ : fn_where.Bufs) : (opsWhere (F := F) arg0 arg1 arg2 φ).Forall fun op => op.bufs ⊆ tcRefs τ sig :=
  ⟨unary_bufs_sub .., unary_bufs_sub .., ternary_bufs_sub ..⟩

theorem opsTake_sub (arg0 : TRef sig ⟨S2x50, .f32⟩) (arg1 : TRef sig ⟨S4x100x2048, .i32⟩) (φ : fn_take.Bufs) :
    (opsTake (F := F) arg0 arg1 φ).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

theorem opsPost_sub : (opsPost : List (HloOp τ sig (Elt F))).Forall fun op => op.bufs ⊆ tcRefs τ sig :=
  ⟨nullary_bufs_sub .., unary_bufs_sub .., binary_bufs_sub .., unary_bufs_sub .., nullary_bufs_sub .., unary_bufs_sub ..,
    binary_bufs_sub .., unary_bufs_sub .., nullary_bufs_sub .., unary_bufs_sub .., binary_bufs_sub .., unary_bufs_sub ..,
    nullary_bufs_sub .., unary_bufs_sub .., binary_bufs_sub .., unary_bufs_sub .., unary_bufs_sub .., binary_bufs_sub ..,
    unary_bufs_sub .., binary_bufs_sub .., binary_bufs_sub .., nullary_bufs_sub .., unary_bufs_sub .., binary_bufs_sub ..,
    unary_bufs_sub .., binary_bufs_sub .., unary_bufs_sub .., binary_bufs_sub .., binary_bufs_sub .., nullary_bufs_sub ..,
    unary_bufs_sub .., binary_bufs_sub .., binary_bufs_sub ..⟩

/-- The whole line's operations touch TensorCore buffers only: an operation of the concatenation is an operation of one
    of the seven stretches. -/
theorem ops_sub : (ops : List (HloOp τ sig (Elt F))).Forall fun op => op.bufs ⊆ tcRefs τ sig :=
  List.forall_iff_forall_mem.2 fun op h => by
    simp only [ops, List.mem_append] at h
    rcases h with h | h | h | h | h | h | h
    · exact List.forall_iff_forall_mem.1 opsPre_sub op h
    · exact List.forall_iff_forall_mem.1 (opsWhere_sub _ _ _ _) op h
    · exact List.forall_iff_forall_mem.1 (opsTake_sub _ _ _) op h
    · exact List.forall_iff_forall_mem.1 (opsTake_sub _ _ _) op h
    · exact List.forall_iff_forall_mem.1 (opsTake_sub _ _ _) op h
    · exact List.forall_iff_forall_mem.1 (opsTake_sub _ _ _) op h
    · exact List.forall_iff_forall_mem.1 opsPost_sub op h

theorem opsPre_fresh : ∀ op ∈ (opsPre : List (HloOp τ sig (Elt F))), op.fresh = ∅ := by
  intro _ h; (repeat (cases h with | head => rfl | tail _ h => ?_)); exact nomatch h

theorem opsWhere_fresh (arg0 : TRef sig ⟨S4x100x1, .i1⟩) (arg1 : TRef sig ⟨S4x100x2048, .f32⟩) (arg2 : TRef sig ⟨S_, .f32⟩)
    (φ : fn_where.Bufs) : ∀ op ∈ opsWhere (F := F) arg0 arg1 arg2 φ, op.fresh = ∅ := by
  intro _ h; (repeat (cases h with | head => rfl | tail _ h => ?_)); exact nomatch h

theorem opsTake_fresh (arg0 : TRef sig ⟨S2x50, .f32⟩) (arg1 : TRef sig ⟨S4x100x2048, .i32⟩) (φ : fn_take.Bufs) :
    ∀ op ∈ opsTake (F := F) arg0 arg1 φ, op.fresh = ∅ := by
  intro _ h; (repeat (cases h with | head => rfl | tail _ h => ?_)); exact nomatch h

theorem opsPost_fresh : ∀ op ∈ (opsPost : List (HloOp τ sig (Elt F))), op.fresh = ∅ := by
  intro _ h; (repeat (cases h with | head => rfl | tail _ h => ?_)); exact nomatch h

/-- No operation of the line leaves a result undetermined. -/
theorem ops_fresh : ∀ op ∈ (ops : List (HloOp τ sig (Elt F))), op.fresh = ∅ := by
  intro op h
  simp only [ops, List.mem_append] at h
  rcases h with h | h | h | h | h | h | h
  · exact opsPre_fresh op h
  · exact opsWhere_fresh _ _ _ _ op h
  · exact opsTake_fresh _ _ _ op h
  · exact opsTake_fresh _ _ _ op h
  · exact opsTake_fresh _ _ _ op h
  · exact opsTake_fresh _ _ _ op h
  · exact opsPost_fresh op h

theorem scopedRefs_eq : (Finset.univ.filter fun b : Ref sig .tc => b.isScoped) = ∅ := by decide
theorem scopedSems_eq : (Finset.univ.filter fun sm : SemLoc sig => sm.isScoped .tc) = ∅ := by decide

/-- From any memory with zero counters every weakly fair execution of @main terminates, and every final state has each
    TensorCore buffer at the fold of the line's operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-! ## What the buffers hold at the end, stretch by stretch -/

/-- The fold over a concatenation is the fold over the second part, started from the fold over the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The references each stretch writes: one per operation, its result. -/
abbrev preW : List (Ref sig .tc) :=
  [main_v0, main_v1, main_v2, main_v3, main_v4, main_v5, main_v6, main_v7, main_v8, main_v9, main_v10, main_c, main_v11,
    main_v12, main_c_0, main_v13, main_v14, main_c_1, main_v15, main_v16, main_v17, main_v18, main_v19, main_v20, main_cst]
abbrev whereW (φ : fn_where.Bufs) : List (Ref sig .tc) := [φ.v0.ref, φ.v1.ref, φ.v2.ref]
abbrev takeW (φ : fn_take.Bufs) : List (Ref sig .tc) :=
  [φ.c.ref, φ.v0.ref, φ.v1.ref, φ.c_0.ref, φ.v2.ref, φ.v3.ref, φ.call0.v0.ref, φ.v5.ref, φ.c_1.ref, φ.c_2.ref, φ.v6.ref,
    φ.v7.ref, φ.v8.ref, φ.v9.ref, φ.v10.ref, φ.v11.ref, φ.c_3.ref, φ.v12.ref, φ.v13.ref, φ.v14.ref, φ.cst.ref, φ.v15.ref,
    φ.v16.ref]
abbrev postW : List (Ref sig .tc) :=
  [main_cst_2, main_v26, main_v27, main_v28, main_cst_3, main_v29, main_v30, main_v31, main_cst_4, main_v32, main_v33,
    main_v34, main_cst_5, main_v35, main_v36, main_v37, main_v38, main_v39, main_v40, main_v41, main_v42, main_cst_6,
    main_v43, main_v44, main_v45, main_v46, main_v47, main_v48, main_v49, main_cst_7, main_v50, main_v51, main_v52]

theorem opsPre_writes : (opsPre : List (HloOp τ sig (Elt F))).Forall fun op =>
    op.writes ⊆ (preW.map (Proc.devRef (τ := τ) .tc)).toFinset := by
  simp only [opsPre, preW, List.Forall, nullary_writes, unary_writes, binary_writes, ternary_writes,
    Finset.singleton_subset_iff, List.mem_toFinset, List.map_cons, List.map_nil, List.mem_cons, true_or, or_true, and_self]

theorem opsWhere_writes (arg0 : TRef sig ⟨S4x100x1, .i1⟩) (arg1 : TRef sig ⟨S4x100x2048, .f32⟩) (arg2 : TRef sig ⟨S_, .f32⟩)
    (φ : fn_where.Bufs) : (opsWhere (F := F) arg0 arg1 arg2 φ).Forall fun op =>
    op.writes ⊆ ((whereW φ).map (Proc.devRef (τ := τ) .tc)).toFinset := by
  simp only [opsWhere, whereW, List.Forall, nullary_writes, unary_writes, binary_writes, ternary_writes,
    Finset.singleton_subset_iff, List.mem_toFinset, List.map_cons, List.map_nil, List.mem_cons, true_or, or_true, and_self]

theorem opsTake_writes (arg0 : TRef sig ⟨S2x50, .f32⟩) (arg1 : TRef sig ⟨S4x100x2048, .i32⟩) (φ : fn_take.Bufs) :
    (opsTake (F := F) arg0 arg1 φ).Forall fun op =>
    op.writes ⊆ ((takeW φ).map (Proc.devRef (τ := τ) .tc)).toFinset := by
  simp only [opsTake, takeW, List.Forall, nullary_writes, unary_writes, binary_writes, ternary_writes,
    Finset.singleton_subset_iff, List.mem_toFinset, List.map_cons, List.map_nil, List.mem_cons, true_or, or_true, and_self]

theorem opsPost_writes : (opsPost : List (HloOp τ sig (Elt F))).Forall fun op =>
    op.writes ⊆ (postW.map (Proc.devRef (τ := τ) .tc)).toFinset := by
  simp only [opsPost, postW, List.Forall, nullary_writes, unary_writes, binary_writes, ternary_writes,
    Finset.singleton_subset_iff, List.mem_toFinset, List.map_cons, List.map_nil, List.mem_cons, true_or, or_true, and_self]

/-- A reference a stretch does not write keeps its contents across the stretch. -/
theorem opsPre_frame (V : Valuation τ sig (Elt F)) {r : Ref sig .tc} (hr : r ∉ preW) :
    after opsPre V (no_index (Proc.devRef .tc r)) = V (Proc.devRef .tc r) :=
  after_of_writes_sub _ V opsPre_writes hr
theorem opsWhere_frame (arg0 : TRef sig ⟨S4x100x1, .i1⟩) (arg1 : TRef sig ⟨S4x100x2048, .f32⟩) (arg2 : TRef sig ⟨S_, .f32⟩)
    (φ : fn_where.Bufs) (V : Valuation τ sig (Elt F)) {r : Ref sig .tc} (hr : r ∉ whereW φ) :
    after (opsWhere arg0 arg1 arg2 φ) V (no_index (Proc.devRef .tc r)) = V (Proc.devRef .tc r) :=
  after_of_writes_sub _ V (opsWhere_writes arg0 arg1 arg2 φ) hr
theorem opsTake_frame (arg0 : TRef sig ⟨S2x50, .f32⟩) (arg1 : TRef sig ⟨S4x100x2048, .i32⟩) (φ : fn_take.Bufs)
    (V : Valuation τ sig (Elt F)) {r : Ref sig .tc} (hr : r ∉ takeW φ) :
    after (opsTake arg0 arg1 φ) V (no_index (Proc.devRef .tc r)) = V (Proc.devRef .tc r) :=
  after_of_writes_sub _ V (opsTake_writes arg0 arg1 φ) hr
theorem opsPost_frame (V : Valuation τ sig (Elt F)) {r : Ref sig .tc} (hr : r ∉ postW) :
    after opsPost V (no_index (Proc.devRef .tc r)) = V (Proc.devRef .tc r) :=
  after_of_writes_sub _ V opsPost_writes hr

-- the gathers and the fold are never opened here: each equation below only matches one against itself
attribute [local irreducible] Host.gather Host.reduce

/-- After the first stretch: the time array spread, the widened live mask, the gathered rows, the mask with a unit axis,
    the scalar zero, each as the staged term of the arguments it is computed from. -/
theorem pre_v1 (V : Valuation τ sig (Elt F)) :
    after opsPre V (no_index (main_v1 : DevRef τ sig)) = RefTerm.timeArr (F := F) (V (main_arg2 : DevRef τ sig)) := by
  unfold opsPre
  simp only [RefTerm.timeArr]
  after_results_simp <;> with_reducible rfl
theorem pre_v10 (V : Valuation τ sig (Elt F)) :
    after opsPre V (no_index (main_v10 : DevRef τ sig)) = RefTerm.liveIdx (V (main_arg3 : DevRef τ sig)) := by
  unfold opsPre
  simp only [RefTerm.liveIdx, RefTerm.live]
  after_results_simp <;> with_reducible rfl
theorem pre_v19 (V : Valuation τ sig (Elt F)) :
    after opsPre V (no_index (main_v19 : DevRef τ sig))
      = Host.gather gather_S4096x2048_S4x100x1_S4x100x2048_2_0_n_n_0_2_12048 (V (main_arg1 : DevRef τ sig))
          (RefTerm.rowIdx (V (main_arg0 : DevRef τ sig))) := by
  unfold opsPre
  simp only [RefTerm.rowIdx, RefTerm.row0]
  after_results_simp <;> with_reducible rfl
theorem pre_v20 (V : Valuation τ sig (Elt F)) :
    after opsPre V (no_index (main_v20 : DevRef τ sig))
      = broadcastInDim S4x100x1 ![0, 1] bcast_S4x100_S4x100x1_0_1 (RefTerm.live (V (main_arg3 : DevRef τ sig))) := by
  unfold opsPre
  simp only [RefTerm.live]
  after_results_simp <;> with_reducible rfl
theorem pre_cst (V : Valuation τ sig (Elt F)) :
    after opsPre V (no_index (main_cst : DevRef τ sig)) = constant (F := F) S_ .f32 0x00000000#32 := by
  unfold opsPre
  after_results_simp <;> with_reducible rfl

/-- After the "where" call: its result is `whereFn` of what its three operands held. -/
theorem where_val (V : Valuation τ sig (Elt F)) :
    after (opsWhere (.of main_v20) (.of main_v19) (.of main_cst) main_call0) V (no_index (main_v21 : DevRef τ sig))
      = RefTerm.whereFn (F := F) (V (main_v20 : DevRef τ sig)) (V (main_v19 : DevRef τ sig)) (V (main_cst : DevRef τ sig)) := by
  unfold opsWhere
  simp only [RefTerm.whereFn]
  after_results_simp <;> (try simp only [TRef.ofBuf, TRef.toBuf, cast_eq]) <;> with_reducible rfl

attribute [local irreducible] broadcastInDim select cmpi addi andi constantI constant in
/-- After each "take" call: its result is `takeFn` of what its table and its index held. The operations of an outlined
    function carry their values through the typed references' transports, which are the identity at these literal
    references: the closing comparison opens only those (every array operation is kept folded meanwhile). -/
theorem take1_val (V : Valuation τ sig (Elt F)) :
    after (opsTake (.of main_arg5) (.of main_v10) main_call1) V (no_index (main_v22 : DevRef τ sig))
      = RefTerm.takeFn (F := F) (V (main_arg5 : DevRef τ sig)) (V (main_v10 : DevRef τ sig)) := by
  unfold opsTake
  simp only [RefTerm.takeFn, RefTerm.takeOk, RefTerm.takeIdx]
  after_results_simp
  rfl
attribute [local irreducible] broadcastInDim select cmpi addi andi constantI constant in
theorem take2_val (V : Valuation τ sig (Elt F)) :
    after (opsTake (.of main_arg4) (.of main_v10) main_call2) V (no_index (main_v23 : DevRef τ sig))
      = RefTerm.takeFn (F := F) (V (main_arg4 : DevRef τ sig)) (V (main_v10 : DevRef τ sig)) := by
  unfold opsTake
  simp only [RefTerm.takeFn, RefTerm.takeOk, RefTerm.takeIdx]
  after_results_simp
  rfl
attribute [local irreducible] broadcastInDim select cmpi addi andi constantI constant in
theorem take3_val (V : Valuation τ sig (Elt F)) :
    after (opsTake (.of main_arg7) (.of main_v10) main_call3) V (no_index (main_v24 : DevRef τ sig))
      = RefTerm.takeFn (F := F) (V (main_arg7 : DevRef τ sig)) (V (main_v10 : DevRef τ sig)) := by
  unfold opsTake
  simp only [RefTerm.takeFn, RefTerm.takeOk, RefTerm.takeIdx]
  after_results_simp
  rfl
attribute [local irreducible] broadcastInDim select cmpi addi andi constantI constant in
theorem take4_val (V : Valuation τ sig (Elt F)) :
    after (opsTake (.of main_arg6) (.of main_v10) main_call4) V (no_index (main_v25 : DevRef τ sig))
      = RefTerm.takeFn (F := F) (V (main_arg6 : DevRef τ sig)) (V (main_v10 : DevRef τ sig)) := by
  unfold opsTake
  simp only [RefTerm.takeFn, RefTerm.takeOk, RefTerm.takeIdx]
  after_results_simp
  rfl

/-- After the closing arithmetic: the sum of the two blends, of what the four looked-up arrays, the masked rows and the
    time array held. -/
theorem post_val (V : Valuation τ sig (Elt F)) :
    after opsPost V (no_index (main_v52 : DevRef τ sig))
      = addf (RefTerm.blend (F := F) 0x447A0000#32 (V (main_v22 : DevRef τ sig)) (V (main_v23 : DevRef τ sig)) (V (main_v21 : DevRef τ sig)))
          (RefTerm.blend 0x47A8C000#32 (V (main_v24 : DevRef τ sig)) (V (main_v25 : DevRef τ sig)) (V (main_v1 : DevRef τ sig))) := by
  unfold opsPost
  simp only [RefTerm.blend, RefTerm.spread50, RefTerm.upTo, RefTerm.fromZero]
  after_results_simp <;> with_reducible rfl

/-! ## The whole line -/

/-- The result buffer after the whole line is `RefTerm.out` of the arguments: the closing arithmetic reads the four
    looked-up arrays, the masked rows and the time array; each is carried unchanged across the stretches after the one that
    writes it, and is that stretch's staged term of buffers the first stretch computes from the arguments. -/
theorem out_eq (V : Valuation τ sig (Elt F)) :
    after ops V (main_v52 : DevRef τ sig) = RefTerm.out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) := by
  simp (disch := decide) only [ops, after_app, post_val, take1_val, take2_val, take3_val, take4_val, where_val, pre_v1,
    pre_v10, pre_v19, pre_v20, pre_cst, opsPre_frame, opsWhere_frame, opsTake_frame, RefTerm.out, RefTerm.xArr]

/-- No stretch writes an argument buffer: each holds at the end what it held at the launch. -/
theorem args_eq (V : Valuation τ sig (Elt F)) :
    after ops V (main_arg0 : DevRef τ sig) = V (main_arg0 : DevRef τ sig)
    ∧ after ops V (main_arg1 : DevRef τ sig) = V (main_arg1 : DevRef τ sig)
    ∧ after ops V (main_arg2 : DevRef τ sig) = V (main_arg2 : DevRef τ sig)
    ∧ after ops V (main_arg3 : DevRef τ sig) = V (main_arg3 : DevRef τ sig)
    ∧ after ops V (main_arg4 : DevRef τ sig) = V (main_arg4 : DevRef τ sig)
    ∧ after ops V (main_arg5 : DevRef τ sig) = V (main_arg5 : DevRef τ sig)
    ∧ after ops V (main_arg6 : DevRef τ sig) = V (main_arg6 : DevRef τ sig)
    ∧ after ops V (main_arg7 : DevRef τ sig) = V (main_arg7 : DevRef τ sig) := by
  refine ⟨?_, ?_, ?_, ?_, ?_, ?_, ?_, ?_⟩ <;>
    simp (disch := decide) only [ops, after_app, opsPre_frame, opsWhere_frame, opsTake_frame, opsPost_frame]

/-- Every weakly fair execution of the reference terminates with its result at `RefTerm.out` of the arguments, the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v52) = RefTerm.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v52).trans (out_eq _), (h c main_arg0).trans (args_eq _).1,
      (h c main_arg1).trans (args_eq _).2.1, (h c main_arg2).trans (args_eq _).2.2.1, (h c main_arg3).trans (args_eq _).2.2.2.1,
      (h c main_arg4).trans (args_eq _).2.2.2.2.1, (h c main_arg5).trans (args_eq _).2.2.2.2.2.1,
      (h c main_arg6).trans (args_eq _).2.2.2.2.2.2.1, (h c main_arg7).trans (args_eq _).2.2.2.2.2.2.2⟩)
    (run_main m ρ)

end Cert.ReferenceIdeal.RefRun

end
-- ==== Proof.RefValue.lean ====
/-
  The reference's term read at an index: with every location in `1 … 4096`, element `(b, l, m, e)` of `RefTerm.out` is the
  specification `Spec.G`.

  The road. Every operation of the term is pointwise or a re-indexing, so the whole equation is read at one index
  (b, l, m, e). A broadcast reads its operand at the coordinates it keeps (0 on a unit axis). The live bit is the
  signed comparison of the position number with the batch's length, which is the specification's validity test. With
  the location in 1 … 4096 the zero-based row number is not negative, so its wrap-around select is the identity, and
  the gather's clamp of the start index into 0 … 4095 is the specification's row. The lookup index of the four small
  tables is the live bit widened to 32 bits, a word that is 0 or 1: its wrap-around select is the identity, its bounds
  test is true at every element (so the fold of "and" over the unit axis is true and the not-a-number fill is never
  chosen), and the gather reads row 1 where live and row 0 where dead. What remains is the scalar arithmetic, which at
  the extended reals is the specification's expression term for term, literals kept as the same words.
-/
import proofs.«417881_j60696477827087_4_alg».proof.Proof.RefTerm
import proofs.«417881_j60696477827087_4_alg».proof.Proof.Spec
import proofs.«417881_j60696477827087_4_alg».proof.Proof.LibGatherRows
import Idealize.ShloMosaic.Lib.ValueIdx
import Idealize.ShloMosaic.Lib.IdealHost
import Idealize.ShloMosaic.Lib.Pipeline.Value
import Idealize.ShloMosaic.Lib.StableHlo.Predicate
import Idealize.ShloMosaic.PureOps.Reduce
import Mathlib.Tactic.SplitIfs

noncomputable section

namespace Cert.ReferenceIdeal.RefValue

open Cert.ReferenceIdeal Cert.ReferenceIdeal.Gen Idealize.ShloMosaic Idealize.ShloMosaic.ValueIdx

/-! ## Broadcasts read at an index

Each broadcast of the program copies its operand along the axes it adds, so an element of the result is the operand's
element at the coordinates that survive; a trailing unit axis contributes the coordinate 0. -/

section Broadcasts
variable {α : Type}

/-- [4, 100] seen as [4, 100, 1]: element (b, l, 0) is element (b, l). -/
theorem bc_ab_ab1 (h : S4x100.BroadcastsInDim S4x100x1 ![0, 1]) (x : S4x100.Idx → α) (b : Fin 4) (l : Fin 100) (z : Fin 1) :
    broadcastInDim S4x100x1 ![0, 1] h x (ix3 b l z) = x (ix2 b l) :=
  broadcastInDim_apply _ h x _ _ fun a => match a with | ⟨0, _⟩ => rfl | ⟨1, _⟩ => rfl

/-- [4, 100, 1] spread along the 2048 axis: element (b, l, m) is element (b, l, 0). -/
theorem bc_ab1_abm (h : S4x100x1.BroadcastsInDim S4x100x2048 ![0, 1, 2]) (x : S4x100x1.Idx → α) (b : Fin 4) (l : Fin 100)
    (m : Fin 2048) : broadcastInDim S4x100x2048 ![0, 1, 2] h x (ix3 b l m) = x (ix3 b l (0 : Fin 1)) :=
  broadcastInDim_apply _ h x _ _ fun a => match a with | ⟨0, _⟩ => rfl | ⟨1, _⟩ => rfl | ⟨2, _⟩ => rfl

/-- [100] seen as [1, 100]. -/
theorem bc_l_1l (h : S100.BroadcastsInDim S1x100 ![1]) (x : S100.Idx → α) (z : Fin 1) (l : Fin 100) :
    broadcastInDim S1x100 ![1] h x (ix2 z l) = x (ix1 l) :=
  broadcastInDim_apply _ h x _ _ fun a => match a with | ⟨0, _⟩ => rfl

/-- [4] seen as [4, 1]. -/
theorem bc_b_b1 (h : S4.BroadcastsInDim S4x1 ![0]) (x : S4.Idx → α) (b : Fin 4) (z : Fin 1) :
    broadcastInDim S4x1 ![0] h x (ix2 b z) = x (ix1 b) :=
  broadcastInDim_apply _ h x _ _ fun a => match a with | ⟨0, _⟩ => rfl

/-- [1, 100] copied down the 4 rows. -/
theorem bc_1l_bl (h : S1x100.BroadcastsInDim S4x100 ![0, 1]) (x : S1x100.Idx → α) (b : Fin 4) (l : Fin 100) :
    broadcastInDim S4x100 ![0, 1] h x (ix2 b l) = x (ix2 (0 : Fin 1) l) :=
  broadcastInDim_apply _ h x _ _ fun a => match a with | ⟨0, _⟩ => rfl | ⟨1, _⟩ => rfl

/-- [4, 1] copied along the 100 columns. -/
theorem bc_b1_bl (h : S4x1.BroadcastsInDim S4x100 ![0, 1]) (x : S4x1.Idx → α) (b : Fin 4) (l : Fin 100) :
    broadcastInDim S4x100 ![0, 1] h x (ix2 b l) = x (ix2 b (0 : Fin 1)) :=
  broadcastInDim_apply _ h x _ _ fun a => match a with | ⟨0, _⟩ => rfl | ⟨1, _⟩ => rfl

/-- [4, 100, 2048] given a trailing unit axis. -/
theorem bc_abm_abm1 (h : S4x100x2048.BroadcastsInDim S4x100x2048x1 ![0, 1, 2]) (x : S4x100x2048.Idx → α) (b : Fin 4)
    (l : Fin 100) (m : Fin 2048) (z : Fin 1) :
    broadcastInDim S4x100x2048x1 ![0, 1, 2] h x (ix4 b l m z) = x (ix3 b l m) :=
  broadcastInDim_apply _ h x _ _ fun a => match a with | ⟨0, _⟩ => rfl | ⟨1, _⟩ => rfl | ⟨2, _⟩ => rfl

/-- [4, 100, 2048] spread along the 50 axis. -/
theorem bc_abm_abme (h : S4x100x2048.BroadcastsInDim S4x100x2048x50 ![0, 1, 2]) (x : S4x100x2048.Idx → α) (b : Fin 4)
    (l : Fin 100) (m : Fin 2048) (e : Fin 50) :
    broadcastInDim S4x100x2048x50 ![0, 1, 2] h x (ix4 b l m e) = x (ix3 b l m) :=
  broadcastInDim_apply _ h x _ _ fun a => match a with | ⟨0, _⟩ => rfl | ⟨1, _⟩ => rfl | ⟨2, _⟩ => rfl

/-- [4, 100, 2048, 1] spread along the 50 axis. -/
theorem bc_abm1_abme (h : S4x100x2048x1.BroadcastsInDim S4x100x2048x50 ![0, 1, 2, 3]) (x : S4x100x2048x1.Idx → α)
    (b : Fin 4) (l : Fin 100) (m : Fin 2048) (e : Fin 50) :
    broadcastInDim S4x100x2048x50 ![0, 1, 2, 3] h x (ix4 b l m e) = x (ix4 b l m (0 : Fin 1)) :=
  broadcastInDim_apply _ h x _ _ fun a => match a with | ⟨0, _⟩ => rfl | ⟨1, _⟩ => rfl | ⟨2, _⟩ => rfl | ⟨3, _⟩ => rfl

end Broadcasts

/-! ## Words -/

section Words

/-- A 32-bit word whose value is at most 1 is the word 0 or the word 1. -/
theorem eq_zero_or_one_of_toNat_le_one (w : BitVec 32) (h : w.toNat ≤ 1) : w = 0#32 ∨ w = 1#32 := by
  rcases Nat.le_one_iff_eq_zero_or_eq_one.1 h with h0 | h1
  · exact Or.inl (BitVec.eq_of_toNat_eq (by rw [h0]; rfl))
  · exact Or.inr (BitVec.eq_of_toNat_eq (by rw [h1]; rfl))

/-- A bit widened to 32 bits has value at most 1. -/
theorem toNat_setWidth_le_one (x : BitVec 1) : (x.setWidth 32).toNat ≤ 1 := by
  rcases BitVec.eq_zero_or_eq_one x with rfl | rfl <;> decide

/-- What the table lookup does to an index word that is 0 or 1: it is not negative, so the wrap-around branch
    (add the row count 2) is not taken; and it passes both bounds tests, 0 ≤ w and w ≤ 1. -/
theorem take_word (w : BitVec 32) (h : w.toNat ≤ 1) :
    Scalar.select (IntOp.cmpi .slt w 0#32) (IntOp.addi w 2#32) w = w
      ∧ IntOp.andi (IntOp.cmpi .sge w 0#32) (IntOp.cmpi .sle w 1#32) = 1#1 := by
  rcases eq_zero_or_one_of_toNat_le_one w h with rfl | rfl <;> decide

/-- A word whose signed value lies in 1 … 4096 has that same unsigned value. -/
theorem toNat_of_range (x : BitVec 32) (h1 : 1 ≤ x.toInt) (h2 : x.toInt ≤ 4096) : 1 ≤ x.toNat ∧ x.toNat ≤ 4096 := by
  have hlt := x.isLt
  rw [BitVec.toInt_eq_toNat_cond] at h1 h2
  split_ifs at h1 h2 <;> omega

/-- The row index word: a location x in 1 … 4096 less one is in 0 … 4095, so the negative-wrap select (add 4096
    when negative) keeps x - 1, and x - 1 read as a signed number is the natural number x - 1. -/
theorem gidx_word (x : BitVec 32) (h1 : 1 ≤ x.toInt) (h2 : x.toInt ≤ 4096) :
    Scalar.select (IntOp.cmpi .slt (IntOp.subi x 1#32) 0#32) (IntOp.addi (IntOp.subi x 1#32) 4096#32) (IntOp.subi x 1#32)
        = IntOp.subi x 1#32
      ∧ (IntOp.subi x 1#32).toInt.toNat = x.toNat - 1 := by
  obtain ⟨hx1, hx2⟩ := toNat_of_range x h1 h2
  have hy : (IntOp.subi x 1#32).toNat = x.toNat - 1 := by
    show (x - 1#32).toNat = _
    rw [BitVec.toNat_sub]
    simp only [BitVec.toNat_ofNat]
    omega
  have hylt : (IntOp.subi x 1#32).toNat < 2 ^ 31 := by rw [hy]; omega
  have hc : IntOp.cmpi .slt (IntOp.subi x 1#32) 0#32 = 0#1 := by
    apply eq_zero_of_ne_one
    intro h
    exact Nat.not_lt_zero _ ((StableHlo.Predicate.slt_iff_toNat hylt (by decide)).1 h)
  refine ⟨by rw [hc]; exact select_zero _ _, ?_⟩
  rw [StableHlo.Predicate.toInt_eq_toNat_of_lt hylt, hy]
  omega

/-- A select on a comparison's bit is the if-then-else on the comparison. -/
theorem select_ofBool {α : Type} (v : Bool) (x y : α) : Scalar.select (BitVec.ofBool v) x y = if v then x else y := by
  cases v <;> rfl

/-- Row 1 when the bit is set, row 0 otherwise. -/
theorem ite_ofBool (v : Bool) : (if BitVec.ofBool v = 1#1 then (1 : Fin 2) else (0 : Fin 2)) = if v then (1 : Fin 2) else (0 : Fin 2) := by
  cases v <;> rfl

end Words

/-! ## An "all" over an array of ones -/

/-- Folding "and" from 1 over an array whose every element is 1 gives 1 at every result index. -/
theorem reduce_andi_all_one {s t u : Shape} {axes : List (Fin s.rank)} (x : s.Idx → BitVec 1) (init : u.Idx → BitVec 1)
    (h : s.ReducesTo axes t) (hu : 0 < u.numel) (j : t.Idx) (hx : ∀ i, x i = 1#1)
    (hi : init (Shape.Idx.first hu) = 1#1) : Host.reduce IntOp.andi x init h hu j = 1#1 := by
  classical
  rw [Host.reduce_eq_fold, hi]
  induction (Finset.univ.filter fun i => h.drop i = j) using Finset.cons_induction with
  | empty => rfl
  | cons a S ha ih => rw [Finset.fold_cons, ih, hx a]; rfl

/-- The same as an equation of arrays, for the constant arrays of ones. -/
theorem reduce_ones {s t u : Shape} {axes : List (Fin s.rank)} (h : s.ReducesTo axes t) (hu : 0 < u.numel) :
    Host.reduce IntOp.andi (constantI s 1 1#1) (constantI u 1 1#1) h hu = constantI t 1 1#1 :=
  funext fun j => reduce_andi_all_one _ _ h hu j (fun _ => rfl) rfl

/-- A select whose mask is a broadcast array of ones is its first branch. -/
theorem select_bc_ones {α : Type} {s t : Shape} (dims : Fin s.rank → Fin t.rank) (h : s.BroadcastsInDim t dims)
    (a b : t.Idx → α) : select (broadcastInDim t dims h (constantI s 1 1#1)) a b = a :=
  funext fun i => select_one (a i) (b i)

/-! ## The outlined "where" and "take" read at an index -/

/-- "where" at (b, l, m): the mask's bit at (b, l) chooses between x there and the scalar. -/
theorem whereFn_apply (c : IVec S4x100x1 1) (x : FVec Ideal S4x100x2048 .f32) (z : FVec Ideal S_ .f32) (b : Fin 4)
    (l : Fin 100) (m : Fin 2048) :
    RefTerm.whereFn c x z (ix3 b l m) = Scalar.select (c (ix3 b l (0 : Fin 1))) (x (ix3 b l m)) (z ix0) := by
  unfold RefTerm.whereFn
  rw [select_apply, bc_ab1_abm, broadcastInDim_scalar_apply]

/-- For an index array of zeros and ones the wrap-around select of "take" changes nothing. -/
theorem wrap_eq (h : S_.BroadcastsInDim S4x100x2048 ![]) (idx : IVec S4x100x2048 32) (hidx : ∀ j, (idx j).toNat ≤ 1) :
    select (cmpi .slt idx (broadcastInDim S4x100x2048 ![] h (constantI S_ 32 0#32)))
      (addi idx (broadcastInDim S4x100x2048 ![] h (constantI S_ 32 2#32))) idx = idx :=
  funext fun j => (take_word (idx j) (hidx j)).1

/-- … and every index passes the bounds test 0 ≤ · ≤ 1. -/
theorem inb_eq (h5 : S4x100x2048.BroadcastsInDim S4x100x2048x1 ![0, 1, 2]) (h6 : S_.BroadcastsInDim S4x100x2048x1 ![])
    (h8 : S1.BroadcastsInDim S1x1x1x1 ![3]) (h9 : S1x1x1x1.BroadcastsInDim S4x100x2048x1 ![0, 1, 2, 3])
    (idx : IVec S4x100x2048 32) (hidx : ∀ j, (idx j).toNat ≤ 1) :
    andi (cmpi .sge (broadcastInDim S4x100x2048x1 ![0, 1, 2] h5 idx) (broadcastInDim S4x100x2048x1 ![] h6 (constantI S_ 32 0#32)))
        (cmpi .sle (broadcastInDim S4x100x2048x1 ![0, 1, 2] h5 idx)
          (broadcastInDim S4x100x2048x1 ![0, 1, 2, 3] h9 (broadcastInDim S1x1x1x1 ![3] h8 (constantI S1 32 1#32))))
      = constantI S4x100x2048x1 1 1#1 := by
  funext i
  obtain ⟨b, l, m, z, rfl⟩ : ∃ b l m z, i = ix4 b l m z := ⟨i 0, i 1, i 2, i 3, eq_ix4 i⟩
  show IntOp.andi (IntOp.cmpi .sge (broadcastInDim S4x100x2048x1 ![0, 1, 2] h5 idx (ix4 b l m z)) 0#32)
      (IntOp.cmpi .sle (broadcastInDim S4x100x2048x1 ![0, 1, 2] h5 idx (ix4 b l m z)) 1#32) = 1#1
  rw [bc_abm_abm1]
  exact (take_word _ (hidx _)).2

/-- The index array "take" gathers at, for an array of zeros and ones: the array itself with its unit axis. -/
theorem takeIdx_eq (idx : IVec S4x100x2048 32) (hidx : ∀ j, (idx j).toNat ≤ 1) :
    RefTerm.takeIdx idx = broadcastInDim S4x100x2048x1 ![0, 1, 2] bcast_S4x100x2048_S4x100x2048x1_0_1_2 idx := by
  unfold RefTerm.takeIdx
  rw [wrap_eq _ idx hidx]

/-- The in-range test of "take" on such an array is true everywhere: an "all" over an array of ones. -/
theorem takeOk_eq (idx : IVec S4x100x2048 32) (hidx : ∀ j, (idx j).toNat ≤ 1) :
    RefTerm.takeOk (broadcastInDim S4x100x2048x1 ![0, 1, 2] bcast_S4x100x2048_S4x100x2048x1_0_1_2 idx)
      = constantI S4x100x2048 1 1#1 := by
  unfold RefTerm.takeOk
  rw [inb_eq _ _ _ _ idx hidx, reduce_ones]

/-- So "take" at an index array of zeros and ones is the bare row gather at that array: the not-a-number fill is
    never chosen. -/
theorem takeFn_eq (emb : FVec Ideal S2x50 .f32) (idx : IVec S4x100x2048 32) (hidx : ∀ j, (idx j).toNat ≤ 1) :
    RefTerm.takeFn emb idx
      = Host.gather gather_S2x50_S4x100x2048x1_S4x100x2048x50_3_0_n_n_0_3_150 emb
          (broadcastInDim S4x100x2048x1 ![0, 1, 2] bcast_S4x100x2048_S4x100x2048x1_0_1_2 idx) := by
  unfold RefTerm.takeFn
  rw [takeIdx_eq idx hidx, takeOk_eq idx hidx, select_bc_ones]

/-- "take" at a widened bit array, read at (b, l, m, e): row 1 of the table where the bit is set, row 0 elsewhere
    (the gather reads the index as a signed number clamped into 0 … 1, which for the words 0 and 1 is the word). -/
theorem takeFn_extui_apply (emb : FVec Ideal S2x50 .f32) (c : IVec S4x100x2048 1) (h : 1 < 32) (b : Fin 4) (l : Fin 100)
    (m : Fin 2048) (e : Fin 50) :
    RefTerm.takeFn emb (extui 32 c h) (ix4 b l m e)
      = emb (ix2 (if c (ix3 b l m) = 1#1 then (1 : Fin 2) else (0 : Fin 2)) e) := by
  have hidx : ∀ j, (extui 32 c h j).toNat ≤ 1 := fun j => toNat_setWidth_le_one (c j)
  rw [takeFn_eq emb _ hidx]
  refine (LibGatherRows.gather_rows4_apply (N := 2) (M := 50) (A := 4) (B := 100) (C := 2048) (by decide) _ emb _ b l m e).trans ?_
  refine congrArg (fun r => emb (ix2 r e)) (Fin.ext ?_)
  show min _ _ = _
  rw [bc_abm_abm1]
  show min ((c (ix3 b l m)).setWidth 32).toInt.toNat (2 - 1) = (if c (ix3 b l m) = 1#1 then (1 : Fin 2) else (0 : Fin 2)).val
  generalize c (ix3 b l m) = w
  rcases BitVec.eq_zero_or_eq_one w with rfl | rfl <;> rfl

/-! ## The stages of the main function read at an index -/

/-- The comparison behind the live bit at (b, l): the position number l (an iota along the 100 axis, copied down the
    rows) against the batch's length (copied along the columns), as signed words. -/
theorem valid_apply (h3 : S100.BroadcastsInDim S1x100 ![1]) (h4 : S4.BroadcastsInDim S4x1 ![0])
    (h5 : S1x100.BroadcastsInDim S4x100 ![0, 1]) (h6 : S4x1.BroadcastsInDim S4x100 ![0, 1]) (a3 : IVec S4 32) (b : Fin 4)
    (l : Fin 100) :
    cmpi .slt (broadcastInDim S4x100 ![0, 1] h5 (broadcastInDim S1x100 ![1] h3 (iotaInDim S100 32 0)))
        (broadcastInDim S4x100 ![0, 1] h6 (broadcastInDim S4x1 ![0] h4 a3)) (ix2 b l)
      = BitVec.ofBool (Cert.Spec.valid a3 b l) := by
  show IntOp.cmpi .slt (broadcastInDim S4x100 ![0, 1] h5 (broadcastInDim S1x100 ![1] h3 (iotaInDim S100 32 0)) (ix2 b l))
      (broadcastInDim S4x100 ![0, 1] h6 (broadcastInDim S4x1 ![0] h4 a3) (ix2 b l)) = _
  rw [bc_1l_bl, bc_l_1l, bc_b1_bl, bc_b_b1]
  rfl

/-- The live mask at (b, l) is the specification's validity test, as a bit. -/
theorem live_apply (a3 : IVec S4 32) (b : Fin 4) (l : Fin 100) :
    RefTerm.live a3 (ix2 b l) = BitVec.ofBool (Cert.Spec.valid a3 b l) := by
  unfold RefTerm.live
  exact valid_apply _ _ _ _ a3 b l

/-- Each small-table lookup at (b, l, m, e) is the specification's selected row: row 1 where live, row 0 where dead. -/
theorem take_live_apply (emb : FVec Ideal S2x50 .f32) (a3 : IVec S4 32) (b : Fin 4) (l : Fin 100) (m : Fin 2048)
    (e : Fin 50) : RefTerm.takeFn emb (RefTerm.liveIdx a3) (ix4 b l m e) = Cert.Spec.sel emb a3 b l e := by
  unfold RefTerm.liveIdx
  rw [takeFn_extui_apply, bc_ab1_abm, bc_ab_ab1, live_apply, ite_ofBool]
  rfl

/-- The time array at (b, l, m) is the time of position (b, l). -/
theorem timeArr_apply (a2 : FVec Ideal S4x100 .f32) (b : Fin 4) (l : Fin 100) (m : Fin 2048) :
    RefTerm.timeArr a2 (ix3 b l m) = a2 (ix2 b l) := by
  unfold RefTerm.timeArr
  rw [bc_ab1_abm, bc_ab_ab1]

/-- The gathered table row, for explicit operands: with the location in 1 … 4096 the start index is the location
    less one, unchanged by the wrap-around select, and the gather's clamp into 0 … 4095 is the specification's. -/
theorem row_gather_apply (hb : S_.BroadcastsInDim S4x100 ![]) (h18 : S4x100.BroadcastsInDim S4x100x1 ![0, 1])
    (a0 : IVec S4x100 32) (a1 : FVec Ideal S4096x2048 .f32) (hrange : ∀ i, 1 ≤ (a0 i).toInt ∧ (a0 i).toInt ≤ 4096)
    (b : Fin 4) (l : Fin 100) (m : Fin 2048) :
    Host.gather gather_S4096x2048_S4x100x1_S4x100x2048_2_0_n_n_0_2_12048 a1
        (broadcastInDim S4x100x1 ![0, 1] h18
          (select
            (cmpi .slt (subi a0 (broadcastInDim S4x100 ![] hb (constantI S_ 32 1#32)))
              (broadcastInDim S4x100 ![] hb (constantI S_ 32 0#32)))
            (addi (subi a0 (broadcastInDim S4x100 ![] hb (constantI S_ 32 1#32)))
              (broadcastInDim S4x100 ![] hb (constantI S_ 32 4096#32)))
            (subi a0 (broadcastInDim S4x100 ![] hb (constantI S_ 32 1#32))))) (ix3 b l m)
      = a1 (ix2 (Cert.Spec.row a0 b l) m) := by
  refine (LibGatherRows.gather_rows3_apply (N := 4096) (M := 2048) (A := 4) (B := 100) (by decide) _ a1 _ b l m).trans ?_
  refine congrArg (fun r => a1 (ix2 r m)) (Fin.ext ?_)
  show min _ _ = _
  rw [bc_ab_ab1]
  obtain ⟨hw, hn⟩ := gidx_word (a0 (ix2 b l)) (hrange _).1 (hrange _).2
  show min (Scalar.select (IntOp.cmpi .slt (IntOp.subi (a0 (ix2 b l)) 1#32) 0#32)
      (IntOp.addi (IntOp.subi (a0 (ix2 b l)) 1#32) 4096#32) (IntOp.subi (a0 (ix2 b l)) 1#32)).toInt.toNat 4095
    = min ((a0 (ix2 b l)).toNat - 1) 4095
  rw [hw, hn]

/-- The same for the program's row index array. -/
theorem rowIdx_gather_apply (a0 : IVec S4x100 32) (a1 : FVec Ideal S4096x2048 .f32)
    (hrange : ∀ i, 1 ≤ (a0 i).toInt ∧ (a0 i).toInt ≤ 4096) (b : Fin 4) (l : Fin 100) (m : Fin 2048) :
    Host.gather gather_S4096x2048_S4x100x1_S4x100x2048_2_0_n_n_0_2_12048 a1 (RefTerm.rowIdx a0) (ix3 b l m)
      = a1 (ix2 (Cert.Spec.row a0 b l) m) := by
  unfold RefTerm.rowIdx RefTerm.row0
  exact row_gather_apply _ _ a0 a1 hrange b l m

/-- The masked distance at (b, l, m) is the specification's: the table entry where live, zero where dead. -/
theorem xArr_apply (a0 : IVec S4x100 32) (a1 : FVec Ideal S4096x2048 .f32) (a3 : IVec S4 32)
    (hrange : ∀ i, 1 ≤ (a0 i).toInt ∧ (a0 i).toInt ≤ 4096) (b : Fin 4) (l : Fin 100) (m : Fin 2048) :
    RefTerm.xArr a0 a1 a3 (ix3 b l m) = Cert.Spec.delta a0 a1 a3 b l m := by
  unfold RefTerm.xArr
  rw [whereFn_apply, bc_ab_ab1, live_apply, rowIdx_gather_apply a0 a1 hrange, constant_apply, select_ofBool]
  rfl

/-- A weight array spread along the 50 axis reads its (b, l, m) element. -/
theorem spread50_apply (x : FVec Ideal S4x100x2048 .f32) (b : Fin 4) (l : Fin 100) (m : Fin 2048) (e : Fin 50) :
    RefTerm.spread50 x (ix4 b l m e) = x (ix3 b l m) := by
  unfold RefTerm.spread50
  rw [bc_abm1_abme, bc_abm_abm1]

/-- The distance from zero at an index: the element less the number the word 0 denotes. -/
theorem fromZero_apply (x : FVec Ideal S4x100x2048 .f32) (i : S4x100x2048.Idx) :
    RefTerm.fromZero x i = x i - Ideal.ofBits .f32 0x00000000#32 := by
  unfold RefTerm.fromZero
  rw [subf_apply, broadcastInDim_scalar_apply, constant_apply]

/-- The distance to the upper end at an index: the number the word k denotes less the element. -/
theorem upTo_apply (k : BitVec 32) (x : FVec Ideal S4x100x2048 .f32) (i : S4x100x2048.Idx) :
    RefTerm.upTo k x i = Ideal.ofBits .f32 k - x i := by
  unfold RefTerm.upTo
  rw [subf_apply, broadcastInDim_scalar_apply, constant_apply]

/-- A blend at (b, l, m, e): the two looked-up entries weighted by the two distances, added, and divided by the
    range's length; sum, product, difference and quotient are the extended reals' at each element. -/
theorem blend_apply (k : BitVec 32) (lo hi : FVec Ideal S4x100x2048x50 .f32) (x : FVec Ideal S4x100x2048 .f32) (b : Fin 4)
    (l : Fin 100) (m : Fin 2048) (e : Fin 50) :
    RefTerm.blend k lo hi x (ix4 b l m e)
      = Ideal.div (lo (ix4 b l m e) * (Ideal.ofBits .f32 k - x (ix3 b l m))
          + hi (ix4 b l m e) * (x (ix3 b l m) - Ideal.ofBits .f32 0x00000000#32)) (Ideal.ofBits .f32 k) := by
  unfold RefTerm.blend
  rw [hostDivf_apply, addf_apply, mulf_apply, mulf_apply, spread50_apply, spread50_apply, upTo_apply, fromZero_apply,
    broadcastInDim_scalar_apply, constant_apply]

/-- With every `traj_location` in `1 … 4096` the reference's term IS the specification. -/
theorem out_eq_G (a0 : IVec S4x100 32) (a1 : FVec Ideal S4096x2048 .f32) (a2 : FVec Ideal S4x100 .f32) (a3 : IVec S4 32)
    (a4 a5 a6 a7 : FVec Ideal S2x50 .f32) (hrange : ∀ i, 1 ≤ (a0 i).toInt ∧ (a0 i).toInt ≤ 4096) :
    RefTerm.out (F := Ideal) a0 a1 a2 a3 a4 a5 a6 a7 = Cert.Spec.G a0 a1 a2 a3 a4 a5 a6 a7 := by
  funext i
  obtain ⟨b, l, m, e, rfl⟩ : ∃ b l m e, i = ix4 b l m e := ⟨i 0, i 1, i 2, i 3, eq_ix4 i⟩
  unfold RefTerm.out
  rw [addf_apply, blend_apply, blend_apply, take_live_apply, take_live_apply, take_live_apply, take_live_apply,
    xArr_apply a0 a1 a3 hrange, timeArr_apply]
  rfl

end Cert.ReferenceIdeal.RefValue

end
-- ==== Proof.lean ====
/-
  The certificate's claim: the five conjuncts of `Cert.Claim`.

  The kernel computes, for every trajectory position `(b, l)`, location `m` and embedding coordinate `e`, a linear
  interpolation between a lower and an upper embedding vector, once in space (by the distance `mat2[loc − 1, m]`, masked
  to zero outside the valid prefix `l < traj_length[b]`) and once in time (by `vector[b, l]`), the embedding row chosen
  by the validity flag. The reference states it with quotients, `(e_sl·(1000 − d) + e_su·d)/1000 + (e_tl·(86400 − t) +
  e_tu·t)/86400`; the kernel distributes the quotients as products with the reciprocals, which the idealization reads
  at their exact values `1/1000` and `1/86400`, and selects a row as `row0·(1 − v) + row1·v` with `v ∈ {0, 1}`.

  Over the extended reals the two forms agree on finite inputs (distributivity needs finiteness), and the two programs
  read the same row of `mat2` when `traj_location − 1` is a row index, `1 ≤ traj_location ≤ 4096` — the precondition's
  added conjunct; for a location `≤ 0` the reference's indexing wraps around while the kernel clips to row 0.

  Both runs are shown to end with the result at ONE function `Spec.G` of the argument arrays: the kernel's from its
  frame run, block by block and through the final reshape (`KArray.run`); the reference's from its straight-line run
  (`RefRun.run`) read index by index (`RefValue.out_eq_G`). The frames of the two kernel programs are their frame
  runs; the reference's frame is its run with the result dropped; `preserves` is the two named reciprocals, twice each.
-/
import proofs.«417881_j60696477827087_4_alg».proof.Defs
import proofs.«417881_j60696477827087_4_alg».proof.Proof.Gen.Kernel
import proofs.«417881_j60696477827087_4_alg».proof.Proof.Gen.Kernel.Frame
import proofs.«417881_j60696477827087_4_alg».proof.Proof.Gen.KernelIdeal
import proofs.«417881_j60696477827087_4_alg».proof.Proof.Gen.KernelIdeal.Frame
import proofs.«417881_j60696477827087_4_alg».proof.Proof.Gen.ReferenceIdeal
import proofs.«417881_j60696477827087_4_alg».proof.Proof.Gen.Pre_finite_inputs
import proofs.«417881_j60696477827087_4_alg».proof.Proof.PreDecode
import proofs.«417881_j60696477827087_4_alg».proof.Proof.KArray
import proofs.«417881_j60696477827087_4_alg».proof.Proof.RefRun
import proofs.«417881_j60696477827087_4_alg».proof.Proof.RefValue
import Idealize.ShloMosaic.Adequacy
import Idealize.ShloMosaic.Init

noncomputable section

namespace Cert.Proof

open Idealize.ShloMosaic Idealize.ShloMosaic.TcCoe Idealize.SL.Sem

/-- The word-level kernel terminates without a fault and leaves its arguments unchanged: its frame run. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization named the two reciprocals (each spelt twice in the body): the table gives `inv_1000` the value
    `1/1000` and `inv_86400` the value `1/86400`, and the printed constants are those values at `Ideal`. -/
theorem preserves : Cert.preserves_Kernel_KernelIdeal :=
  ⟨IdealRules.named_const.statement Cert.KernelIdeal.κ "inv_1000" .f32 0x3A83126F#32 ((1 / 1000 : ℝ) : EReal) rfl,
    IdealRules.named_const.statement Cert.KernelIdeal.κ "inv_1000" .f32 0x3A83126F#32 ((1 / 1000 : ℝ) : EReal) rfl,
    IdealRules.named_const.statement Cert.KernelIdeal.κ "inv_86400" .f32 0x37422E45#32 ((1 / 86400 : ℝ) : EReal) rfl,
    IdealRules.named_const.statement Cert.KernelIdeal.κ "inv_86400" .f32 0x37422E45#32 ((1 / 86400 : ℝ) : EReal) rfl⟩

/-- What the precondition gives on every core: finite float inputs and locations in `1 … 4096`. -/
theorem ok_of_pre (m : (ℓ : Loc Cert.KernelIdeal.nD Cert.KernelIdeal.τ Cert.KernelIdeal.sig) → Buf (Elt Ideal) ℓ)
    (hpre : Cert.Pre_KernelIdeal m) (c : Dev Cert.KernelIdeal.nD) : Cert.KernelIdeal.KArray.Ok m c := by
  obtain ⟨h1, h2, h4, h5, h6, h7, h0⟩ := Cert.Pre_finite_inputs.Decode.of_pre _ _ _ _ _ _ _ _ (hpre c)
  exact ⟨h1, h2, h4, h5, h6, h7, h0⟩

/-- From memories agreeing on the arguments, both idealized programs end with the result at `Spec.G` of those arguments. -/
theorem algebraic : Cert.algebraic_KernelIdeal_ReferenceIdeal := by
  intro m ρ m' ρ' hpre hagree
  have hok := ok_of_pre m hpre
  refine ⟨fun c => Cert.KernelIdeal.KArray.Gc m c, Cert.KernelIdeal.KArray.run m ρ hok, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2]
  exact Cert.ReferenceIdeal.RefValue.out_eq_G _ _ _ _ _ _ _ _ (hok c).range

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
